-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x8192 : Shape := ⟨2, ![2048, 8192]⟩
abbrev S2048x3 : Shape := ⟨2, ![2048, 3]⟩
abbrev S_ : Shape := ⟨0, ![]⟩

class Facts : Prop where
  bcast_S_S2048x8192 : S_.BroadcastsInDim S2048x8192 (![] : Fin 0 → Fin S2048x8192.rank)
  reducesTo_S2048x8192_S_d0_1 : S2048x8192.ReducesTo [0, 1] S_
  h_S_ : 0 < S_.numel
  bcast_S_S2048x3 : S_.BroadcastsInDim S2048x3 (![] : Fin 0 → Fin S2048x3.rank)
  reducesTo_S2048x3_S_d0_1 : S2048x3.ReducesTo [0, 1] S_

variable [Facts]

def fn_part1 {F : FTy → Type} [FloatOps F] (main_v13 : IVec S_ 1) (main_v16 : IVec S2048x3 1) : IVec S_ 1 :=
  let main_c_5 : IVec S_ 1 := constantI S_ 1 1#1
  let main_v17 : IVec S_ 1 := (fun x v => Host.reduce IntOp.andi x v reducesTo_S2048x3_S_d0_1 h_S_) main_v16 main_c_5
  let main_v18 : IVec S_ 1 := andi main_v13 main_v17
  main_v18

def fn {F : FTy → Type} [FloatOps F] (main_arg0 : FVec F S2048x8192 .f32) (main_arg1 : FVec F S2048x3 .f32) (main_arg2 : FVec F S2048x8192 .f32) (main_arg3 : FVec F S2048x3 .f32) : IVec S_ 1 :=
  let main_v0 : FVec F S2048x8192 .f32 := Host.absf main_arg0
  let main_cst : FVec F S_ .f32 := constant S_ .f32 0x7F800000#32
  let main_v1 : FVec F S2048x8192 .f32 := broadcastInDim S2048x8192 ![] bcast_S_S2048x8192 main_cst
  let main_v2 : IVec S2048x8192 1 := cmpf .olt main_v0 main_v1
  let main_c : IVec S_ 1 := constantI S_ 1 1#1
  let main_v3 : IVec S_ 1 := (fun x v => Host.reduce IntOp.andi x v reducesTo_S2048x8192_S_d0_1 h_S_) main_v2 main_c
  let main_v4 : FVec F S2048x3 .f32 := Host.absf main_arg1
  let main_cst_0 : FVec F S_ .f32 := constant S_ .f32 0x7F800000#32
  let main_v5 : FVec F S2048x3 .f32 := broadcastInDim S2048x3 ![] bcast_S_S2048x3 main_cst_0
  let main_v6 : IVec S2048x3 1 := cmpf .olt main_v4 main_v5
  let main_c_1 : IVec S_ 1 := constantI S_ 1 1#1
  let main_v7 : IVec S_ 1 := (fun x v => Host.reduce IntOp.andi x v reducesTo_S2048x3_S_d0_1 h_S_) main_v6 main_c_1
  let main_v8 : IVec S_ 1 := andi main_v3 main_v7
  let main_v9 : FVec F S2048x8192 .f32 := Host.absf main_arg2
  let main_cst_2 : FVec F S_ .f32 := constant S_ .f32 0x7F800000#32
  let main_v10 : FVec F S2048x8192 .f32 := broadcastInDim S2048x8192 ![] bcast_S_S2048x8192 main_cst_2
  let main_v11 : IVec S2048x8192 1 := cmpf .olt main_v9 main_v10
  let main_c_3 : IVec S_ 1 := constantI S_ 1 1#1
  let main_v12 : IVec S_ 1 := (fun x v => Host.reduce IntOp.andi x v reducesTo_S2048x8192_S_d0_1 h_S_) main_v11 main_c_3
  let main_v13 : IVec S_ 1 := andi main_v8 main_v12
  let main_v14 : FVec F S2048x3 .f32 := Host.absf main_arg3
  let main_cst_4 : FVec F S_ .f32 := constant S_ .f32 0x7F800000#32
  let main_v15 : FVec F S2048x3 .f32 := broadcastInDim S2048x3 ![] bcast_S_S2048x3 main_cst_4
  let main_v16 : IVec S2048x3 1 := cmpf .olt main_v14 main_v15
  fn_part1 (F := F) main_v13 main_v16
-- ==== Kernel.lean ====
abbrev S2048x8192 : Shape := ⟨2, ![2048, 8192]⟩
abbrev S2048x3 : Shape := ⟨2, ![2048, 3]⟩
abbrev S2x8x128 : Shape := ⟨3, ![2, 8, 128]⟩
abbrev S128x8192 : Shape := ⟨2, ![128, 8192]⟩
abbrev S1x8x128 : Shape := ⟨3, ![1, 8, 128]⟩
abbrev S1x8192 : Shape := ⟨2, ![1, 8192]⟩
abbrev S8x128 : Shape := ⟨2, ![8, 128]⟩
abbrev S8192 : Shape := ⟨1, ![8192]⟩
abbrev S1x1x8192 : Shape := ⟨3, ![1, 1, 8192]⟩
abbrev S1 : Shape := ⟨1, ![1]⟩
abbrev S1x1x1 : Shape := ⟨3, ![1, 1, 1]⟩
abbrev S1x1 : Shape := ⟨2, ![1, 1]⟩
abbrev S2x1x1 : Shape := ⟨3, ![2, 1, 1]⟩
abbrev S2 : Shape := ⟨1, ![2]⟩
abbrev S_ : Shape := ⟨0, ![]⟩
abbrev S2048x4 : Shape := ⟨2, ![2048, 4]⟩
abbrev S2048x1 : Shape := ⟨2, ![2048, 1]⟩
abbrev S2048 : Shape := ⟨1, ![2048]⟩

abbrev nBuf : Space → Nat
  | .hbm => 160
  | .vmem => 7
  | .smem => 0
  | _ => 0

abbrev hbmTy0_0 (i : Nat) : BufTy := match i % 128 with
  | 0 => ⟨S2048x8192, .f32⟩
  | 1 => ⟨S2048x3, .f32⟩
  | 2 => ⟨S2048x8192, .f32⟩
  | 3 => ⟨S2048x3, .f32⟩
  | 4 => ⟨S2x8x128, .f32⟩
  | 5 => ⟨S2x1x1, .f32⟩
  | 6 => ⟨S2, .f32⟩
  | 7 => ⟨S_, .f32⟩
  | 8 => ⟨S_, .f32⟩
  | 9 => ⟨S2048x4, .f32⟩
  | 10 => ⟨S2048x4, .f32⟩
  | 11 => ⟨S2048x4, .f32⟩
  | 12 => ⟨S2048x4, .f32⟩
  | 13 => ⟨S2048x4, .f32⟩
  | 14 => ⟨S2048x4, .f32⟩
  | 15 => ⟨S2048x1, .f32⟩
  | 16 => ⟨S2048, .f32⟩
  | 17 => ⟨S2048x1, .f32⟩
  | 18 => ⟨S2048, .f32⟩
  | 19 => ⟨S2048x1, .f32⟩
  | 20 => ⟨S2048, .f32⟩
  | 21 => ⟨S2048x1, .f32⟩
  | 22 => ⟨S2048, .f32⟩
  | 23 => ⟨S2048x1, .f32⟩
  | 24 => ⟨S2048, .f32⟩
  | 25 => ⟨S2048x1, .f32⟩
  | 26 => ⟨S2048, .f32⟩
  | 27 => ⟨S2048x1, .f32⟩
  | 28 => ⟨S2048, .f32⟩
  | 29 => ⟨S2048x1, .f32⟩
  | 30 => ⟨S2048, .f32⟩
  | 31 => ⟨S_, .f32⟩
  | 32 => ⟨S2048, .f32⟩
  | 33 => ⟨S2048, .f32⟩
  | 34 => ⟨S_, .f32⟩
  | 35 => ⟨S2048, .f32⟩
  | 36 => ⟨S2048, .f32⟩
  | 37 => ⟨S2048, .f32⟩
  | 38 => ⟨S_, .f32⟩
  | 39 => ⟨S2048, .f32⟩
  | 40 => ⟨S2048, .f32⟩
  | 41 => ⟨S2048, .f32⟩
  | 42 => ⟨S_, .f32⟩
  | 43 => ⟨S2048, .f32⟩
  | 44 => ⟨S2048, .f32⟩
  | 45 => ⟨S_, .f32⟩
  | 46 => ⟨S2048, .f32⟩
  | 47 => ⟨S2048, .f32⟩
  | 48 => ⟨S2048, .f32⟩
  | 49 => ⟨S_, .f32⟩
  | 50 => ⟨S2048, .f32⟩
  | 51 => ⟨S2048, .f32⟩
  | 52 => ⟨S2048, .f32⟩
  | 53 => ⟨S_, .f32⟩
  | 54 => ⟨S2048, .f32⟩
  | 55 => ⟨S2048, .f32⟩
  | 56 => ⟨S2048, .f32⟩
  | 57 => ⟨S_, .f32⟩
  | 58 => ⟨S2048, .f32⟩
  | 59 => ⟨S2048, .f32⟩
  | 60 => ⟨S2048, .f32⟩
  | 61 => ⟨S_, .f32⟩
  | 62 => ⟨S2048, .f32⟩
  | 63 => ⟨S2048, .f32⟩
  | 64 => ⟨S_, .f32⟩
  | 65 => ⟨S2048, .f32⟩
  | 66 => ⟨S2048, .f32⟩
  | 67 => ⟨S2048, .f32⟩
  | 68 => ⟨S_, .f32⟩
  | 69 => ⟨S2048, .f32⟩
  | 70 => ⟨S2048, .f32⟩
  | 71 => ⟨S2048, .f32⟩
  | 72 => ⟨S_, .f32⟩
  | 73 => ⟨S2048, .f32⟩
  | 74 => ⟨S2048, .f32⟩
  | 75 => ⟨S2048, .f32⟩
  | 76 => ⟨S_, .f32⟩
  | 77 => ⟨S2048, .f32⟩
  | 78 => ⟨S2048, .f32⟩
  | 79 => ⟨S_, .f32⟩
  | 80 => ⟨S2048, .f32⟩
  | 81 => ⟨S2048, .f32⟩
  | 82 => ⟨S2048, .f32⟩
  | 83 => ⟨S_, .f32⟩
  | 84 => ⟨S2048, .f32⟩
  | 85 => ⟨S2048, .f32⟩
  | 86 => ⟨S2048, .f32⟩
  | 87 => ⟨S_, .f32⟩
  | 88 => ⟨S2048, .f32⟩
  | 89 => ⟨S2048, .f32⟩
  | 90 => ⟨S2048, .f32⟩
  | 91 => ⟨S_, .f32⟩
  | 92 => ⟨S2048, .f32⟩
  | 93 => ⟨S2048, .f32⟩
  | 94 => ⟨S2048, .f32⟩
  | 95 => ⟨S_, .f32⟩
  | 96 => ⟨S2048, .f32⟩
  | 97 => ⟨S2048, .f32⟩
  | 98 => ⟨S_, .f32⟩
  | 99 => ⟨S2048, .f32⟩
  | 100 => ⟨S2048, .f32⟩
  | 101 => ⟨S2048, .f32⟩
  | 102 => ⟨S_, .f32⟩
  | 103 => ⟨S2048, .f32⟩
  | 104 => ⟨S2048, .f32⟩
  | 105 => ⟨S2048, .f32⟩
  | 106 => ⟨S_, .f32⟩
  | 107 => ⟨S2048, .f32⟩
  | 108 => ⟨S2048, .f32⟩
  | 109 => ⟨S2048, .f32⟩
  | 110 => ⟨S_, .f32⟩
  | 111 => ⟨S2048, .f32⟩
  | 112 => ⟨S2048, .f32⟩
  | 113 => ⟨S2048, .f32⟩
  | 114 => ⟨S_, .f32⟩
  | 115 => ⟨S2048, .f32⟩
  | 116 => ⟨S2048, .f32⟩
  | 117 => ⟨S_, .f32⟩
  | 118 => ⟨S2048, .f32⟩
  | 119 => ⟨S2048, .f32⟩
  | 120 => ⟨S2048, .f32⟩
  | 121 => ⟨S_, .f32⟩
  | 122 => ⟨S2048, .f32⟩
  | 123 => ⟨S2048, .f32⟩
  | 124 => ⟨S2048, .f32⟩
  | 125 => ⟨S_, .f32⟩
  | 126 => ⟨S2048, .f32⟩
  | 127 => ⟨S2048, .f32⟩
  | _ => ⟨S2048x8192, .f32⟩

abbrev hbmTy0_1 (i : Nat) : BufTy := match i % 128 with
  | 0 => ⟨S2048, .f32⟩
  | 1 => ⟨S_, .f32⟩
  | 2 => ⟨S2048, .f32⟩
  | 3 => ⟨S2048, .f32⟩
  | 4 => ⟨S2048, .f32⟩
  | 5 => ⟨S2048, .f32⟩
  | 6 => ⟨S2048, .f32⟩
  | 7 => ⟨S2048, .f32⟩
  | 8 => ⟨S2048, .f32⟩
  | 9 => ⟨S2048, .f32⟩
  | 10 => ⟨S2048, .f32⟩
  | 11 => ⟨S2048, .f32⟩
  | 12 => ⟨S2048, .f32⟩
  | 13 => ⟨S2048, .f32⟩
  | 14 => ⟨S2048, .f32⟩
  | 15 => ⟨S2048, .f32⟩
  | 16 => ⟨S2048, .f32⟩
  | 17 => ⟨S2048, .f32⟩
  | 18 => ⟨S2048, .f32⟩
  | 19 => ⟨S2048, .f32⟩
  | 20 => ⟨S_, .f32⟩
  | 21 => ⟨S_, .f32⟩
  | 22 => ⟨S_, .f32⟩
  | 23 => ⟨S2048x3, .f32⟩
  | 24 => ⟨S2048x3, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | _ => ⟨S2048x8192, .f32⟩

abbrev hbmTy (i : Nat) : BufTy := match i / 128 with
  | 0 => hbmTy0_0 i
  | 1 => hbmTy0_1 i
  | _ => ⟨S2048x8192, .f32⟩

abbrev bufTy : (tb : Table) → Fin (tcTables nBuf tb) → BufTy
  | .hbm, ⟨i, _⟩ => hbmTy i
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S1x8x128, .f32⟩
  | .local _ .vmem, ⟨5, _⟩ => ⟨S1x8x128, .f32⟩
  | .local _ .vmem, ⟨6, _⟩ => ⟨S1x8192, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_0 : Ref sig .tc := ⟨.hbm, 31, rfl⟩
abbrev main_v26 : Ref sig .tc := ⟨.hbm, 32, rfl⟩
abbrev main_v27 : Ref sig .tc := ⟨.hbm, 33, rfl⟩
abbrev main_cst_1 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_8 : Ref sig .tc := ⟨.hbm, 61, rfl⟩
abbrev main_v48 : Ref sig .tc := ⟨.hbm, 62, rfl⟩
abbrev main_v49 : Ref sig .tc := ⟨.hbm, 63, rfl⟩
abbrev main_cst_9 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_10 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_11 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_v60 : Ref sig .tc := ⟨.hbm, 78, rfl⟩
abbrev main_cst_13 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_14 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_15 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_16 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_17 : Ref sig .tc := ⟨.hbm, 95, rfl⟩
abbrev main_v73 : Ref sig .tc := ⟨.hbm, 96, rfl⟩
abbrev main_v74 : Ref sig .tc := ⟨.hbm, 97, rfl⟩
abbrev main_cst_18 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_19 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_20 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_21 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_22 : Ref sig .tc := ⟨.hbm, 114, rfl⟩
abbrev main_v87 : Ref sig .tc := ⟨.hbm, 115, rfl⟩
abbrev main_v88 : Ref sig .tc := ⟨.hbm, 116, rfl⟩
abbrev main_cst_23 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_24 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_25 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_26 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_cst_27 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_cst_28 : Ref sig .tc := ⟨.hbm, 153, rfl⟩
abbrev main_v120 : Ref sig .tc := ⟨.hbm, 154, rfl⟩
abbrev main_cst_29 : Ref sig .tc := ⟨.hbm, 155, rfl⟩
abbrev main_v121 : Ref sig .tc := ⟨.hbm, 156, rfl⟩
abbrev main_cst_30 : Ref sig .tc := ⟨.hbm, 157, rfl⟩
abbrev main_v122 : Ref sig .tc := ⟨.hbm, 158, rfl⟩
abbrev main_v123 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c7_i32 : BitVec 32 := 7#32
  let v28 : BitVec 1 := Scalar.cmpi .eq arg1 c7_i32
  let v29 : BitVec 32 := Scalar.extui v28
  let c0_i32_11 : BitVec 32 := 0#32
  let v30 : BitVec 1 := Scalar.cmpi .ne v29 c0_i32_11
  v30

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S128x8192_S128x8192_0_0 : ∀ a, (![0, 0] : Fin 2 → Nat) a + S128x8192.size a ≤ S128x8192.size a
  h_S128x8192 : 0 < S128x8192.numel
  rotates_S128x8192_d1 : S128x8192.Rotates 1 none
  reduces_S128x8192_S8192 : S128x8192.Reduces [0] S8192
  shapeCasts_S8192_S1x8192 : S8192.ShapeCasts S1x8192
  shapeCasts_S1x8192_S1x1x8192 : S1x8192.ShapeCasts S1x1x8192
  reduces_S1x1x8192_S1 : S1x1x8192.Reduces [1, 2] S1
  shapeCasts_S1_S1x1x1 : S1.ShapeCasts S1x1x1
  inpos_S1x1x1_p0_0_0 : ∀ a, (![0, 0, 0] : Fin 3 → Nat) a < S1x1x1.size a
  iota_S8x128_d0_w32 : S8x128.Iotas .tc 32 [0]
  iota_S8x128_d1_w32 : S8x128.Iotas .tc 32 [1]
  inpos_S1x1_p0_0 : ∀ a, (![0, 0] : Fin 2 → Nat) a < S1x1.size a
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  slices_S2048x8192_S2048x4_0_0 : S2048x8192.Slices ![0, 0] S2048x4
  slices_S2048x8192_S2048x4_0_8188 : S2048x8192.Slices ![0, 8188] S2048x4
  slices_S2048x4_S2048x1_0_0 : S2048x4.Slices ![0, 0] S2048x1
  shapeCasts_S2048x1_S2048 : S2048x1.ShapeCasts S2048
  slices_S2048x4_S2048x1_0_1 : S2048x4.Slices ![0, 1] S2048x1
  slices_S2048x4_S2048x1_0_2 : S2048x4.Slices ![0, 2] S2048x1
  slices_S2048x4_S2048x1_0_3 : S2048x4.Slices ![0, 3] S2048x1
  bcast_S_S2048 : S_.BroadcastsInDim S2048 (![] : Fin 0 → Fin S2048.rank)
  reducesTo_S2048_S_d0 : S2048.ReducesTo [0] S_
  reducesTo_S2048x3_S_d0_1 : S2048x3.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S2048x8192.size a
  hwx0_0 : ∀ i : grid0.Coords, EltTy.bits .f32 = 32 ∨ (Rect.block (s := S2048x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S2048x8192.size a
  hwx0_1 : ∀ i : grid0.Coords, EltTy.bits .f32 = 32 ∨ (Rect.block (s := S2048x8192) S128x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S2048x8192 : Shape := ⟨2, ![2048, 8192]⟩
abbrev S2048x3 : Shape := ⟨2, ![2048, 3]⟩
abbrev S5 : Shape := ⟨1, ![5]⟩
abbrev S_ : Shape := ⟨0, ![]⟩
abbrev S2048x8196 : Shape := ⟨2, ![2048, 8196]⟩
abbrev S1 : Shape := ⟨1, ![1]⟩

abbrev nBuf : Space → Nat
  | .hbm => 50
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x3, .f32⟩
  | .hbm, ⟨2, _⟩ => ⟨S2048x8192, .f32⟩
  | .hbm, ⟨3, _⟩ => ⟨S2048x3, .f32⟩
  | .hbm, ⟨4, _⟩ => ⟨S5, .f32⟩
  | .hbm, ⟨5, _⟩ => ⟨S2048x8192, .f32⟩
  | .hbm, ⟨6, _⟩ => ⟨S_, .i32⟩
  | .hbm, ⟨7, _⟩ => ⟨S_, .f32⟩
  | .hbm, ⟨8, _⟩ => ⟨S2048x8196, .f32⟩
  | .hbm, ⟨9, _⟩ => ⟨S1, .f32⟩
  | .hbm, ⟨10, _⟩ => ⟨S_, .f32⟩
  | .hbm, ⟨11, _⟩ => ⟨S2048x8192, .f32⟩
  | .hbm, ⟨12, _⟩ => ⟨S2048x8192, .f32⟩
  | .hbm, ⟨13, _⟩ => ⟨S2048x8192, .f32⟩
  | .hbm, ⟨14, _⟩ => ⟨S1, .f32⟩
  | .hbm, ⟨15, _⟩ => ⟨S_, .f32⟩
  | .hbm, ⟨16, _⟩ => ⟨S2048x8192, .f32⟩
  | .hbm, ⟨17, _⟩ => ⟨S2048x8192, .f32⟩
  | .hbm, ⟨18, _⟩ => ⟨S2048x8192, .f32⟩
  | .hbm, ⟨19, _⟩ => ⟨S2048x8192, .f32⟩
  | .hbm, ⟨20, _⟩ => ⟨S1, .f32⟩
  | .hbm, ⟨21, _⟩ => ⟨S_, .f32⟩
  | .hbm, ⟨22, _⟩ => ⟨S2048x8192, .f32⟩
  | .hbm, ⟨23, _⟩ => ⟨S2048x8192, .f32⟩
  | .hbm, ⟨24, _⟩ => ⟨S2048x8192, .f32⟩
  | .hbm, ⟨25, _⟩ => ⟨S2048x8192, .f32⟩
  | .hbm, ⟨26, _⟩ => ⟨S1, .f32⟩
  | .hbm, ⟨27, _⟩ => ⟨S_, .f32⟩
  | .hbm, ⟨28, _⟩ => ⟨S2048x8192, .f32⟩
  | .hbm, ⟨29, _⟩ => ⟨S2048x8192, .f32⟩
  | .hbm, ⟨30, _⟩ => ⟨S2048x8192, .f32⟩
  | .hbm, ⟨31, _⟩ => ⟨S2048x8192, .f32⟩
  | .hbm, ⟨32, _⟩ => ⟨S1, .f32⟩
  | .hbm, ⟨33, _⟩ => ⟨S_, .f32⟩
  | .hbm, ⟨34, _⟩ => ⟨S2048x8192, .f32⟩
  | .hbm, ⟨35, _⟩ => ⟨S2048x8192, .f32⟩
  | .hbm, ⟨36, _⟩ => ⟨S2048x8192, .f32⟩
  | .hbm, ⟨37, _⟩ => ⟨S2048x8192, .f32⟩
  | .hbm, ⟨38, _⟩ => ⟨S2048x8192, .f32⟩
  | .hbm, ⟨39, _⟩ => ⟨S_, .f32⟩
  | .hbm, ⟨40, _⟩ => ⟨S_, .f32⟩
  | .hbm, ⟨41, _⟩ => ⟨S2048x3, .f32⟩
  | .hbm, ⟨42, _⟩ => ⟨S2048x3, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_0 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_1 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]

class Facts₀ : Prop where
  pads_S2048x8192_S2048x8196_000_220 : S2048x8192.Pads (![0, 2] : Fin 2 → Nat) ![0, 2] ![0, 0] S2048x8196
  h_S_ : 0 < S_.numel
  slices_S5_S1_0 : S5.Slices ![0] S1
  shapeCasts_S1_S_ : S1.ShapeCasts S_
  slices_S2048x8196_S2048x8192_0_0 : S2048x8196.Slices ![0, 0] S2048x8192
  bcast_S_S2048x8192 : S_.BroadcastsInDim S2048x8192 (![] : Fin 0 → Fin S2048x8192.rank)
  slices_S5_S1_1 : S5.Slices ![1] S1
  slices_S2048x8196_S2048x8192_0_1 : S2048x8196.Slices ![0, 1] S2048x8192
  slices_S5_S1_2 : S5.Slices ![2] S1
  slices_S2048x8196_S2048x8192_0_2 : S2048x8196.Slices ![0, 2] S2048x8192
  slices_S5_S1_3 : S5.Slices ![3] S1
  slices_S2048x8196_S2048x8192_0_3 : S2048x8196.Slices ![0, 3] S2048x8192
  slices_S5_S1_4 : S5.Slices ![4] S1
  slices_S2048x8196_S2048x8192_0_4 : S2048x8196.Slices ![0, 4] S2048x8192
  reducesTo_S2048x8192_S_d0_1 : S2048x8192.ReducesTo [0, 1] S_
  reducesTo_S2048x3_S_d0_1 : S2048x3.ReducesTo [0, 1] S_

variable [Facts₀]

class Facts : Prop extends Facts₀ where

variable [Facts]
-- ==== Proof.FrameB.Base.lean ====
/-
  The kernel's launch, before its body: what the pipeline's region finds and what the lines after it touch.
  @main is ONE region (grid 2 × 8: core c, step j) followed by 155 host operations. The region's three windows are
  two inputs (rows 128·(8c + j) … of target and prediction, all 8192 columns) and one output (block c of the
  f32[2, 8, 128] result, revisited over j and written back only after j = 7); a scratch row f32[1, 8192] is carried
  from step to step. Here: the valuation at the region's entry, @main as region-then-lines, the lines' footprint
  (they touch unscoped buffers only, allocate nothing and write none of the three arrays), each input's block,
  the frame claim's post read off a frame run, the two branch conditions of the body (j = 0, j = 7) decided over
  the sixteen points, where the output window is idle, and the region invariant with the scratch as a memref.
-/
import proofs.«412695_j67551245631962_3_alg».proof.Proof.Gen.Kernel.Launch
import proofs.«412695_j67551245631962_3_alg».proof.Proof.Gen.Kernel.Skeleton
import proofs.«412695_j67551245631962_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: no host operation precedes it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

set_option maxHeartbeats 40000000 in
set_option maxRecDepth 200000 in
/-- The lines after the region allocate nothing. -/
theorem hostOps1_fresh : (hostOps1 : List (HloOp τ sig (Elt F))).Forall fun op => op.fresh = ∅ := by
  simp only [hostOps1, List.Forall]
  repeat' apply And.intro
  all_goals rfl

set_option maxHeartbeats 40000000 in
set_option maxRecDepth 200000 in
/-- @main is the region continued by the 155 lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The lines touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

set_option maxHeartbeats 40000000 in
set_option maxRecDepth 200000 in
/-- No line writes an argument or the kernel's result: each writes its own result buffer, which is none of these. -/
theorem hostOps1_keeps_arg0 : (hostOps1 : List (HloOp τ sig (Elt F))).Forall fun op => Proc.devRef .tc main_arg0 ∉ op.writes := by
  simp only [hostOps1, List.Forall, StableHlo.nullary_writes, StableHlo.unary_writes, StableHlo.binary_writes, StableHlo.reshape_writes, Finset.mem_singleton]
  repeat' apply And.intro
  all_goals exact StableHlo.devRef_ne_of_ne (by decide)

set_option maxHeartbeats 40000000 in
set_option maxRecDepth 200000 in
theorem hostOps1_keeps_arg1 : (hostOps1 : List (HloOp τ sig (Elt F))).Forall fun op => Proc.devRef .tc main_arg1 ∉ op.writes := by
  simp only [hostOps1, List.Forall, StableHlo.nullary_writes, StableHlo.unary_writes, StableHlo.binary_writes, StableHlo.reshape_writes, Finset.mem_singleton]
  repeat' apply And.intro
  all_goals exact StableHlo.devRef_ne_of_ne (by decide)

set_option maxHeartbeats 40000000 in
set_option maxRecDepth 200000 in
theorem hostOps1_keeps_arg2 : (hostOps1 : List (HloOp τ sig (Elt F))).Forall fun op => Proc.devRef .tc main_arg2 ∉ op.writes := by
  simp only [hostOps1, List.Forall, StableHlo.nullary_writes, StableHlo.unary_writes, StableHlo.binary_writes, StableHlo.reshape_writes, Finset.mem_singleton]
  repeat' apply And.intro
  all_goals exact StableHlo.devRef_ne_of_ne (by decide)

set_option maxHeartbeats 40000000 in
set_option maxRecDepth 200000 in
theorem hostOps1_keeps_arg3 : (hostOps1 : List (HloOp τ sig (Elt F))).Forall fun op => Proc.devRef .tc main_arg3 ∉ op.writes := by
  simp only [hostOps1, List.Forall, StableHlo.nullary_writes, StableHlo.unary_writes, StableHlo.binary_writes, StableHlo.reshape_writes, Finset.mem_singleton]
  repeat' apply And.intro
  all_goals exact StableHlo.devRef_ne_of_ne (by decide)

set_option maxHeartbeats 40000000 in
set_option maxRecDepth 200000 in
theorem hostOps1_keeps_v0 : (hostOps1 : List (HloOp τ sig (Elt F))).Forall fun op => Proc.devRef .tc main_v0 ∉ op.writes := by
  simp only [hostOps1, List.Forall, StableHlo.nullary_writes, StableHlo.unary_writes, StableHlo.binary_writes, StableHlo.reshape_writes, Finset.mem_singleton]
  repeat' apply And.intro
  all_goals exact StableHlo.devRef_ne_of_ne (by decide)

/-- So no line writes one of the pipeline's three arrays (target, prediction, the kernel's result). -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  have h0 : Proc.devRef .tc main_arg0 ∉ op.writes := (List.forall_iff_forall_mem.mp hostOps1_keeps_arg0) op hop
  have h1 : Proc.devRef .tc main_arg2 ∉ op.writes := (List.forall_iff_forall_mem.mp hostOps1_keeps_arg2) op hop
  have h2 : Proc.devRef .tc main_v0 ∉ op.writes := (List.forall_iff_forall_mem.mp hostOps1_keeps_v0) op hop
  fin_cases w
  · exact h0
  · exact h1
  · exact h2

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's staging buffer holds its block at every point, for any proof data over the entry arrays whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The branch conditions of the body, over the grid -/

/-- The first branch (zero the accumulator and the output block) is taken when the step is 0, -/
abbrev cond0_0 (i : grid0.Coords) : Prop := k0_cond1 i = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- the second (reduce the accumulator into entry (0, 0) of the output block) when the step is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At step 0 the body stores into the output block: the window is live. -/
theorem liveAt0_2_A : ∀ t : Fin cfg0.N, cond0_0 (grid0.coords t) → ¬cond0_1 (grid0.coords t) → cfg0.idle 2 (grid0.coords t) = false := by decide +kernel
/-- At steps 1 … 6 it stores nothing there and the block is not written back. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- At step 7 it stores the reduced block: live. -/
theorem liveAt0_2_C : ∀ t : Fin cfg0.N, ¬cond0_0 (grid0.coords t) → cond0_1 (grid0.coords t) → cfg0.idle 2 (grid0.coords t) = false := by decide +kernel

/-! ## The memrefs the body is called on -/

/-- One staging buffer of the output window, through which its contents are stated. -/
abbrev VO0_2 : View sig .tc .vmem S1x8x128 .f32 := (Memref.whole cc0_stg2_0 : Memref sig .tc .vmem S1x8x128 .f32).view
abbrev ms0_0 (t : Fin cfg0.N) : Memref sig .tc .vmem S128x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x128 .f32 := win0_2.stage (cfg0.slots t 2)
abbrev hs0_2 (t : Fin cfg0.N) : (ms0_2 t).IsWhole := hstage0_2 ((cfg0.slots t 2).cast nbuf0_2)
/-- The accumulator row: a whole scoped buffer of the kernel's own. -/
abbrev scM0_0 : Memref sig .tc .vmem S1x8192 .f32 := Memref.whole cc0_scratch0
abbrev VS0_0 : View sig .tc .vmem S1x8192 .f32 := scM0_0.view

/-- The region invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.FrameB.RunA.lean ====
/-
  The body at step 0 of a core's eight steps (first branch taken, second not): on whole staging memrefs, the two input blocks at their contents, the output block's buffer and the accumulator row at anything, the body runs to the end leaving the inputs as they were, and the output buffer and the accumulator with the pieces its stores wrote (both are zeroed; the accumulator then takes the column sums of this block's squared filtered differences). The printed function is its skeleton, which the symbolic executor runs; the pieces are the witness the run finds.
-/
import proofs.«412695_j67551245631962_3_alg».proof.Proof.FrameB.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S128x8192 .f32) (harg2 : arg2.IsWhole) (arg3 : Memref sig .tc .vmem S128x8192 .f32) (harg3 : arg3.IsWhole) (arg4 : Memref sig .tc .vmem S1x8x128 .f32) (harg4 : arg4.IsWhole) (arg5 : Memref sig .tc .vmem S1x8192 .f32) (harg5 : arg5.IsWhole) (hc0 : cond0_0 i) (hc1 : ¬cond0_1 i)
    (x0 x1 : Vec F S128x8192 .f32) :
    Σ' (L2 : List (View.Piece (Elt F) S1x8x128 .f32)), { LS0 : List (View.Piece (Elt F) S1x8192 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__loss_kernel i arg2 harg2 arg3 harg3 arg4 harg4 arg5 harg5) K } := by
  refine ⟨?_, ?_, fun E K => ?run⟩
  case run =>
    simp only [cc0__loss_kernel_eq_skeleton]; unfold cc0__loss_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.FrameB.RunB.lean ====
/-
  The body at steps 1 … 6 (neither branch taken): the two input blocks at their contents, the output block's buffer at contents handed back untouched (the body stores nothing there), the accumulator row at what the step before left; the body leaves the accumulator with the piece its one store wrote: the old row plus this block's column sums.
-/
import proofs.«412695_j67551245631962_3_alg».proof.Proof.FrameB.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S128x8192 .f32) (harg2 : arg2.IsWhole) (arg3 : Memref sig .tc .vmem S128x8192 .f32) (harg3 : arg3.IsWhole) (arg4 : Memref sig .tc .vmem S1x8x128 .f32) (harg4 : arg4.IsWhole) (arg5 : Memref sig .tc .vmem S1x8192 .f32) (harg5 : arg5.IsWhole) (hc0 : ¬cond0_0 i) (hc1 : ¬cond0_1 i)
    (x0 x1 : Vec F S128x8192 .f32) (xs0 : Vec F S1x8192 .f32) :
    Σ' (L2 : List (View.Piece (Elt F) S1x8x128 .f32)), { LS0 : List (View.Piece (Elt F) S1x8192 .f32) //
      ∀ (xi2 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__loss_kernel i arg2 harg2 arg3 harg3 arg4 harg4 arg5 harg5) K } := by
  refine ⟨[], ?_, fun xi2 E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.FrameB.RunC.lean ====
/-
  The body at step 7 (second branch taken, first not): the two input blocks at their contents, the output block's buffer at anything, the accumulator row at what the step before left; the body leaves the accumulator with the piece its store wrote and the output buffer with the piece the last branch wrote: the accumulator's total at entry (0, 0) and zero elsewhere.
-/
import proofs.«412695_j67551245631962_3_alg».proof.Proof.FrameB.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S128x8192 .f32) (harg2 : arg2.IsWhole) (arg3 : Memref sig .tc .vmem S128x8192 .f32) (harg3 : arg3.IsWhole) (arg4 : Memref sig .tc .vmem S1x8x128 .f32) (harg4 : arg4.IsWhole) (arg5 : Memref sig .tc .vmem S1x8192 .f32) (harg5 : arg5.IsWhole) (hc0 : ¬cond0_0 i) (hc1 : cond0_1 i)
    (x0 x1 : Vec F S128x8192 .f32) (xs0 : Vec F S1x8192 .f32) :
    Σ' (L2 : List (View.Piece (Elt F) S1x8x128 .f32)), { LS0 : List (View.Piece (Elt F) S1x8192 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__loss_kernel i arg2 harg2 arg3 harg3 arg4 harg4 arg5 harg5) K } := by
  refine ⟨?_, ?_, fun E K => ?run⟩
  case run =>
    simp only [cc0__loss_kernel_eq_skeleton]; unfold cc0__loss_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.FrameB.Frame.lean ====
/-
  The kernel's frame: the body's obligation at every grid point, and the run of @main.
  A core's eight steps form one accumulation: at step 0 the body zeroes the accumulator row and the output block, at
  every step it adds to the accumulator the column sums of this block's squared filtered differences, and at step 7
  it stores the accumulator's total into entry (0, 0) of the output block (zero elsewhere), which the pipeline then
  writes back. What the output block's buffer and the accumulator hold after each point is defined by recursion on
  the point from the pieces each case's run leaves (`outsAt0`); the region invariant carries the accumulator at that
  value from point to point. The launch is the library's frame run for a region followed by host lines, with a
  tracking invariant; the frame claim reads the four arguments off its post.
-/
import proofs.«412695_j67551245631962_3_alg».proof.Proof.FrameB.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Step 0's stores into the output block tile it. -/
theorem cover0_A_2 (c : Dev nD) (i : grid0.Coords) (arg2 : Memref sig .tc .vmem S128x8192 .f32) (harg2 : arg2.IsWhole) (arg3 : Memref sig .tc .vmem S128x8192 .f32) (harg3 : arg3.IsWhole) (arg4 : Memref sig .tc .vmem S1x8x128 .f32) (harg4 : arg4.IsWhole) (arg5 : Memref sig .tc .vmem S1x8192 .f32) (harg5 : arg5.IsWhole) (hc0 : cond0_0 i) (hc1 : ¬cond0_1 i) (x0 x1 : Vec F S128x8192 .f32) (y : S1x8x128.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S1x8x128.size (by sl_kernel_rfl) y

/-- What step 0 leaves in the output block's buffer: its pieces read back. -/
def out0_A_2 (c : Dev nD) (i : grid0.Coords) (arg2 : Memref sig .tc .vmem S128x8192 .f32) (harg2 : arg2.IsWhole) (arg3 : Memref sig .tc .vmem S128x8192 .f32) (harg3 : arg3.IsWhole) (arg4 : Memref sig .tc .vmem S1x8x128 .f32) (harg4 : arg4.IsWhole) (arg5 : Memref sig .tc .vmem S1x8192 .f32) (harg5 : arg5.IsWhole) (hc0 : cond0_0 i) (hc1 : ¬cond0_1 i) (x0 x1 : Vec F S128x8192 .f32) : Vec F S1x8x128 .f32 :=
  VO0_2.read (Elt F) (VO0_2.writes (Elt F) VO0_2.junk (kernelRun0_A c i arg2 harg2 arg3 harg3 arg4 harg4 arg5 harg5 hc0 hc1 x0 x1).1)

theorem scover0_A_0 (c : Dev nD) (i : grid0.Coords) (arg2 : Memref sig .tc .vmem S128x8192 .f32) (harg2 : arg2.IsWhole) (arg3 : Memref sig .tc .vmem S128x8192 .f32) (harg3 : arg3.IsWhole) (arg4 : Memref sig .tc .vmem S1x8x128 .f32) (harg4 : arg4.IsWhole) (arg5 : Memref sig .tc .vmem S1x8192 .f32) (harg5 : arg5.IsWhole) (hc0 : cond0_0 i) (hc1 : ¬cond0_1 i) (x0 x1 : Vec F S128x8192 .f32) (y : S1x8192.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1x8192.size (by sl_kernel_rfl) y

/-- What step 0 leaves in the accumulator. -/
def sout0_A_0 (c : Dev nD) (i : grid0.Coords) (arg2 : Memref sig .tc .vmem S128x8192 .f32) (harg2 : arg2.IsWhole) (arg3 : Memref sig .tc .vmem S128x8192 .f32) (harg3 : arg3.IsWhole) (arg4 : Memref sig .tc .vmem S1x8x128 .f32) (harg4 : arg4.IsWhole) (arg5 : Memref sig .tc .vmem S1x8192 .f32) (harg5 : arg5.IsWhole) (hc0 : cond0_0 i) (hc1 : ¬cond0_1 i) (x0 x1 : Vec F S128x8192 .f32) : Vec F S1x8192 .f32 :=
  VS0_0.read (Elt F) (VS0_0.writes (Elt F) VS0_0.junk (kernelRun0_A c i arg2 harg2 arg3 harg3 arg4 harg4 arg5 harg5 hc0 hc1 x0 x1).2.1)

/-- Steps 1 … 6 store nothing into the output block: a placeholder nothing consults (the window is idle there and not
    written back). -/
def out0_B_2 (c : Dev nD) (i : grid0.Coords) (arg2 : Memref sig .tc .vmem S128x8192 .f32) (harg2 : arg2.IsWhole) (arg3 : Memref sig .tc .vmem S128x8192 .f32) (harg3 : arg3.IsWhole) (arg4 : Memref sig .tc .vmem S1x8x128 .f32) (harg4 : arg4.IsWhole) (arg5 : Memref sig .tc .vmem S1x8192 .f32) (harg5 : arg5.IsWhole) (hc0 : ¬cond0_0 i) (hc1 : ¬cond0_1 i) (x0 x1 : Vec F S128x8192 .f32) (xs0 : Vec F S1x8192 .f32) : Vec F S1x8x128 .f32 :=
  VO0_2.read (Elt F) (VO0_2.writes (Elt F) VO0_2.junk (kernelRun0_B c i arg2 harg2 arg3 harg3 arg4 harg4 arg5 harg5 hc0 hc1 x0 x1 xs0).1)

theorem scover0_B_0 (c : Dev nD) (i : grid0.Coords) (arg2 : Memref sig .tc .vmem S128x8192 .f32) (harg2 : arg2.IsWhole) (arg3 : Memref sig .tc .vmem S128x8192 .f32) (harg3 : arg3.IsWhole) (arg4 : Memref sig .tc .vmem S1x8x128 .f32) (harg4 : arg4.IsWhole) (arg5 : Memref sig .tc .vmem S1x8192 .f32) (harg5 : arg5.IsWhole) (hc0 : ¬cond0_0 i) (hc1 : ¬cond0_1 i) (x0 x1 : Vec F S128x8192 .f32) (xs0 : Vec F S1x8192 .f32) (y : S1x8192.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1x8192.size (by sl_kernel_rfl) y

def sout0_B_0 (c : Dev nD) (i : grid0.Coords) (arg2 : Memref sig .tc .vmem S128x8192 .f32) (harg2 : arg2.IsWhole) (arg3 : Memref sig .tc .vmem S128x8192 .f32) (harg3 : arg3.IsWhole) (arg4 : Memref sig .tc .vmem S1x8x128 .f32) (harg4 : arg4.IsWhole) (arg5 : Memref sig .tc .vmem S1x8192 .f32) (harg5 : arg5.IsWhole) (hc0 : ¬cond0_0 i) (hc1 : ¬cond0_1 i) (x0 x1 : Vec F S128x8192 .f32) (xs0 : Vec F S1x8192 .f32) : Vec F S1x8192 .f32 :=
  VS0_0.read (Elt F) (VS0_0.writes (Elt F) VS0_0.junk (kernelRun0_B c i arg2 harg2 arg3 harg3 arg4 harg4 arg5 harg5 hc0 hc1 x0 x1 xs0).2.1)

theorem cover0_C_2 (c : Dev nD) (i : grid0.Coords) (arg2 : Memref sig .tc .vmem S128x8192 .f32) (harg2 : arg2.IsWhole) (arg3 : Memref sig .tc .vmem S128x8192 .f32) (harg3 : arg3.IsWhole) (arg4 : Memref sig .tc .vmem S1x8x128 .f32) (harg4 : arg4.IsWhole) (arg5 : Memref sig .tc .vmem S1x8192 .f32) (harg5 : arg5.IsWhole) (hc0 : ¬cond0_0 i) (hc1 : cond0_1 i) (x0 x1 : Vec F S128x8192 .f32) (xs0 : Vec F S1x8192 .f32) (y : S1x8x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x8x128.size (by sl_kernel_rfl) y

/-- What step 7 leaves in the output block's buffer. -/
def out0_C_2 (c : Dev nD) (i : grid0.Coords) (arg2 : Memref sig .tc .vmem S128x8192 .f32) (harg2 : arg2.IsWhole) (arg3 : Memref sig .tc .vmem S128x8192 .f32) (harg3 : arg3.IsWhole) (arg4 : Memref sig .tc .vmem S1x8x128 .f32) (harg4 : arg4.IsWhole) (arg5 : Memref sig .tc .vmem S1x8192 .f32) (harg5 : arg5.IsWhole) (hc0 : ¬cond0_0 i) (hc1 : cond0_1 i) (x0 x1 : Vec F S128x8192 .f32) (xs0 : Vec F S1x8192 .f32) : Vec F S1x8x128 .f32 :=
  VO0_2.read (Elt F) (VO0_2.writes (Elt F) VO0_2.junk (kernelRun0_C c i arg2 harg2 arg3 harg3 arg4 harg4 arg5 harg5 hc0 hc1 x0 x1 xs0).1)

theorem scover0_C_0 (c : Dev nD) (i : grid0.Coords) (arg2 : Memref sig .tc .vmem S128x8192 .f32) (harg2 : arg2.IsWhole) (arg3 : Memref sig .tc .vmem S128x8192 .f32) (harg3 : arg3.IsWhole) (arg4 : Memref sig .tc .vmem S1x8x128 .f32) (harg4 : arg4.IsWhole) (arg5 : Memref sig .tc .vmem S1x8192 .f32) (harg5 : arg5.IsWhole) (hc0 : ¬cond0_0 i) (hc1 : cond0_1 i) (x0 x1 : Vec F S128x8192 .f32) (xs0 : Vec F S1x8192 .f32) (y : S1x8192.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1x8192.size (by sl_kernel_rfl) y

def sout0_C_0 (c : Dev nD) (i : grid0.Coords) (arg2 : Memref sig .tc .vmem S128x8192 .f32) (harg2 : arg2.IsWhole) (arg3 : Memref sig .tc .vmem S128x8192 .f32) (harg3 : arg3.IsWhole) (arg4 : Memref sig .tc .vmem S1x8x128 .f32) (harg4 : arg4.IsWhole) (arg5 : Memref sig .tc .vmem S1x8192 .f32) (harg5 : arg5.IsWhole) (hc0 : ¬cond0_0 i) (hc1 : cond0_1 i) (x0 x1 : Vec F S128x8192 .f32) (xs0 : Vec F S1x8192 .f32) : Vec F S1x8192 .f32 :=
  VS0_0.read (Elt F) (VS0_0.writes (Elt F) VS0_0.junk (kernelRun0_C c i arg2 harg2 arg3 harg3 arg4 harg4 arg5 harg5 hc0 hc1 x0 x1 xs0).2.1)

/-! ## What the output block's buffer and the accumulator hold after each point -/

/-- THE ACCUMULATION: after the body at position `n`, the output block's buffer and the accumulator row — the case the
    closed forms select at `n`, run on the point's input blocks, the accumulator (steps 1 … 7) at what position `n - 1` left. -/
def outsAt0 (c : Dev nD) : (n : ℕ) → n < cfg0.N → Vec F S1x8x128 .f32 × Vec F S1x8192 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩),
          sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2,
          sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2,
          sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t),
      sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2,
      sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried from point to point -/

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 8 = 0
  · by_cases h1 : t.val % 8 = 7
    · exfalso; omega
    · rw [show (dats m 0 c).leavesExact 2 t = owns (c : Thread nD τ) (ms0_2 t) fullShare ((dats m 0 c).after 2 t) from by
        unfold Dat.leavesExact; rw [liveAt0_2_A t ((hcond0_0 t).mpr h0) (fun h => h1 ((hcond0_1 t).mp h))], after0_2]
      rw [outsAt0_A m c t h0 h1]
      unfold out0_A_2 sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_A_2 c _ _ _ _ _ _ _ _ _ _ _ _ _)
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 Set.univ _)
        isplitl [H0]; · iexact H0
        isplitl [H1]; · iexact H1
        isplitl [H2]; · iexists _; iexact H2
        isplitl [HS0]; · iexists _; iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_A_2 c _ _ _ _ _ _ _ _ _ _ _ _ _)
  · have hz : t.val ≠ 0 := fun hz => h0 (by rw [hz])
    by_cases h1 : t.val % 8 = 7
    · rw [show (dats m 0 c).leavesExact 2 t = owns (c : Thread nD τ) (ms0_2 t) fullShare ((dats m 0 c).after 2 t) from by
        unfold Dat.leavesExact; rw [liveAt0_2_C t (fun h => h0 ((hcond0_0 t).mp h)) ((hcond0_1 t).mpr h1)], after0_2]
      rw [outsAt0_C m c t h0 h1]
      unfold out0_C_2 sout0_C_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option maxHeartbeats 40000000 in
set_option maxRecDepth 200000 in
set_option backward.isDefEq.respectTransparency.types false in
/-- Every weakly fair execution of @main terminates; at the end the pipeline's three arrays hold what the library
    computes from the proof data and every other unscoped buffer what the lines after the region leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- An argument no window stages is, after the lines, what it was: no line writes it. -/
theorem W_main_arg1 (dts : (p : Fin 1) → (c : Dev nD) → Dat τ (Elt F) Unit ℕ (UR sig nD τ) ℕ (cfgs p) c) (c : Dev nD) :
    Pipeline.afterTail₀ cfgs dts 0 (V0 m) [hostOps1] c main_arg1 = m ((c : Thread nD τ).loc main_arg1) := by
  unfold Pipeline.afterTail₀
  rw [StableHlo.after_of_forall_not_mem (b := Proc.devRef .tc main_arg1) _ _ (by
      simp only [List.flatten_cons, List.flatten_nil, List.append_nil]
      exact List.forall_iff_forall_mem.mp hostOps1_keeps_arg1),
    Pipeline.withArrays_of_ne _ c (V0 m c) _ main_arg1 (by exact (by decide : ∀ w, Pipeline.arrRef spec0 w ≠ main_arg1))]
  exact V_main_arg1 m c

theorem W_main_arg3 (dts : (p : Fin 1) → (c : Dev nD) → Dat τ (Elt F) Unit ℕ (UR sig nD τ) ℕ (cfgs p) c) (c : Dev nD) :
    Pipeline.afterTail₀ cfgs dts 0 (V0 m) [hostOps1] c main_arg3 = m ((c : Thread nD τ).loc main_arg3) := by
  unfold Pipeline.afterTail₀
  rw [StableHlo.after_of_forall_not_mem (b := Proc.devRef .tc main_arg3) _ _ (by
      simp only [List.flatten_cons, List.flatten_nil, List.append_nil]
      exact List.forall_iff_forall_mem.mp hostOps1_keeps_arg3),
    Pipeline.withArrays_of_ne _ c (V0 m c) _ main_arg3 (by exact (by decide : ∀ w, Pipeline.arrRef spec0 w ≠ main_arg3))]
  exact V_main_arg3 m c

/-- THE FRAME: @main runs to the end and its four arguments end unchanged — the two staged inputs by the library's
    reading of an input array, the two class arrays because no line writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).1 1).trans (((dats m 0 c).arrAt_in 1 rfl _).trans ((A_eq m c 1).trans (V_main_arg2 m c))),
     ((h c).2 main_arg3 (Pipeline.mem_restRefs_of main_arg3 (by decide) (by decide))).trans (W_main_arg3 m (dats m) c)⟩) (run_main m ρ)

end Cert.Kernel.Fr

end
-- ==== Proof.FrameI.Base.lean ====
/-
  The kernel's launch, before its body: what the pipeline's region finds and what the lines after it touch.
  @main is ONE region (grid 2 × 8: core c, step j) followed by 155 host operations. The region's three windows are
  two inputs (rows 128·(8c + j) … of target and prediction, all 8192 columns) and one output (block c of the
  f32[2, 8, 128] result, revisited over j and written back only after j = 7); a scratch row f32[1, 8192] is carried
  from step to step. Here: the valuation at the region's entry, @main as region-then-lines, the lines' footprint
  (they touch unscoped buffers only, allocate nothing and write none of the three arrays), each input's block,
  the frame claim's post read off a frame run, the two branch conditions of the body (j = 0, j = 7) decided over
  the sixteen points, where the output window is idle, and the region invariant with the scratch as a memref.
-/
import proofs.«412695_j67551245631962_3_alg».proof.Proof.Gen.KernelIdeal.Launch
import proofs.«412695_j67551245631962_3_alg».proof.Proof.Gen.KernelIdeal.Skeleton
import proofs.«412695_j67551245631962_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: no host operation precedes it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

set_option maxHeartbeats 40000000 in
set_option maxRecDepth 200000 in
/-- The lines after the region allocate nothing. -/
theorem hostOps1_fresh : (hostOps1 : List (HloOp τ sig (Elt F))).Forall fun op => op.fresh = ∅ := by
  simp only [hostOps1, List.Forall]
  repeat' apply And.intro
  all_goals rfl

set_option maxHeartbeats 40000000 in
set_option maxRecDepth 200000 in
/-- @main is the region continued by the 155 lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The lines touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

set_option maxHeartbeats 40000000 in
set_option maxRecDepth 200000 in
/-- No line writes an argument or the kernel's result: each writes its own result buffer, which is none of these. -/
theorem hostOps1_keeps_arg0 : (hostOps1 : List (HloOp τ sig (Elt F))).Forall fun op => Proc.devRef .tc main_arg0 ∉ op.writes := by
  simp only [hostOps1, List.Forall, StableHlo.nullary_writes, StableHlo.unary_writes, StableHlo.binary_writes, StableHlo.reshape_writes, Finset.mem_singleton]
  repeat' apply And.intro
  all_goals exact StableHlo.devRef_ne_of_ne (by decide)

set_option maxHeartbeats 40000000 in
set_option maxRecDepth 200000 in
theorem hostOps1_keeps_arg1 : (hostOps1 : List (HloOp τ sig (Elt F))).Forall fun op => Proc.devRef .tc main_arg1 ∉ op.writes := by
  simp only [hostOps1, List.Forall, StableHlo.nullary_writes, StableHlo.unary_writes, StableHlo.binary_writes, StableHlo.reshape_writes, Finset.mem_singleton]
  repeat' apply And.intro
  all_goals exact StableHlo.devRef_ne_of_ne (by decide)

set_option maxHeartbeats 40000000 in
set_option maxRecDepth 200000 in
theorem hostOps1_keeps_arg2 : (hostOps1 : List (HloOp τ sig (Elt F))).Forall fun op => Proc.devRef .tc main_arg2 ∉ op.writes := by
  simp only [hostOps1, List.Forall, StableHlo.nullary_writes, StableHlo.unary_writes, StableHlo.binary_writes, StableHlo.reshape_writes, Finset.mem_singleton]
  repeat' apply And.intro
  all_goals exact StableHlo.devRef_ne_of_ne (by decide)

set_option maxHeartbeats 40000000 in
set_option maxRecDepth 200000 in
theorem hostOps1_keeps_arg3 : (hostOps1 : List (HloOp τ sig (Elt F))).Forall fun op => Proc.devRef .tc main_arg3 ∉ op.writes := by
  simp only [hostOps1, List.Forall, StableHlo.nullary_writes, StableHlo.unary_writes, StableHlo.binary_writes, StableHlo.reshape_writes, Finset.mem_singleton]
  repeat' apply And.intro
  all_goals exact StableHlo.devRef_ne_of_ne (by decide)

set_option maxHeartbeats 40000000 in
set_option maxRecDepth 200000 in
theorem hostOps1_keeps_v0 : (hostOps1 : List (HloOp τ sig (Elt F))).Forall fun op => Proc.devRef .tc main_v0 ∉ op.writes := by
  simp only [hostOps1, List.Forall, StableHlo.nullary_writes, StableHlo.unary_writes, StableHlo.binary_writes, StableHlo.reshape_writes, Finset.mem_singleton]
  repeat' apply And.intro
  all_goals exact StableHlo.devRef_ne_of_ne (by decide)

/-- So no line writes one of the pipeline's three arrays (target, prediction, the kernel's result). -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  have h0 : Proc.devRef .tc main_arg0 ∉ op.writes := (List.forall_iff_forall_mem.mp hostOps1_keeps_arg0) op hop
  have h1 : Proc.devRef .tc main_arg2 ∉ op.writes := (List.forall_iff_forall_mem.mp hostOps1_keeps_arg2) op hop
  have h2 : Proc.devRef .tc main_v0 ∉ op.writes := (List.forall_iff_forall_mem.mp hostOps1_keeps_v0) op hop
  fin_cases w
  · exact h0
  · exact h1
  · exact h2

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's staging buffer holds its block at every point, for any proof data over the entry arrays whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The branch conditions of the body, over the grid -/

/-- The first branch (zero the accumulator and the output block) is taken when the step is 0, -/
abbrev cond0_0 (i : grid0.Coords) : Prop := k0_cond1 i = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- the second (reduce the accumulator into entry (0, 0) of the output block) when the step is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At step 0 the body stores into the output block: the window is live. -/
theorem liveAt0_2_A : ∀ t : Fin cfg0.N, cond0_0 (grid0.coords t) → ¬cond0_1 (grid0.coords t) → cfg0.idle 2 (grid0.coords t) = false := by decide +kernel
/-- At steps 1 … 6 it stores nothing there and the block is not written back. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- At step 7 it stores the reduced block: live. -/
theorem liveAt0_2_C : ∀ t : Fin cfg0.N, ¬cond0_0 (grid0.coords t) → cond0_1 (grid0.coords t) → cfg0.idle 2 (grid0.coords t) = false := by decide +kernel

/-! ## The memrefs the body is called on -/

/-- One staging buffer of the output window, through which its contents are stated. -/
abbrev VO0_2 : View sig .tc .vmem S1x8x128 .f32 := (Memref.whole cc0_stg2_0 : Memref sig .tc .vmem S1x8x128 .f32).view
abbrev ms0_0 (t : Fin cfg0.N) : Memref sig .tc .vmem S128x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x128 .f32 := win0_2.stage (cfg0.slots t 2)
abbrev hs0_2 (t : Fin cfg0.N) : (ms0_2 t).IsWhole := hstage0_2 ((cfg0.slots t 2).cast nbuf0_2)
/-- The accumulator row: a whole scoped buffer of the kernel's own. -/
abbrev scM0_0 : Memref sig .tc .vmem S1x8192 .f32 := Memref.whole cc0_scratch0
abbrev VS0_0 : View sig .tc .vmem S1x8192 .f32 := scM0_0.view

/-- The region invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.FrameI.RunA.lean ====
/-
  The body at step 0 of a core's eight steps (first branch taken, second not): on whole staging memrefs, the two input blocks at their contents, the output block's buffer and the accumulator row at anything, the body runs to the end leaving the inputs as they were, and the output buffer and the accumulator with the pieces its stores wrote (both are zeroed; the accumulator then takes the column sums of this block's squared filtered differences). The printed function is its skeleton, which the symbolic executor runs; the pieces are the witness the run finds.
-/
import proofs.«412695_j67551245631962_3_alg».proof.Proof.FrameI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S128x8192 .f32) (harg2 : arg2.IsWhole) (arg3 : Memref sig .tc .vmem S128x8192 .f32) (harg3 : arg3.IsWhole) (arg4 : Memref sig .tc .vmem S1x8x128 .f32) (harg4 : arg4.IsWhole) (arg5 : Memref sig .tc .vmem S1x8192 .f32) (harg5 : arg5.IsWhole) (hc0 : cond0_0 i) (hc1 : ¬cond0_1 i)
    (x0 x1 : Vec F S128x8192 .f32) :
    Σ' (L2 : List (View.Piece (Elt F) S1x8x128 .f32)), { LS0 : List (View.Piece (Elt F) S1x8192 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__loss_kernel i arg2 harg2 arg3 harg3 arg4 harg4 arg5 harg5) K } := by
  refine ⟨?_, ?_, fun E K => ?run⟩
  case run =>
    simp only [cc0__loss_kernel_eq_skeleton]; unfold cc0__loss_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.FrameI.RunB.lean ====
/-
  The body at steps 1 … 6 (neither branch taken): the two input blocks at their contents, the output block's buffer at contents handed back untouched (the body stores nothing there), the accumulator row at what the step before left; the body leaves the accumulator with the piece its one store wrote: the old row plus this block's column sums.
-/
import proofs.«412695_j67551245631962_3_alg».proof.Proof.FrameI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S128x8192 .f32) (harg2 : arg2.IsWhole) (arg3 : Memref sig .tc .vmem S128x8192 .f32) (harg3 : arg3.IsWhole) (arg4 : Memref sig .tc .vmem S1x8x128 .f32) (harg4 : arg4.IsWhole) (arg5 : Memref sig .tc .vmem S1x8192 .f32) (harg5 : arg5.IsWhole) (hc0 : ¬cond0_0 i) (hc1 : ¬cond0_1 i)
    (x0 x1 : Vec F S128x8192 .f32) (xs0 : Vec F S1x8192 .f32) :
    Σ' (L2 : List (View.Piece (Elt F) S1x8x128 .f32)), { LS0 : List (View.Piece (Elt F) S1x8192 .f32) //
      ∀ (xi2 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__loss_kernel i arg2 harg2 arg3 harg3 arg4 harg4 arg5 harg5) K } := by
  refine ⟨[], ?_, fun xi2 E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.FrameI.RunC.lean ====
/-
  The body at step 7 (second branch taken, first not): the two input blocks at their contents, the output block's buffer at anything, the accumulator row at what the step before left; the body leaves the accumulator with the piece its store wrote and the output buffer with the piece the last branch wrote: the accumulator's total at entry (0, 0) and zero elsewhere.
-/
import proofs.«412695_j67551245631962_3_alg».proof.Proof.FrameI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S128x8192 .f32) (harg2 : arg2.IsWhole) (arg3 : Memref sig .tc .vmem S128x8192 .f32) (harg3 : arg3.IsWhole) (arg4 : Memref sig .tc .vmem S1x8x128 .f32) (harg4 : arg4.IsWhole) (arg5 : Memref sig .tc .vmem S1x8192 .f32) (harg5 : arg5.IsWhole) (hc0 : ¬cond0_0 i) (hc1 : cond0_1 i)
    (x0 x1 : Vec F S128x8192 .f32) (xs0 : Vec F S1x8192 .f32) :
    Σ' (L2 : List (View.Piece (Elt F) S1x8x128 .f32)), { LS0 : List (View.Piece (Elt F) S1x8192 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__loss_kernel i arg2 harg2 arg3 harg3 arg4 harg4 arg5 harg5) K } := by
  refine ⟨?_, ?_, fun E K => ?run⟩
  case run =>
    simp only [cc0__loss_kernel_eq_skeleton]; unfold cc0__loss_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.FrameI.Frame.lean ====
/-
  The kernel's frame: the body's obligation at every grid point, and the run of @main.
  A core's eight steps form one accumulation: at step 0 the body zeroes the accumulator row and the output block, at
  every step it adds to the accumulator the column sums of this block's squared filtered differences, and at step 7
  it stores the accumulator's total into entry (0, 0) of the output block (zero elsewhere), which the pipeline then
  writes back. What the output block's buffer and the accumulator hold after each point is defined by recursion on
  the point from the pieces each case's run leaves (`outsAt0`); the region invariant carries the accumulator at that
  value from point to point. The launch is the library's frame run for a region followed by host lines, with a
  tracking invariant; the frame claim reads the four arguments off its post.
-/
import proofs.«412695_j67551245631962_3_alg».proof.Proof.FrameI.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Step 0's stores into the output block tile it. -/
theorem cover0_A_2 (c : Dev nD) (i : grid0.Coords) (arg2 : Memref sig .tc .vmem S128x8192 .f32) (harg2 : arg2.IsWhole) (arg3 : Memref sig .tc .vmem S128x8192 .f32) (harg3 : arg3.IsWhole) (arg4 : Memref sig .tc .vmem S1x8x128 .f32) (harg4 : arg4.IsWhole) (arg5 : Memref sig .tc .vmem S1x8192 .f32) (harg5 : arg5.IsWhole) (hc0 : cond0_0 i) (hc1 : ¬cond0_1 i) (x0 x1 : Vec F S128x8192 .f32) (y : S1x8x128.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S1x8x128.size (by sl_kernel_rfl) y

/-- What step 0 leaves in the output block's buffer: its pieces read back. -/
def out0_A_2 (c : Dev nD) (i : grid0.Coords) (arg2 : Memref sig .tc .vmem S128x8192 .f32) (harg2 : arg2.IsWhole) (arg3 : Memref sig .tc .vmem S128x8192 .f32) (harg3 : arg3.IsWhole) (arg4 : Memref sig .tc .vmem S1x8x128 .f32) (harg4 : arg4.IsWhole) (arg5 : Memref sig .tc .vmem S1x8192 .f32) (harg5 : arg5.IsWhole) (hc0 : cond0_0 i) (hc1 : ¬cond0_1 i) (x0 x1 : Vec F S128x8192 .f32) : Vec F S1x8x128 .f32 :=
  VO0_2.read (Elt F) (VO0_2.writes (Elt F) VO0_2.junk (kernelRun0_A c i arg2 harg2 arg3 harg3 arg4 harg4 arg5 harg5 hc0 hc1 x0 x1).1)

theorem scover0_A_0 (c : Dev nD) (i : grid0.Coords) (arg2 : Memref sig .tc .vmem S128x8192 .f32) (harg2 : arg2.IsWhole) (arg3 : Memref sig .tc .vmem S128x8192 .f32) (harg3 : arg3.IsWhole) (arg4 : Memref sig .tc .vmem S1x8x128 .f32) (harg4 : arg4.IsWhole) (arg5 : Memref sig .tc .vmem S1x8192 .f32) (harg5 : arg5.IsWhole) (hc0 : cond0_0 i) (hc1 : ¬cond0_1 i) (x0 x1 : Vec F S128x8192 .f32) (y : S1x8192.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1x8192.size (by sl_kernel_rfl) y

/-- What step 0 leaves in the accumulator. -/
def sout0_A_0 (c : Dev nD) (i : grid0.Coords) (arg2 : Memref sig .tc .vmem S128x8192 .f32) (harg2 : arg2.IsWhole) (arg3 : Memref sig .tc .vmem S128x8192 .f32) (harg3 : arg3.IsWhole) (arg4 : Memref sig .tc .vmem S1x8x128 .f32) (harg4 : arg4.IsWhole) (arg5 : Memref sig .tc .vmem S1x8192 .f32) (harg5 : arg5.IsWhole) (hc0 : cond0_0 i) (hc1 : ¬cond0_1 i) (x0 x1 : Vec F S128x8192 .f32) : Vec F S1x8192 .f32 :=
  VS0_0.read (Elt F) (VS0_0.writes (Elt F) VS0_0.junk (kernelRun0_A c i arg2 harg2 arg3 harg3 arg4 harg4 arg5 harg5 hc0 hc1 x0 x1).2.1)

/-- Steps 1 … 6 store nothing into the output block: a placeholder nothing consults (the window is idle there and not
    written back). -/
def out0_B_2 (c : Dev nD) (i : grid0.Coords) (arg2 : Memref sig .tc .vmem S128x8192 .f32) (harg2 : arg2.IsWhole) (arg3 : Memref sig .tc .vmem S128x8192 .f32) (harg3 : arg3.IsWhole) (arg4 : Memref sig .tc .vmem S1x8x128 .f32) (harg4 : arg4.IsWhole) (arg5 : Memref sig .tc .vmem S1x8192 .f32) (harg5 : arg5.IsWhole) (hc0 : ¬cond0_0 i) (hc1 : ¬cond0_1 i) (x0 x1 : Vec F S128x8192 .f32) (xs0 : Vec F S1x8192 .f32) : Vec F S1x8x128 .f32 :=
  VO0_2.read (Elt F) (VO0_2.writes (Elt F) VO0_2.junk (kernelRun0_B c i arg2 harg2 arg3 harg3 arg4 harg4 arg5 harg5 hc0 hc1 x0 x1 xs0).1)

theorem scover0_B_0 (c : Dev nD) (i : grid0.Coords) (arg2 : Memref sig .tc .vmem S128x8192 .f32) (harg2 : arg2.IsWhole) (arg3 : Memref sig .tc .vmem S128x8192 .f32) (harg3 : arg3.IsWhole) (arg4 : Memref sig .tc .vmem S1x8x128 .f32) (harg4 : arg4.IsWhole) (arg5 : Memref sig .tc .vmem S1x8192 .f32) (harg5 : arg5.IsWhole) (hc0 : ¬cond0_0 i) (hc1 : ¬cond0_1 i) (x0 x1 : Vec F S128x8192 .f32) (xs0 : Vec F S1x8192 .f32) (y : S1x8192.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1x8192.size (by sl_kernel_rfl) y

def sout0_B_0 (c : Dev nD) (i : grid0.Coords) (arg2 : Memref sig .tc .vmem S128x8192 .f32) (harg2 : arg2.IsWhole) (arg3 : Memref sig .tc .vmem S128x8192 .f32) (harg3 : arg3.IsWhole) (arg4 : Memref sig .tc .vmem S1x8x128 .f32) (harg4 : arg4.IsWhole) (arg5 : Memref sig .tc .vmem S1x8192 .f32) (harg5 : arg5.IsWhole) (hc0 : ¬cond0_0 i) (hc1 : ¬cond0_1 i) (x0 x1 : Vec F S128x8192 .f32) (xs0 : Vec F S1x8192 .f32) : Vec F S1x8192 .f32 :=
  VS0_0.read (Elt F) (VS0_0.writes (Elt F) VS0_0.junk (kernelRun0_B c i arg2 harg2 arg3 harg3 arg4 harg4 arg5 harg5 hc0 hc1 x0 x1 xs0).2.1)

theorem cover0_C_2 (c : Dev nD) (i : grid0.Coords) (arg2 : Memref sig .tc .vmem S128x8192 .f32) (harg2 : arg2.IsWhole) (arg3 : Memref sig .tc .vmem S128x8192 .f32) (harg3 : arg3.IsWhole) (arg4 : Memref sig .tc .vmem S1x8x128 .f32) (harg4 : arg4.IsWhole) (arg5 : Memref sig .tc .vmem S1x8192 .f32) (harg5 : arg5.IsWhole) (hc0 : ¬cond0_0 i) (hc1 : cond0_1 i) (x0 x1 : Vec F S128x8192 .f32) (xs0 : Vec F S1x8192 .f32) (y : S1x8x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x8x128.size (by sl_kernel_rfl) y

/-- What step 7 leaves in the output block's buffer. -/
def out0_C_2 (c : Dev nD) (i : grid0.Coords) (arg2 : Memref sig .tc .vmem S128x8192 .f32) (harg2 : arg2.IsWhole) (arg3 : Memref sig .tc .vmem S128x8192 .f32) (harg3 : arg3.IsWhole) (arg4 : Memref sig .tc .vmem S1x8x128 .f32) (harg4 : arg4.IsWhole) (arg5 : Memref sig .tc .vmem S1x8192 .f32) (harg5 : arg5.IsWhole) (hc0 : ¬cond0_0 i) (hc1 : cond0_1 i) (x0 x1 : Vec F S128x8192 .f32) (xs0 : Vec F S1x8192 .f32) : Vec F S1x8x128 .f32 :=
  VO0_2.read (Elt F) (VO0_2.writes (Elt F) VO0_2.junk (kernelRun0_C c i arg2 harg2 arg3 harg3 arg4 harg4 arg5 harg5 hc0 hc1 x0 x1 xs0).1)

theorem scover0_C_0 (c : Dev nD) (i : grid0.Coords) (arg2 : Memref sig .tc .vmem S128x8192 .f32) (harg2 : arg2.IsWhole) (arg3 : Memref sig .tc .vmem S128x8192 .f32) (harg3 : arg3.IsWhole) (arg4 : Memref sig .tc .vmem S1x8x128 .f32) (harg4 : arg4.IsWhole) (arg5 : Memref sig .tc .vmem S1x8192 .f32) (harg5 : arg5.IsWhole) (hc0 : ¬cond0_0 i) (hc1 : cond0_1 i) (x0 x1 : Vec F S128x8192 .f32) (xs0 : Vec F S1x8192 .f32) (y : S1x8192.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1x8192.size (by sl_kernel_rfl) y

def sout0_C_0 (c : Dev nD) (i : grid0.Coords) (arg2 : Memref sig .tc .vmem S128x8192 .f32) (harg2 : arg2.IsWhole) (arg3 : Memref sig .tc .vmem S128x8192 .f32) (harg3 : arg3.IsWhole) (arg4 : Memref sig .tc .vmem S1x8x128 .f32) (harg4 : arg4.IsWhole) (arg5 : Memref sig .tc .vmem S1x8192 .f32) (harg5 : arg5.IsWhole) (hc0 : ¬cond0_0 i) (hc1 : cond0_1 i) (x0 x1 : Vec F S128x8192 .f32) (xs0 : Vec F S1x8192 .f32) : Vec F S1x8192 .f32 :=
  VS0_0.read (Elt F) (VS0_0.writes (Elt F) VS0_0.junk (kernelRun0_C c i arg2 harg2 arg3 harg3 arg4 harg4 arg5 harg5 hc0 hc1 x0 x1 xs0).2.1)

/-! ## What the output block's buffer and the accumulator hold after each point -/

/-- THE ACCUMULATION: after the body at position `n`, the output block's buffer and the accumulator row — the case the
    closed forms select at `n`, run on the point's input blocks, the accumulator (steps 1 … 7) at what position `n - 1` left. -/
def outsAt0 (c : Dev nD) : (n : ℕ) → n < cfg0.N → Vec F S1x8x128 .f32 × Vec F S1x8192 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩),
          sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2,
          sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2,
          sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t),
      sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2,
      sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried from point to point -/

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 8 = 0
  · by_cases h1 : t.val % 8 = 7
    · exfalso; omega
    · rw [show (dats m 0 c).leavesExact 2 t = owns (c : Thread nD τ) (ms0_2 t) fullShare ((dats m 0 c).after 2 t) from by
        unfold Dat.leavesExact; rw [liveAt0_2_A t ((hcond0_0 t).mpr h0) (fun h => h1 ((hcond0_1 t).mp h))], after0_2]
      rw [outsAt0_A m c t h0 h1]
      unfold out0_A_2 sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_A_2 c _ _ _ _ _ _ _ _ _ _ _ _ _)
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 Set.univ _)
        isplitl [H0]; · iexact H0
        isplitl [H1]; · iexact H1
        isplitl [H2]; · iexists _; iexact H2
        isplitl [HS0]; · iexists _; iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_A_2 c _ _ _ _ _ _ _ _ _ _ _ _ _)
  · have hz : t.val ≠ 0 := fun hz => h0 (by rw [hz])
    by_cases h1 : t.val % 8 = 7
    · rw [show (dats m 0 c).leavesExact 2 t = owns (c : Thread nD τ) (ms0_2 t) fullShare ((dats m 0 c).after 2 t) from by
        unfold Dat.leavesExact; rw [liveAt0_2_C t (fun h => h0 ((hcond0_0 t).mp h)) ((hcond0_1 t).mpr h1)], after0_2]
      rw [outsAt0_C m c t h0 h1]
      unfold out0_C_2 sout0_C_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option maxHeartbeats 40000000 in
set_option maxRecDepth 200000 in
set_option backward.isDefEq.respectTransparency.types false in
/-- Every weakly fair execution of @main terminates; at the end the pipeline's three arrays hold what the library
    computes from the proof data and every other unscoped buffer what the lines after the region leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- An argument no window stages is, after the lines, what it was: no line writes it. -/
theorem W_main_arg1 (dts : (p : Fin 1) → (c : Dev nD) → Dat τ (Elt F) Unit ℕ (UR sig nD τ) ℕ (cfgs p) c) (c : Dev nD) :
    Pipeline.afterTail₀ cfgs dts 0 (V0 m) [hostOps1] c main_arg1 = m ((c : Thread nD τ).loc main_arg1) := by
  unfold Pipeline.afterTail₀
  rw [StableHlo.after_of_forall_not_mem (b := Proc.devRef .tc main_arg1) _ _ (by
      simp only [List.flatten_cons, List.flatten_nil, List.append_nil]
      exact List.forall_iff_forall_mem.mp hostOps1_keeps_arg1),
    Pipeline.withArrays_of_ne _ c (V0 m c) _ main_arg1 (by exact (by decide : ∀ w, Pipeline.arrRef spec0 w ≠ main_arg1))]
  exact V_main_arg1 m c

theorem W_main_arg3 (dts : (p : Fin 1) → (c : Dev nD) → Dat τ (Elt F) Unit ℕ (UR sig nD τ) ℕ (cfgs p) c) (c : Dev nD) :
    Pipeline.afterTail₀ cfgs dts 0 (V0 m) [hostOps1] c main_arg3 = m ((c : Thread nD τ).loc main_arg3) := by
  unfold Pipeline.afterTail₀
  rw [StableHlo.after_of_forall_not_mem (b := Proc.devRef .tc main_arg3) _ _ (by
      simp only [List.flatten_cons, List.flatten_nil, List.append_nil]
      exact List.forall_iff_forall_mem.mp hostOps1_keeps_arg3),
    Pipeline.withArrays_of_ne _ c (V0 m c) _ main_arg3 (by exact (by decide : ∀ w, Pipeline.arrRef spec0 w ≠ main_arg3))]
  exact V_main_arg3 m c

/-- THE FRAME: @main runs to the end and its four arguments end unchanged — the two staged inputs by the library's
    reading of an input array, the two class arrays because no line writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).1 1).trans (((dats m 0 c).arrAt_in 1 rfl _).trans ((A_eq m c 1).trans (V_main_arg2 m c))),
     ((h c).2 main_arg3 (Pipeline.mem_restRefs_of main_arg3 (by decide) (by decide))).trans (W_main_arg3 m (dats m) c)⟩) (run_main m ρ)

end Cert.KernelIdeal.Fr

end
-- ==== Proof.RefRun.lean ====
/- The reference program's run, read back: @main as the list of its host operations in order (the one
   module-local call, a convert and a pad, listed in place over the call's buffers), and the statement
   that every weakly fair execution ends with the result buffer at one pure term of the four argument
   arrays, the arguments unchanged. -/
import proofs.«412695_j67551245631962_3_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F]

/-- @main's 46 operations, in order: the callee's two (the convert of the pad value, the pad) stand where the
    call is, over that call's buffers. -/
abbrev ops : List (HloOp τ sig (Elt F)) :=
  [ nullary main_cst (fun i => FloatOps.ofBits .f32 (lit0 (S5.rowMajor i))),
    binary main_arg0 main_arg2 main_v0 (subf : (⟨S2048x8192, .f32⟩ : BufTy).Contents (Elt F) → (⟨S2048x8192, .f32⟩ : BufTy).Contents (Elt F) → (⟨S2048x8192, .f32⟩ : BufTy).Contents (Elt F)),
    nullary main_c (constantI S_ 32 0#32),
    TRef.unary (.of main_c : TRef sig ⟨S_, .i32⟩) main_call0.v0 (sitofp .f32),
    TRef.binary (.of main_v0 : TRef sig ⟨S2048x8192, .f32⟩) main_call0.v0 main_call0.v1 (fun x v => pad S2048x8196 ![0, 2] ![0, 2] ![0, 0] x v Gen.pads_S2048x8192_S2048x8196_000_220 Gen.h_S_),
    unary main_cst main_v2 ((extractStridedSlice S1 ![0] · Gen.slices_S5_S1_0) : (⟨S5, .f32⟩ : BufTy).Contents (Elt F) → (⟨S1, .f32⟩ : BufTy).Contents (Elt F)),
    reshape main_v2 main_v3 rfl Gen.shapeCasts_S1_S_,
    unary main_v1 main_v4 ((extractStridedSlice S2048x8192 ![0, 0] · Gen.slices_S2048x8196_S2048x8192_0_0) : (⟨S2048x8196, .f32⟩ : BufTy).Contents (Elt F) → (⟨S2048x8192, .f32⟩ : BufTy).Contents (Elt F)),
    unary main_v3 main_v5 (broadcastInDim S2048x8192 ![] Gen.bcast_S_S2048x8192 : (⟨S_, .f32⟩ : BufTy).Contents (Elt F) → (⟨S2048x8192, .f32⟩ : BufTy).Contents (Elt F)),
    binary main_v5 main_v4 main_v6 (mulf : (⟨S2048x8192, .f32⟩ : BufTy).Contents (Elt F) → (⟨S2048x8192, .f32⟩ : BufTy).Contents (Elt F) → (⟨S2048x8192, .f32⟩ : BufTy).Contents (Elt F)),
    unary main_cst main_v7 ((extractStridedSlice S1 ![1] · Gen.slices_S5_S1_1) : (⟨S5, .f32⟩ : BufTy).Contents (Elt F) → (⟨S1, .f32⟩ : BufTy).Contents (Elt F)),
    reshape main_v7 main_v8 rfl Gen.shapeCasts_S1_S_,
    unary main_v1 main_v9 ((extractStridedSlice S2048x8192 ![0, 1] · Gen.slices_S2048x8196_S2048x8192_0_1) : (⟨S2048x8196, .f32⟩ : BufTy).Contents (Elt F) → (⟨S2048x8192, .f32⟩ : BufTy).Contents (Elt F)),
    unary main_v8 main_v10 (broadcastInDim S2048x8192 ![] Gen.bcast_S_S2048x8192 : (⟨S_, .f32⟩ : BufTy).Contents (Elt F) → (⟨S2048x8192, .f32⟩ : BufTy).Contents (Elt F)),
    binary main_v10 main_v9 main_v11 (mulf : (⟨S2048x8192, .f32⟩ : BufTy).Contents (Elt F) → (⟨S2048x8192, .f32⟩ : BufTy).Contents (Elt F) → (⟨S2048x8192, .f32⟩ : BufTy).Contents (Elt F)),
    binary main_v6 main_v11 main_v12 (addf : (⟨S2048x8192, .f32⟩ : BufTy).Contents (Elt F) → (⟨S2048x8192, .f32⟩ : BufTy).Contents (Elt F) → (⟨S2048x8192, .f32⟩ : BufTy).Contents (Elt F)),
    unary main_cst main_v13 ((extractStridedSlice S1 ![2] · Gen.slices_S5_S1_2) : (⟨S5, .f32⟩ : BufTy).Contents (Elt F) → (⟨S1, .f32⟩ : BufTy).Contents (Elt F)),
    reshape main_v13 main_v14 rfl Gen.shapeCasts_S1_S_,
    unary main_v1 main_v15 ((extractStridedSlice S2048x8192 ![0, 2] · Gen.slices_S2048x8196_S2048x8192_0_2) : (⟨S2048x8196, .f32⟩ : BufTy).Contents (Elt F) → (⟨S2048x8192, .f32⟩ : BufTy).Contents (Elt F)),
    unary main_v14 main_v16 (broadcastInDim S2048x8192 ![] Gen.bcast_S_S2048x8192 : (⟨S_, .f32⟩ : BufTy).Contents (Elt F) → (⟨S2048x8192, .f32⟩ : BufTy).Contents (Elt F)),
    binary main_v16 main_v15 main_v17 (mulf : (⟨S2048x8192, .f32⟩ : BufTy).Contents (Elt F) → (⟨S2048x8192, .f32⟩ : BufTy).Contents (Elt F) → (⟨S2048x8192, .f32⟩ : BufTy).Contents (Elt F)),
    binary main_v12 main_v17 main_v18 (addf : (⟨S2048x8192, .f32⟩ : BufTy).Contents (Elt F) → (⟨S2048x8192, .f32⟩ : BufTy).Contents (Elt F) → (⟨S2048x8192, .f32⟩ : BufTy).Contents (Elt F)),
    unary main_cst main_v19 ((extractStridedSlice S1 ![3] · Gen.slices_S5_S1_3) : (⟨S5, .f32⟩ : BufTy).Contents (Elt F) → (⟨S1, .f32⟩ : BufTy).Contents (Elt F)),
    reshape main_v19 main_v20 rfl Gen.shapeCasts_S1_S_,
    unary main_v1 main_v21 ((extractStridedSlice S2048x8192 ![0, 3] · Gen.slices_S2048x8196_S2048x8192_0_3) : (⟨S2048x8196, .f32⟩ : BufTy).Contents (Elt F) → (⟨S2048x8192, .f32⟩ : BufTy).Contents (Elt F)),
    unary main_v20 main_v22 (broadcastInDim S2048x8192 ![] Gen.bcast_S_S2048x8192 : (⟨S_, .f32⟩ : BufTy).Contents (Elt F) → (⟨S2048x8192, .f32⟩ : BufTy).Contents (Elt F)),
    binary main_v22 main_v21 main_v23 (mulf : (⟨S2048x8192, .f32⟩ : BufTy).Contents (Elt F) → (⟨S2048x8192, .f32⟩ : BufTy).Contents (Elt F) → (⟨S2048x8192, .f32⟩ : BufTy).Contents (Elt F)),
    binary main_v18 main_v23 main_v24 (addf : (⟨S2048x8192, .f32⟩ : BufTy).Contents (Elt F) → (⟨S2048x8192, .f32⟩ : BufTy).Contents (Elt F) → (⟨S2048x8192, .f32⟩ : BufTy).Contents (Elt F)),
    unary main_cst main_v25 ((extractStridedSlice S1 ![4] · Gen.slices_S5_S1_4) : (⟨S5, .f32⟩ : BufTy).Contents (Elt F) → (⟨S1, .f32⟩ : BufTy).Contents (Elt F)),
    reshape main_v25 main_v26 rfl Gen.shapeCasts_S1_S_,
    unary main_v1 main_v27 ((extractStridedSlice S2048x8192 ![0, 4] · Gen.slices_S2048x8196_S2048x8192_0_4) : (⟨S2048x8196, .f32⟩ : BufTy).Contents (Elt F) → (⟨S2048x8192, .f32⟩ : BufTy).Contents (Elt F)),
    unary main_v26 main_v28 (broadcastInDim S2048x8192 ![] Gen.bcast_S_S2048x8192 : (⟨S_, .f32⟩ : BufTy).Contents (Elt F) → (⟨S2048x8192, .f32⟩ : BufTy).Contents (Elt F)),
    binary main_v28 main_v27 main_v29 (mulf : (⟨S2048x8192, .f32⟩ : BufTy).Contents (Elt F) → (⟨S2048x8192, .f32⟩ : BufTy).Contents (Elt F) → (⟨S2048x8192, .f32⟩ : BufTy).Contents (Elt F)),
    binary main_v24 main_v29 main_v30 (addf : (⟨S2048x8192, .f32⟩ : BufTy).Contents (Elt F) → (⟨S2048x8192, .f32⟩ : BufTy).Contents (Elt F) → (⟨S2048x8192, .f32⟩ : BufTy).Contents (Elt F)),
    binary main_v30 main_v30 main_v31 (mulf : (⟨S2048x8192, .f32⟩ : BufTy).Contents (Elt F) → (⟨S2048x8192, .f32⟩ : BufTy).Contents (Elt F) → (⟨S2048x8192, .f32⟩ : BufTy).Contents (Elt F)),
    nullary main_cst_0 (constant S_ .f32 0x00000000#32),
    binary main_v31 main_cst_0 main_v32 ((fun x v => Host.reduceAdd x v Gen.reducesTo_S2048x8192_S_d0_1 Gen.h_S_) : (⟨S2048x8192, .f32⟩ : BufTy).Contents (Elt F) → (⟨S_, .f32⟩ : BufTy).Contents (Elt F) → (⟨S_, .f32⟩ : BufTy).Contents (Elt F)),
    binary main_arg1 main_arg3 main_v33 (subf : (⟨S2048x3, .f32⟩ : BufTy).Contents (Elt F) → (⟨S2048x3, .f32⟩ : BufTy).Contents (Elt F) → (⟨S2048x3, .f32⟩ : BufTy).Contents (Elt F)),
    binary main_v33 main_v33 main_v34 (mulf : (⟨S2048x3, .f32⟩ : BufTy).Contents (Elt F) → (⟨S2048x3, .f32⟩ : BufTy).Contents (Elt F) → (⟨S2048x3, .f32⟩ : BufTy).Contents (Elt F)),
    nullary main_cst_1 (constant S_ .f32 0x00000000#32),
    binary main_v34 main_cst_1 main_v35 ((fun x v => Host.reduceAdd x v Gen.reducesTo_S2048x3_S_d0_1 Gen.h_S_) : (⟨S2048x3, .f32⟩ : BufTy).Contents (Elt F) → (⟨S_, .f32⟩ : BufTy).Contents (Elt F) → (⟨S_, .f32⟩ : BufTy).Contents (Elt F)),
    nullary main_cst_2 (constant S_ .f32 0x3F4CCCCD#32),
    binary main_v32 main_cst_2 main_v36 (mulf : (⟨S_, .f32⟩ : BufTy).Contents (Elt F) → (⟨S_, .f32⟩ : BufTy).Contents (Elt F) → (⟨S_, .f32⟩ : BufTy).Contents (Elt F)),
    nullary main_cst_3 (constant S_ .f32 0x3E4CCCCD#32),
    binary main_v35 main_cst_3 main_v37 (mulf : (⟨S_, .f32⟩ : BufTy).Contents (Elt F) → (⟨S_, .f32⟩ : BufTy).Contents (Elt F) → (⟨S_, .f32⟩ : BufTy).Contents (Elt F)),
    binary main_v36 main_v37 main_v38 (addf : (⟨S_, .f32⟩ : BufTy).Contents (Elt F) → (⟨S_, .f32⟩ : BufTy).Contents (Elt F) → (⟨S_, .f32⟩ : BufTy).Contents (Elt F)) ]

set_option maxRecDepth 1024 in
/-- @main is that straight line: the callee's definition unfolded at its call, both sides are one chain of
    steps once sequencing is reassociated. -/
theorem main_eq (c : Dev nD) : main (F := F) c = seq ops := by
  simp only [main, fn_pad.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub ..⟩

/-- The reference's result as ONE pure term of its four argument arrays: the operations of @main composed in
    order. With d = a0 - a2 padded by two zero columns on either side of each row, the five unit-stride windows of
    the padded array are each scaled by one entry of the weight table and summed; that is squared and summed over
    both axes; the class term is the sum of squares of a1 - a3; the result is the first sum times one literal plus
    the second times another. -/
def refVal (a0 : FVec F S2048x8192 .f32) (a1 : FVec F S2048x3 .f32) (a2 : FVec F S2048x8192 .f32) (a3 : FVec F S2048x3 .f32) : FVec F S_ .f32 :=
  let cst : FVec F S5 .f32 := fun i => FloatOps.ofBits .f32 (lit0 (S5.rowMajor i))
  let v0 : FVec F S2048x8192 .f32 := subf a0 a2
  let c : IVec S_ 32 := constantI S_ 32 0#32
  let call0_v0 : FVec F S_ .f32 := sitofp .f32 c
  let v1 : FVec F S2048x8196 .f32 := pad S2048x8196 ![0, 2] ![0, 2] ![0, 0] v0 call0_v0 Gen.pads_S2048x8192_S2048x8196_000_220 Gen.h_S_
  let v2 : FVec F S1 .f32 := extractStridedSlice S1 ![0] cst Gen.slices_S5_S1_0
  let v3 : FVec F S_ .f32 := shapeCast S_ v2 Gen.shapeCasts_S1_S_
  let v4 : FVec F S2048x8192 .f32 := extractStridedSlice S2048x8192 ![0, 0] v1 Gen.slices_S2048x8196_S2048x8192_0_0
  let v5 : FVec F S2048x8192 .f32 := broadcastInDim S2048x8192 ![] Gen.bcast_S_S2048x8192 v3
  let v6 : FVec F S2048x8192 .f32 := mulf v5 v4
  let v7 : FVec F S1 .f32 := extractStridedSlice S1 ![1] cst Gen.slices_S5_S1_1
  let v8 : FVec F S_ .f32 := shapeCast S_ v7 Gen.shapeCasts_S1_S_
  let v9 : FVec F S2048x8192 .f32 := extractStridedSlice S2048x8192 ![0, 1] v1 Gen.slices_S2048x8196_S2048x8192_0_1
  let v10 : FVec F S2048x8192 .f32 := broadcastInDim S2048x8192 ![] Gen.bcast_S_S2048x8192 v8
  let v11 : FVec F S2048x8192 .f32 := mulf v10 v9
  let v12 : FVec F S2048x8192 .f32 := addf v6 v11
  let v13 : FVec F S1 .f32 := extractStridedSlice S1 ![2] cst Gen.slices_S5_S1_2
  let v14 : FVec F S_ .f32 := shapeCast S_ v13 Gen.shapeCasts_S1_S_
  let v15 : FVec F S2048x8192 .f32 := extractStridedSlice S2048x8192 ![0, 2] v1 Gen.slices_S2048x8196_S2048x8192_0_2
  let v16 : FVec F S2048x8192 .f32 := broadcastInDim S2048x8192 ![] Gen.bcast_S_S2048x8192 v14
  let v17 : FVec F S2048x8192 .f32 := mulf v16 v15
  let v18 : FVec F S2048x8192 .f32 := addf v12 v17
  let v19 : FVec F S1 .f32 := extractStridedSlice S1 ![3] cst Gen.slices_S5_S1_3
  let v20 : FVec F S_ .f32 := shapeCast S_ v19 Gen.shapeCasts_S1_S_
  let v21 : FVec F S2048x8192 .f32 := extractStridedSlice S2048x8192 ![0, 3] v1 Gen.slices_S2048x8196_S2048x8192_0_3
  let v22 : FVec F S2048x8192 .f32 := broadcastInDim S2048x8192 ![] Gen.bcast_S_S2048x8192 v20
  let v23 : FVec F S2048x8192 .f32 := mulf v22 v21
  let v24 : FVec F S2048x8192 .f32 := addf v18 v23
  let v25 : FVec F S1 .f32 := extractStridedSlice S1 ![4] cst Gen.slices_S5_S1_4
  let v26 : FVec F S_ .f32 := shapeCast S_ v25 Gen.shapeCasts_S1_S_
  let v27 : FVec F S2048x8192 .f32 := extractStridedSlice S2048x8192 ![0, 4] v1 Gen.slices_S2048x8196_S2048x8192_0_4
  let v28 : FVec F S2048x8192 .f32 := broadcastInDim S2048x8192 ![] Gen.bcast_S_S2048x8192 v26
  let v29 : FVec F S2048x8192 .f32 := mulf v28 v27
  let v30 : FVec F S2048x8192 .f32 := addf v24 v29
  let v31 : FVec F S2048x8192 .f32 := mulf v30 v30
  let cst_0 : FVec F S_ .f32 := constant S_ .f32 0x00000000#32
  let v32 : FVec F S_ .f32 := Host.reduceAdd v31 cst_0 Gen.reducesTo_S2048x8192_S_d0_1 Gen.h_S_
  let v33 : FVec F S2048x3 .f32 := subf a1 a3
  let v34 : FVec F S2048x3 .f32 := mulf v33 v33
  let cst_1 : FVec F S_ .f32 := constant S_ .f32 0x00000000#32
  let v35 : FVec F S_ .f32 := Host.reduceAdd v34 cst_1 Gen.reducesTo_S2048x3_S_d0_1 Gen.h_S_
  let cst_2 : FVec F S_ .f32 := constant S_ .f32 0x3F4CCCCD#32
  let v36 : FVec F S_ .f32 := mulf v32 cst_2
  let cst_3 : FVec F S_ .f32 := constant S_ .f32 0x3E4CCCCD#32
  let v37 : FVec F S_ .f32 := mulf v35 cst_3
  let v38 : FVec F S_ .f32 := addf v36 v37
  v38

attribute [local irreducible] Host.reduceAdd pad extractStridedSlice broadcastInDim shapeCast in
/-- The fold of the operations at the result buffer is `refVal` of the fold's start at the four argument buffers:
    each operation's result read at its own buffer is its function of its operands' contents, at any other buffer
    what was there; the composed term is `refVal`'s body. -/
theorem out_eq (V : Valuation τ sig (Elt F)) :
    after ops V (main_v38 : DevRef τ sig)
      = refVal (V (main_arg0 : DevRef τ sig)) (V (main_arg1 : DevRef τ sig)) (V (main_arg2 : DevRef τ sig)) (V (main_arg3 : DevRef τ sig)) := by
  after_results_simp
  rfl

/-- No operation writes an argument buffer. -/
theorem arg0_eq (V : Valuation τ sig (Elt F)) : after ops V (main_arg0 : DevRef τ sig) = (V (main_arg0 : DevRef τ sig)) := by
  after_results_simp
theorem arg1_eq (V : Valuation τ sig (Elt F)) : after ops V (main_arg1 : DevRef τ sig) = (V (main_arg1 : DevRef τ sig)) := by
  after_results_simp
theorem arg2_eq (V : Valuation τ sig (Elt F)) : after ops V (main_arg2 : DevRef τ sig) = (V (main_arg2 : DevRef τ sig)) := by
  after_results_simp
theorem arg3_eq (V : Valuation τ sig (Elt F)) : after ops V (main_arg3 : DevRef τ sig) = (V (main_arg3 : DevRef τ sig)) := by
  after_results_simp

/-- On every device, for any float values, from any memory with zero counters: every weakly fair execution of
    @main terminates with the result buffer at `refVal` of the arguments' launch contents and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v38) = refVal (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v38).trans (out_eq _),
      (h c main_arg0).trans (arg0_eq _),
      (h c main_arg1).trans (arg1_eq _),
      (h c main_arg2).trans (arg2_eq _),
      (h c main_arg3).trans (arg3_eq _)⟩)
    (run_seq scopedRefs_eq scopedSems_eq defs main (fun _ => ops) main_eq (fun _ => ops_sub) m ρ)

end Cert.ReferenceIdeal.RefRun

end
-- ==== Proof.TailRun.lean ====
import proofs.«412695_j67551245631962_3_alg».proof.Proof.Gen.KernelIdeal.Launch
import Idealize.ShloMosaic.Lib.StableHlo.Run

/-!
# The host tail of the kernel program as one pure term

After its one `pallas_call` the kernel program's `@main` runs 155 StableHLO operations
(`Cert.KernelIdeal.Gen.hostOps1`). They read the call's result (a `2 × 8 × 128` array, whose entry `(c, 0, 0)` is
core `c`'s accumulated sum) and the four arguments, and leave one scalar:

* the sum of the two cores' sums (`coreSum`);
* from the first four and the last four columns of `arg0 - arg2` (`edgeL`, `edgeR`, read column by column with
  `col0 … col3`), for each of the four edge positions 0, 1, 8190, 8191 of a row the zero-padded 5-tap filter value
  (`true0`, `true1`, `trueP`, `trueL`) and the wrap-around one (`wrap0`, `wrap1`, `wrapP`, `wrapL`); the row's
  correction is the sum over the four positions of padded² - wrapped² (`corrOf`, `corrRow`), summed over the rows
  (`corrSum`);
* the class term: the sum of the squares of `arg1 - arg3` (`classSum`);
* the weighted sum `(coreSum + corrSum) · 0x3F4CCCCD + classSum · 0x3E4CCCCD` (`tailVal`).

Each function below is the printed operations' composition, in the printed association, every literal as printed;
`tail_eq` says the operations leave `tailVal` in the result's buffer, whatever valuation they start from.
-/

-- a 155-operation `::` list recurses past the default depth
set_option maxRecDepth 2420

noncomputable section

namespace Cert.KernelIdeal.Tail

open Idealize.ShloMosaic Idealize.SL.Sem
open Cert.KernelIdeal Cert.KernelIdeal.Gen

variable {F : FTy → Type} [FloatOps F]

/-- A weight, broadcast along the rows: each printed `constant` / `broadcast_in_dim` pair. -/
def bc (w : BitVec 32) : FVec F S2048 .f32 := broadcastInDim S2048 ![] bcast_S_S2048 (constant S_ .f32 w)

/-- The first four columns of `arg0 - arg2` (printed value `v6`). -/
def edgeL (a0 a2 : FVec F S2048x8192 .f32) : FVec F S2048x4 .f32 :=
  subf (extractStridedSlice S2048x4 ![0, 0] a0 slices_S2048x8192_S2048x4_0_0) (extractStridedSlice S2048x4 ![0, 0] a2 slices_S2048x8192_S2048x4_0_0)

/-- The last four columns, 8188 … 8191, of `arg0 - arg2` (`v9`). -/
def edgeR (a0 a2 : FVec F S2048x8192 .f32) : FVec F S2048x4 .f32 :=
  subf (extractStridedSlice S2048x4 ![0, 8188] a0 slices_S2048x8192_S2048x4_0_8188) (extractStridedSlice S2048x4 ![0, 8188] a2 slices_S2048x8192_S2048x4_0_8188)

/-- Column 0 of a four-column edge, as a vector over the rows (`v11` of `v6`, `v19` of `v9`). -/
def col0 (x : FVec F S2048x4 .f32) : FVec F S2048 .f32 :=
  shapeCast S2048 (extractStridedSlice S2048x1 ![0, 0] x slices_S2048x4_S2048x1_0_0) shapeCasts_S2048x1_S2048
/-- Column 1 (`v13`, `v21`). -/
def col1 (x : FVec F S2048x4 .f32) : FVec F S2048 .f32 :=
  shapeCast S2048 (extractStridedSlice S2048x1 ![0, 1] x slices_S2048x4_S2048x1_0_1) shapeCasts_S2048x1_S2048
/-- Column 2 (`v15`, `v23`). -/
def col2 (x : FVec F S2048x4 .f32) : FVec F S2048 .f32 :=
  shapeCast S2048 (extractStridedSlice S2048x1 ![0, 2] x slices_S2048x4_S2048x1_0_2) shapeCasts_S2048x1_S2048
/-- Column 3 (`v17`, `v25`). -/
def col3 (x : FVec F S2048x4 .f32) : FVec F S2048 .f32 :=
  shapeCast S2048 (extractStridedSlice S2048x1 ![0, 3] x slices_S2048x4_S2048x1_0_3) shapeCasts_S2048x1_S2048

/-! The eight edge values of a row, from its columns 0 … 3 (`d0 … d3`) and 8188 … 8191 (`m4 … m1`), each in the printed
association. The weights are `0x3F333333` at the centre, `0x3DCCCCCD` at distance one, `0x3D4CCCCD` at distance two. -/

/-- Position 0 of a row, zero-padded filter: taps at columns 0, 1, 2 (printed value `v33`). -/
def true0 (d0 d1 d2 d3 m4 m3 m2 m1 : FVec F S2048 .f32) : FVec F S2048 .f32 :=
  addf (addf (mulf (bc 0x3F333333#32) d0) (mulf (bc 0x3DCCCCCD#32) d1)) (mulf (bc 0x3D4CCCCD#32) d2)

/-- Position 0 of a row, wrap-around filter: taps at columns 8190, 8191, 0, 1, 2 (printed value `v47`). -/
def wrap0 (d0 d1 d2 d3 m4 m3 m2 m1 : FVec F S2048 .f32) : FVec F S2048 .f32 :=
  addf (addf (addf (addf (mulf (bc 0x3D4CCCCD#32) m2) (mulf (bc 0x3DCCCCCD#32) m1)) (mulf (bc 0x3F333333#32) d0)) (mulf (bc 0x3DCCCCCD#32) d1)) (mulf (bc 0x3D4CCCCD#32) d2)

/-- Position 1, zero-padded: taps at columns 0, 1, 2, 3 (`v58`). -/
def true1 (d0 d1 d2 d3 m4 m3 m2 m1 : FVec F S2048 .f32) : FVec F S2048 .f32 :=
  addf (addf (addf (mulf (bc 0x3DCCCCCD#32) d0) (mulf (bc 0x3F333333#32) d1)) (mulf (bc 0x3DCCCCCD#32) d2)) (mulf (bc 0x3D4CCCCD#32) d3)

/-- Position 1, wrap-around: taps at columns 8191, 0, 1, 2, 3 (`v72`). -/
def wrap1 (d0 d1 d2 d3 m4 m3 m2 m1 : FVec F S2048 .f32) : FVec F S2048 .f32 :=
  addf (addf (addf (addf (mulf (bc 0x3D4CCCCD#32) m1) (mulf (bc 0x3DCCCCCD#32) d0)) (mulf (bc 0x3F333333#32) d1)) (mulf (bc 0x3DCCCCCD#32) d2)) (mulf (bc 0x3D4CCCCD#32) d3)

/-- Position 8190, zero-padded: taps at columns 8188, 8189, 8190, 8191 (`v83`). -/
def trueP (d0 d1 d2 d3 m4 m3 m2 m1 : FVec F S2048 .f32) : FVec F S2048 .f32 :=
  addf (addf (addf (mulf (bc 0x3D4CCCCD#32) m4) (mulf (bc 0x3DCCCCCD#32) m3)) (mulf (bc 0x3F333333#32) m2)) (mulf (bc 0x3DCCCCCD#32) m1)

/-- Position 8190, wrap-around: the padded value and the tap at column 0 (`v86`). -/
def wrapP (d0 d1 d2 d3 m4 m3 m2 m1 : FVec F S2048 .f32) : FVec F S2048 .f32 :=
  addf (trueP d0 d1 d2 d3 m4 m3 m2 m1) (mulf (bc 0x3D4CCCCD#32) d0)

/-- Position 8191, zero-padded: taps at columns 8189, 8190, 8191 (`v94`). -/
def trueL (d0 d1 d2 d3 m4 m3 m2 m1 : FVec F S2048 .f32) : FVec F S2048 .f32 :=
  addf (addf (mulf (bc 0x3D4CCCCD#32) m3) (mulf (bc 0x3DCCCCCD#32) m2)) (mulf (bc 0x3F333333#32) m1)

/-- Position 8191, wrap-around: the padded value and the taps at columns 0, 1 (`v100`). -/
def wrapL (d0 d1 d2 d3 m4 m3 m2 m1 : FVec F S2048 .f32) : FVec F S2048 .f32 :=
  addf (addf (trueL d0 d1 d2 d3 m4 m3 m2 m1) (mulf (bc 0x3DCCCCCD#32) d0)) (mulf (bc 0x3D4CCCCD#32) d1)

/-- The correction of a row from its eight edge values: over the four edge positions, padded² - wrapped², summed in the
    printed association (`v115`). -/
def corrOf (t0 w0 t1 w1 tP wP tL wL : FVec F S2048 .f32) : FVec F S2048 .f32 :=
  addf (addf (addf (subf (mulf t0 t0) (mulf w0 w0)) (subf (mulf t1 t1) (mulf w1 w1))) (subf (mulf tP tP) (mulf wP wP))) (subf (mulf tL tL) (mulf wL wL))

/-- The correction of every row, from the columns. -/
def corrRow (d0 d1 d2 d3 m4 m3 m2 m1 : FVec F S2048 .f32) : FVec F S2048 .f32 :=
  corrOf (true0 d0 d1 d2 d3 m4 m3 m2 m1) (wrap0 d0 d1 d2 d3 m4 m3 m2 m1) (true1 d0 d1 d2 d3 m4 m3 m2 m1) (wrap1 d0 d1 d2 d3 m4 m3 m2 m1)
    (trueP d0 d1 d2 d3 m4 m3 m2 m1) (wrapP d0 d1 d2 d3 m4 m3 m2 m1) (trueL d0 d1 d2 d3 m4 m3 m2 m1) (wrapL d0 d1 d2 d3 m4 m3 m2 m1)

/-- The correction summed over the rows (`v116`). -/
def corrSum (a0 a2 : FVec F S2048x8192 .f32) : FVec F S_ .f32 :=
  Host.reduceAdd (corrRow (col0 (edgeL a0 a2)) (col1 (edgeL a0 a2)) (col2 (edgeL a0 a2)) (col3 (edgeL a0 a2))
      (col0 (edgeR a0 a2)) (col1 (edgeR a0 a2)) (col2 (edgeR a0 a2)) (col3 (edgeR a0 a2)))
    (constant S_ .f32 0x00000000#32) reducesTo_S2048_S_d0 h_S_

/-- The two cores' accumulated sums, added (`v3`). -/
def coreSum (out : FVec F S2x8x128 .f32) : FVec F S_ .f32 :=
  Host.reduceAdd (shapeCast S2 (extractStridedSlice S2x1x1 ![0, 0, 0] out slices_S2x8x128_S2x1x1_0_0_0) shapeCasts_S2x1x1_S2) (constant S_ .f32 0x00000000#32) reducesTo_S2_S_d0 h_S_

/-- The class term: the sum of the squares of `arg1 - arg3` (`v120`). -/
def classSum (a1 a3 : FVec F S2048x3 .f32) : FVec F S_ .f32 :=
  Host.reduceAdd (mulf (subf a1 a3) (subf a1 a3)) (constant S_ .f32 0x00000000#32) reducesTo_S2048x3_S_d0_1 h_S_

/-- The value the 155 host operations compute from the arguments `a0 … a3` and the call's result `out` (`v123`). -/
def tailVal (a0 : FVec F S2048x8192 .f32) (a1 : FVec F S2048x3 .f32) (a2 : FVec F S2048x8192 .f32)
    (a3 : FVec F S2048x3 .f32) (out : FVec F S2x8x128 .f32) : FVec F S_ .f32 :=
  addf (mulf (addf (coreSum out) (corrSum a0 a2)) (constant S_ .f32 0x3F4CCCCD#32)) (mulf (classSum a1 a3) (constant S_ .f32 0x3E4CCCCD#32))

set_option maxHeartbeats 40000000 in
/-- Run from any valuation, the tail leaves `tailVal` of the arguments' and the call's contents in its last buffer. -/
theorem tail_eq (W : Valuation τ sig (Elt F)) :
    StableHlo.after (hostOps1 (F := F)) W (Proc.devRef .tc main_v123)
      = tailVal (W (Proc.devRef .tc main_arg0)) (W (Proc.devRef .tc main_arg1)) (W (Proc.devRef .tc main_arg2))
          (W (Proc.devRef .tc main_arg3)) (W (Proc.devRef .tc main_v0)) := by
  after_results_simp
  rfl

end Cert.KernelIdeal.Tail
-- ==== Proof.KernelRun.lean ====
/-
  The kernel program's run with its result named. After the region the 155 host lines run from the buffers as the
  region left them: the two staged inputs as they were, the pallas_call's result at what the library computes from
  the write-backs, every other buffer untouched. Their last result is the lines' composed term of those.
-/
import proofs.«412695_j67551245631962_3_alg».proof.Proof.FrameI.Frame
import proofs.«412695_j67551245631962_3_alg».proof.Proof.TailRun

set_option maxRecDepth 16384

noncomputable section

namespace Cert.KernelIdeal.Run

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The program's result on core `c`: the host lines' term of the four arguments and of the pallas_call's result. -/
def kVal (c : Dev nD) : FVec F S_ .f32 :=
  Tail.tailVal (m ((c.tc : Thread nD τ).loc main_arg0)) (m ((c.tc : Thread nD τ).loc main_arg1))
    (m ((c.tc : Thread nD τ).loc main_arg2)) (m ((c.tc : Thread nD τ).loc main_arg3)) ((Fr.dats m 0 c).arrAt 2 cfg0.N)

/-- What the lines find in each buffer they read: the region's exit contents. -/
theorem exit_arg0 (c : Dev nD) :
    Pipeline.withArrays spec0 c (Fr.V0 m c) (fun w => (Fr.dats m 0 c).arrAt w cfg0.N) (Proc.devRef .tc main_arg0)
      = m ((c.tc : Thread nD τ).loc main_arg0) :=
  (Pipeline.withArrays_arr spec0 launch0.win.arr_inj c _ _ 0).trans
    (((Fr.dats m 0 c).arrAt_in 0 rfl _).trans ((Fr.A_eq m c 0).trans (Fr.V_main_arg0 m c)))

theorem exit_arg2 (c : Dev nD) :
    Pipeline.withArrays spec0 c (Fr.V0 m c) (fun w => (Fr.dats m 0 c).arrAt w cfg0.N) (Proc.devRef .tc main_arg2)
      = m ((c.tc : Thread nD τ).loc main_arg2) :=
  (Pipeline.withArrays_arr spec0 launch0.win.arr_inj c _ _ 1).trans
    (((Fr.dats m 0 c).arrAt_in 1 rfl _).trans ((Fr.A_eq m c 1).trans (Fr.V_main_arg2 m c)))

theorem exit_v0 (c : Dev nD) :
    Pipeline.withArrays spec0 c (Fr.V0 m c) (fun w => (Fr.dats m 0 c).arrAt w cfg0.N) (Proc.devRef .tc main_v0)
      = (Fr.dats m 0 c).arrAt 2 cfg0.N :=
  Pipeline.withArrays_arr spec0 launch0.win.arr_inj c _ _ 2

theorem exit_arg1 (c : Dev nD) :
    Pipeline.withArrays spec0 c (Fr.V0 m c) (fun w => (Fr.dats m 0 c).arrAt w cfg0.N) (Proc.devRef .tc main_arg1)
      = m ((c.tc : Thread nD τ).loc main_arg1) :=
  (Pipeline.withArrays_of_ne _ c (Fr.V0 m c) _ main_arg1 (by exact (by decide : ∀ w, Pipeline.arrRef spec0 w ≠ main_arg1))).trans
    (Fr.V_main_arg1 m c)

theorem exit_arg3 (c : Dev nD) :
    Pipeline.withArrays spec0 c (Fr.V0 m c) (fun w => (Fr.dats m 0 c).arrAt w cfg0.N) (Proc.devRef .tc main_arg3)
      = m ((c.tc : Thread nD τ).loc main_arg3) :=
  (Pipeline.withArrays_of_ne _ c (Fr.V0 m c) _ main_arg3 (by exact (by decide : ∀ w, Pipeline.arrRef spec0 w ≠ main_arg3))).trans
    (Fr.V_main_arg3 m c)

/-- After the lines the result buffer holds `kVal`. -/
theorem result_eq (c : Dev nD) :
    Pipeline.afterTail₀ cfgs (Fr.dats m) 0 (Fr.V0 m) [hostOps1] c main_v123 = kVal m c := by
  unfold Pipeline.afterTail₀ kVal
  simp only [List.flatten_cons, List.flatten_nil, List.append_nil]
  rw [Tail.tail_eq, exit_arg0, exit_arg1, exit_arg2, exit_arg3, exit_v0]

/-- THE RUN: @main ends with its result at `kVal` and its four arguments as they were. -/
theorem run : θ_run defs (onTc (τ := τ) (main (F := F))) ⟨m, fun _ => 0, ρ⟩ (fun r => ∀ c : Dev nD,
      r.2.mem ((c.tc : Thread nD τ).loc main_v123) = kVal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v123 (Pipeline.mem_restRefs_of main_v123 (by decide) (by decide))).trans (result_eq m c),
     ((h c).1 0).trans (((Fr.dats m 0 c).arrAt_in 0 rfl _).trans ((Fr.A_eq m c 0).trans (Fr.V_main_arg0 m c))),
     ((h c).2 main_arg1 (Pipeline.mem_restRefs_of main_arg1 (by decide) (by decide))).trans (Fr.W_main_arg1 m (Fr.dats m) c),
     ((h c).1 1).trans (((Fr.dats m 0 c).arrAt_in 1 rfl _).trans ((Fr.A_eq m c 1).trans (Fr.V_main_arg2 m c))),
     ((h c).2 main_arg3 (Pipeline.mem_restRefs_of main_arg3 (by decide) (by decide))).trans (Fr.W_main_arg3 m (Fr.dats m) c)⟩)
    (Fr.run_main m ρ)

end Cert.KernelIdeal.Run

end
-- ==== Proof.Spec.lean ====
/-
  The two filters, on one row of 8192 differences, over any type with +, ·, − and 0 (read at the extended reals
  for the programs, at the reals for the algebra).
  The reference filters the row PADDED with two zeros at each end with the five weights (e, b, a, b, e):
  entry t of the result is e·p(t) + b·p(t+1) + a·p(t+2) + b·p(t+3) + e·p(t+4), p the padded row. The kernel filters
  the row WRAPPED AROUND: a·d(t) + b·(d(t−1) + d(t+1)) + e·(d(t−2) + d(t+2)), indices modulo 8192, and the host
  then adds, per row, the difference of the squares at the four columns 0, 1, 8190, 8191 where the two differ.
  Every sum is associated as the printed programs associate it.
-/
import Mathlib.Algebra.Group.Defs
import Mathlib.Tactic.NormNum

namespace Cert.Spec

variable {R : Type} [Add R] [Mul R] [Sub R] [Zero R]

/-- Entry `t` of the row rotated forward by `s` places around its 8192 columns: the entry `s` places back. -/
def cyc (d : Fin 8192 → R) (t : Fin 8192) (s : ℕ) : R :=
  d ⟨(t.val + 8192 - s % 8192) % 8192, Nat.mod_lt _ (by norm_num)⟩

/-- Entry `u` (of 8196) of the row padded with two zeros in front and two behind. -/
def ext (d : Fin 8192 → R) (u : ℕ) : R :=
  if h : 2 ≤ u ∧ u < 8194 then d ⟨u - 2, by omega⟩ else 0

/-- The kernel's filtered entry: the five taps around `t`, wrapping around the row's ends. -/
def wrapv (a b e : R) (d : Fin 8192 → R) (t : Fin 8192) : R :=
  (a * d t + b * (cyc d t 1 + cyc d t 8191)) + e * (cyc d t 2 + cyc d t 8190)

/-- The reference's filtered entry: the five taps around `t` of the zero-padded row. -/
def truev (a b e : R) (d : Fin 8192 → R) (t : Fin 8192) : R :=
  (((e * ext d t.val + b * ext d (t.val + 1)) + a * ext d (t.val + 2)) + b * ext d (t.val + 3)) + e * ext d (t.val + 4)

/-- The host's edge correction of one row: at the columns 0, 1, 8190, 8191 the square of the zero-padded filter's
    entry minus the square of the wrapped one's, from the row's first four and last four entries. -/
def corrv (a b e : R) (d : Fin 8192 → R) : R :=
  let d0 := d ⟨0, by norm_num⟩; let d1 := d ⟨1, by norm_num⟩; let d2 := d ⟨2, by norm_num⟩; let d3 := d ⟨3, by norm_num⟩
  let m4 := d ⟨8188, by norm_num⟩; let m3 := d ⟨8189, by norm_num⟩; let m2 := d ⟨8190, by norm_num⟩; let m1 := d ⟨8191, by norm_num⟩
  let true0 := (a * d0 + b * d1) + e * d2
  let wrap0 := (((e * m2 + b * m1) + a * d0) + b * d1) + e * d2
  let true1 := ((b * d0 + a * d1) + b * d2) + e * d3
  let wrap1 := (((e * m1 + b * d0) + a * d1) + b * d2) + e * d3
  let trueP := ((e * m4 + b * m3) + a * m2) + b * m1
  let wrapP := trueP + e * d0
  let trueL := (e * m3 + b * m2) + a * m1
  let wrapL := (trueL + b * d0) + e * d1
  (((true0 * true0 - wrap0 * wrap0) + (true1 * true1 - wrap1 * wrap1)) + (trueP * trueP - wrapP * wrapP)) + (trueL * trueL - wrapL * wrapL)

end Cert.Spec
-- ==== Proof.SpecE.lean ====
/-
  The two programs' results at the extended reals, in one vocabulary.
  With d(b, ·) = target(b, ·) − prediction(b, ·) the row of differences and (a, b, e) the three filter weights read as
  extended reals, the kernel's program computes ((0 + Σ_k out_k) + (0 + Σ_b corr_b))·w₈ + class·w₂ where out_k is the
  pallas_call's result at (k, 0, 0) — the sum over core k's 1024 rows and all columns of the squared wrap-around
  filter — and corr_b the host's edge correction of row b; the reference computes (0 + Σ_{b,t} true(b,t)²)·w₈ +
  class·w₂ with the zero-padded filter; class is the sum of squared class differences, the same on both sides.
-/
import proofs.«412695_j67551245631962_3_alg».proof.Proof.Spec
import Idealize.ShloMosaic.PureOps.Ideal
import Idealize.ShloMosaic.Lib.ValueIdx

noncomputable section

namespace Cert.SpecE

open Idealize.ShloMosaic Cert.Spec

/-- The filter's weights and the two final weights, as the extended reals their f32 patterns denote. -/
abbrev wa : EReal := Ideal.ofBits .f32 0x3F333333#32
abbrev wb : EReal := Ideal.ofBits .f32 0x3DCCCCCD#32
abbrev we : EReal := Ideal.ofBits .f32 0x3D4CCCCD#32
abbrev w8 : EReal := Ideal.ofBits .f32 0x3F4CCCCD#32
abbrev w2 : EReal := Ideal.ofBits .f32 0x3E4CCCCD#32

abbrev SA : Shape := ⟨2, ![2048, 8192]⟩
abbrev SC : Shape := ⟨2, ![2048, 3]⟩

/-- Row `b` of the differences target − prediction. -/
def dRow (a0 a2 : SA.Idx → EReal) (b : Fin 2048) : Fin 8192 → EReal := fun q => a0 (ValueIdx.ix2 b q) - a2 (ValueIdx.ix2 b q)

/-- The squared wrap-around filter of row `b` at column `q`. -/
def wrapSq (a0 a2 : SA.Idx → EReal) (b : Fin 2048) (q : Fin 8192) : EReal :=
  wrapv wa wb we (dRow a0 a2 b) q * wrapv wa wb we (dRow a0 a2 b) q

/-- The squared zero-padded filter of row `b` at column `q`. -/
def trueSq (a0 a2 : SA.Idx → EReal) (b : Fin 2048) (q : Fin 8192) : EReal :=
  truev wa wb we (dRow a0 a2 b) q * truev wa wb we (dRow a0 a2 b) q

/-- The class term: the sum of squared class differences, from zero. -/
def classE (a1 a3 : SC.Idx → EReal) : EReal := 0 + ∑ i : SC.Idx, (a1 i - a3 i) * (a1 i - a3 i)

/-- What the kernel's host lines compute from the pallas_call's result `out` : f32[2, 8, 128]. -/
def kernelForm (a0 a2 : SA.Idx → EReal) (a1 a3 : SC.Idx → EReal) (out : (⟨3, ![2, 8, 128]⟩ : Shape).Idx → EReal) : EReal :=
  ((0 + ∑ k : Fin 2, out (ValueIdx.ix3 k (0 : Fin 8) (0 : Fin 128))) + (0 + ∑ b : Fin 2048, corrv wa wb we (dRow a0 a2 b))) * w8
    + classE a1 a3 * w2

/-- What the reference computes. -/
def refForm (a0 a2 : SA.Idx → EReal) (a1 a3 : SC.Idx → EReal) : EReal :=
  (0 + ∑ b : Fin 2048, ∑ q : Fin 8192, trueSq a0 a2 b q) * w8 + classE a1 a3 * w2

end Cert.SpecE

end
-- ==== Proof.TailRead.lean ====
/- The kernel program's host tail read at the extended reals: the composed term of the operations after the call, at
   the one index of its rank-0 result, is the two cores' sums added from zero, plus the sum over the rows, from zero, of
   each row's edge correction, times one weight, plus the class term times another. Only reading: each layout
   operation at an index is its operand at the index it names, each arithmetic operation the extended reals' own, and
   each reduction the initial value plus the sum over every source index; no sum is reordered or reassociated. -/
import proofs.«412695_j67551245631962_3_alg».proof.Proof.TailRun
import proofs.«412695_j67551245631962_3_alg».proof.Proof.SpecE
import Idealize.ShloMosaic.PureOps.Ideal
import Idealize.ShloMosaic.PureOps.Ideal.Laws
import Idealize.ShloMosaic.Lib.ValueIdx
import Idealize.ShloMosaic.Lib.ValueIdxRank1
import Idealize.ShloMosaic.Lib.IdealHost
import Idealize.ShloMosaic.Lib.Pipeline.Value

noncomputable section

namespace Cert.KernelIdeal.Tail

open Cert.KernelIdeal Cert.KernelIdeal.Gen Idealize.ShloMosaic Idealize.ShloMosaic.ValueIdx Cert.Spec Cert.SpecE
open scoped BigOperators

/-- A sum over a rank-1 index set is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- A broadcast weight reads, at every row, the extended real its pattern denotes. -/
theorem bc_apply (w : BitVec 32) (b : Fin 2048) : bc (F := Ideal) w (ix1 b) = Ideal.ofBits .f32 w := by
  unfold bc
  exact broadcastInDim_scalar_apply _ _ (ix1 b)

/-- The left edge at row b, column c is the row of differences at column c. -/
theorem edgeL_apply (a0 a2 : FVec Ideal S2048x8192 .f32) (b : Fin 2048) (c : Fin 4) :
    edgeL a0 a2 (ix2 b c) = dRow a0 a2 b (⟨c.val, by omega⟩ : Fin 8192) := by
  have h0 := extractStridedSlice_apply ![0, 0] a0 slices_S2048x8192_S2048x4_0_0 (ix2 b c) (ix2 b (⟨c.val, by omega⟩ : Fin 8192))
    fun a => match a with
      | ⟨0, _⟩ => by show b.val = 0 + b.val; omega
      | ⟨1, _⟩ => by show c.val = 0 + c.val; omega
  have h2 := extractStridedSlice_apply ![0, 0] a2 slices_S2048x8192_S2048x4_0_0 (ix2 b c) (ix2 b (⟨c.val, by omega⟩ : Fin 8192))
    fun a => match a with
      | ⟨0, _⟩ => by show b.val = 0 + b.val; omega
      | ⟨1, _⟩ => by show c.val = 0 + c.val; omega
  show extractStridedSlice S2048x4 ![0, 0] a0 _ (ix2 b c) - extractStridedSlice S2048x4 ![0, 0] a2 _ (ix2 b c) = _
  rw [h0, h2]
  rfl

/-- The right edge at row b, column c is the row of differences at column 8188 + c. -/
theorem edgeR_apply (a0 a2 : FVec Ideal S2048x8192 .f32) (b : Fin 2048) (c : Fin 4) :
    edgeR a0 a2 (ix2 b c) = dRow a0 a2 b (⟨8188 + c.val, by omega⟩ : Fin 8192) := by
  have h0 := extractStridedSlice_apply ![0, 8188] a0 slices_S2048x8192_S2048x4_0_8188 (ix2 b c) (ix2 b (⟨8188 + c.val, by omega⟩ : Fin 8192))
    fun a => match a with
      | ⟨0, _⟩ => by show b.val = 0 + b.val; omega
      | ⟨1, _⟩ => by show 8188 + c.val = 8188 + c.val; rfl
  have h2 := extractStridedSlice_apply ![0, 8188] a2 slices_S2048x8192_S2048x4_0_8188 (ix2 b c) (ix2 b (⟨8188 + c.val, by omega⟩ : Fin 8192))
    fun a => match a with
      | ⟨0, _⟩ => by show b.val = 0 + b.val; omega
      | ⟨1, _⟩ => by show 8188 + c.val = 8188 + c.val; rfl
  show extractStridedSlice S2048x4 ![0, 8188] a0 _ (ix2 b c) - extractStridedSlice S2048x4 ![0, 8188] a2 _ (ix2 b c) = _
  rw [h0, h2]
  rfl

/-- The slice of one column, cast to a vector over the rows, reads at row b the array at row b and that column. -/
theorem col_apply (K : ℕ) (hK : K < 4) (hs : S2048x4.Slices ![0, K] S2048x1) (x : FVec Ideal S2048x4 .f32) (b : Fin 2048) :
    shapeCast S2048 (extractStridedSlice S2048x1 ![0, K] x hs) shapeCasts_S2048x1_S2048 (ix1 b) = x (ix2 b (⟨K, hK⟩ : Fin 4)) := by
  refine (shapeCast_apply _ _ (ix1 b) (ix2 b (0 : Fin 1)) ?_).trans ?_
  · rw [Shape.rowMajor_val_two, Shape.rowMajor_val_one]
    show b.val * 1 + 0 = b.val
    omega
  · exact extractStridedSlice_apply _ _ _ (ix2 b (0 : Fin 1)) (ix2 b (⟨K, hK⟩ : Fin 4)) fun a =>
      match a with
      | ⟨0, _⟩ => by show b.val = 0 + b.val; omega
      | ⟨1, _⟩ => by show K = K + 0; omega

theorem col0_apply (x : FVec Ideal S2048x4 .f32) (b : Fin 2048) : col0 x (ix1 b) = x (ix2 b (⟨0, by omega⟩ : Fin 4)) :=
  col_apply 0 (by omega) _ x b
theorem col1_apply (x : FVec Ideal S2048x4 .f32) (b : Fin 2048) : col1 x (ix1 b) = x (ix2 b (⟨1, by omega⟩ : Fin 4)) :=
  col_apply 1 (by omega) _ x b
theorem col2_apply (x : FVec Ideal S2048x4 .f32) (b : Fin 2048) : col2 x (ix1 b) = x (ix2 b (⟨2, by omega⟩ : Fin 4)) :=
  col_apply 2 (by omega) _ x b
theorem col3_apply (x : FVec Ideal S2048x4 .f32) (b : Fin 2048) : col3 x (ix1 b) = x (ix2 b (⟨3, by omega⟩ : Fin 4)) :=
  col_apply 3 (by omega) _ x b

/-- The correction of the rows, read at row b: when the eight columns read, at b, the first four and the last four
    entries of a row d, it is the edge correction of d — the eight edge values and their squares' differences are
    pointwise, in the same association, and each broadcast weight reads the extended real it denotes. -/
theorem corrRow_apply (d0 d1 d2 d3 m4 m3 m2 m1 : FVec Ideal S2048 .f32) (b : Fin 2048) (d : Fin 8192 → EReal)
    (h0 : d0 (ix1 b) = d ⟨0, by norm_num⟩) (h1 : d1 (ix1 b) = d ⟨1, by norm_num⟩) (h2 : d2 (ix1 b) = d ⟨2, by norm_num⟩)
    (h3 : d3 (ix1 b) = d ⟨3, by norm_num⟩) (g4 : m4 (ix1 b) = d ⟨8188, by norm_num⟩) (g3 : m3 (ix1 b) = d ⟨8189, by norm_num⟩)
    (g2 : m2 (ix1 b) = d ⟨8190, by norm_num⟩) (g1 : m1 (ix1 b) = d ⟨8191, by norm_num⟩) :
    corrRow d0 d1 d2 d3 m4 m3 m2 m1 (ix1 b) = corrv wa wb we d := by
  unfold corrRow corrOf wrapL wrapP trueL trueP wrap1 true1 wrap0 true0 corrv
  simp only [addf_apply, subf_apply, mulf_apply, bc_apply, h0, h1, h2, h3, g4, g3, g2, g1]

/-- The correction summed over the rows, at its one index: from zero, the sum over the rows of the row's correction. -/
theorem corrSum_read (a0 a2 : FVec Ideal S2048x8192 .f32) :
    corrSum (F := Ideal) a0 a2 ix0 = 0 + ∑ b : Fin 2048, corrv wa wb we (dRow a0 a2 b) := by
  unfold corrSum
  rw [hostReduceAdd_apply, Ideal.hostReduceAdd_total _ (fun b => b.elim0), constant_apply, Ideal.ofBits_zero_f32, sum_idx1]
  refine congrArg (fun z : EReal => 0 + z) (Finset.sum_congr rfl fun b _ => ?_)
  exact corrRow_apply _ _ _ _ _ _ _ _ b (dRow a0 a2 b)
    ((col0_apply _ b).trans (edgeL_apply a0 a2 b _)) ((col1_apply _ b).trans (edgeL_apply a0 a2 b _))
    ((col2_apply _ b).trans (edgeL_apply a0 a2 b _)) ((col3_apply _ b).trans (edgeL_apply a0 a2 b _))
    ((col0_apply _ b).trans (edgeR_apply a0 a2 b _)) ((col1_apply _ b).trans (edgeR_apply a0 a2 b _))
    ((col2_apply _ b).trans (edgeR_apply a0 a2 b _)) ((col3_apply _ b).trans (edgeR_apply a0 a2 b _))

/-- The two cores' sums added, at its one index: from zero, the call's result at (0, 0, 0) and at (1, 0, 0). -/
theorem coreSum_read (out : FVec Ideal S2x8x128 .f32) :
    coreSum (F := Ideal) out ix0 = 0 + ∑ k : Fin 2, out (ix3 k (0 : Fin 8) (0 : Fin 128)) := by
  unfold coreSum
  rw [hostReduceAdd_apply, Ideal.hostReduceAdd_total _ (fun b => b.elim0), constant_apply, Ideal.ofBits_zero_f32, sum_idx1]
  refine congrArg (fun z : EReal => 0 + z) (Finset.sum_congr rfl fun k _ => ?_)
  refine (shapeCast_apply _ _ (ix1 k) (ix3 k (0 : Fin 1) (0 : Fin 1)) ?_).trans ?_
  · rw [Shape.rowMajor_val_three, Shape.rowMajor_val_one]
    show (k.val * 1 + 0) * 1 + 0 = k.val
    omega
  · exact extractStridedSlice_apply _ _ _ (ix3 k (0 : Fin 1) (0 : Fin 1)) (ix3 k (0 : Fin 8) (0 : Fin 128)) fun a =>
      match a with
      | ⟨0, _⟩ => by show k.val = 0 + k.val; omega
      | ⟨1, _⟩ => by show 0 = 0 + 0; rfl
      | ⟨2, _⟩ => by show 0 = 0 + 0; rfl

/-- The class term, at its one index: from zero, the sum of the squared class differences. -/
theorem classSum_read (a1 a3 : FVec Ideal S2048x3 .f32) : classSum (F := Ideal) a1 a3 ix0 = classE a1 a3 := by
  unfold classSum classE
  rw [hostReduceAdd_apply, Ideal.hostReduceAdd_total _ (fun b => b.elim0), constant_apply, Ideal.ofBits_zero_f32]
  rfl

/-- THE READING: the tail's value at its one index is `kernelForm`. -/
theorem tail_read (a0 a2 : FVec Ideal S2048x8192 .f32) (a1 a3 : FVec Ideal S2048x3 .f32) (out : FVec Ideal S2x8x128 .f32) :
    tailVal (F := Ideal) a0 a1 a2 a3 out ValueIdx.ix0 = Cert.SpecE.kernelForm a0 a2 a1 a3 out := by
  show (coreSum (F := Ideal) out ix0 + corrSum (F := Ideal) a0 a2 ix0) * w8 + classSum (F := Ideal) a1 a3 ix0 * w2 = _
  rw [coreSum_read, corrSum_read, classSum_read]
  rfl

end Cert.KernelIdeal.Tail

end
-- ==== Proof.RefRead.lean ====
/- The reference's result read at the extended reals: the composed term of its operations, at the one index of its
   rank-0 result, is the sum over rows and columns of the squared zero-padded five-tap filter of the differences,
   from zero, times one weight, plus the class term times another. Only reading: each layout operation at an index
   is its operand at the index it names, each arithmetic operation the extended reals' own, and the two reductions
   the initial value plus the sum over every source index. -/
import proofs.«412695_j67551245631962_3_alg».proof.Proof.RefRun
import proofs.«412695_j67551245631962_3_alg».proof.Proof.SpecE
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import Idealize.ShloMosaic.Lib.KernelVsHost

noncomputable section

namespace Cert.ReferenceIdeal.RefRead

open Cert.ReferenceIdeal Idealize.ShloMosaic Idealize.ShloMosaic.ValueIdx Cert.Spec Cert.SpecE
open scoped BigOperators

/-- The table of the five weights. -/
def tbl : FVec Ideal S5 .f32 := fun i => FloatOps.ofBits .f32 (lit0 (S5.rowMajor i))

/-- The differences with two columns of the converted integer zero in front of and behind each row. -/
def padded (a0 a2 : FVec Ideal S2048x8192 .f32) : FVec Ideal S2048x8196 .f32 :=
  pad S2048x8196 ![0, 2] ![0, 2] ![0, 0] (subf a0 a2) (sitofp .f32 (constantI S_ 32 0#32) : FVec Ideal S_ .f32)
    Gen.pads_S2048x8192_S2048x8196_000_220 Gen.h_S_

/-- Entry `k` of the table, as the array it is broadcast to. -/
def wgt (k : ℕ) (hs : S5.Slices ![k] S1) : FVec Ideal S2048x8192 .f32 :=
  broadcastInDim S2048x8192 ![] Gen.bcast_S_S2048x8192 (shapeCast S_ (extractStridedSlice S1 ![k] tbl hs) Gen.shapeCasts_S1_S_)

/-- The window of the padded differences that starts at column `k`. -/
def win (a0 a2 : FVec Ideal S2048x8192 .f32) (k : ℕ) (hs : S2048x8196.Slices ![0, k] S2048x8192) : FVec Ideal S2048x8192 .f32 :=
  extractStridedSlice S2048x8192 ![0, k] (padded a0 a2) hs

/-- The filtered array: the five windows, each scaled by its weight, summed from the left. -/
def filt (a0 a2 : FVec Ideal S2048x8192 .f32) : FVec Ideal S2048x8192 .f32 :=
  addf (addf (addf (addf (mulf (wgt 0 Gen.slices_S5_S1_0) (win a0 a2 0 Gen.slices_S2048x8196_S2048x8192_0_0)) (mulf (wgt 1 Gen.slices_S5_S1_1) (win a0 a2 1 Gen.slices_S2048x8196_S2048x8192_0_1)))
    (mulf (wgt 2 Gen.slices_S5_S1_2) (win a0 a2 2 Gen.slices_S2048x8196_S2048x8192_0_2))) (mulf (wgt 3 Gen.slices_S5_S1_3) (win a0 a2 3 Gen.slices_S2048x8196_S2048x8192_0_3)))
    (mulf (wgt 4 Gen.slices_S5_S1_4) (win a0 a2 4 Gen.slices_S2048x8196_S2048x8192_0_4))

/-- The reference's term over those stages: the same term, the stages named. -/
theorem refVal_eq (a0 a2 : FVec Ideal S2048x8192 .f32) (a1 a3 : FVec Ideal S2048x3 .f32) :
    RefRun.refVal (F := Ideal) a0 a1 a2 a3
      = addf (mulf (Host.reduceAdd (mulf (filt a0 a2) (filt a0 a2)) (constant S_ .f32 0x00000000#32 : FVec Ideal S_ .f32)
            Gen.reducesTo_S2048x8192_S_d0_1 Gen.h_S_) (constant S_ .f32 0x3F4CCCCD#32))
          (mulf (Host.reduceAdd (mulf (subf a1 a3) (subf a1 a3)) (constant S_ .f32 0x00000000#32 : FVec Ideal S_ .f32)
            Gen.reducesTo_S2048x3_S_d0_1 Gen.h_S_) (constant S_ .f32 0x3E4CCCCD#32)) := rfl

/-- A broadcast weight reads, everywhere, the table's entry: the broadcast of a scalar reads the scalar, the cast of
    a one-entry vector to a scalar reads its entry, the slice `[k, k+1)` reads entry `k`. -/
theorem wgt_apply (k : ℕ) (hk : k < 5) (hs : S5.Slices ![k] S1) (j : S2048x8192.Idx) :
    wgt k hs j = tbl (ix1 (⟨k, hk⟩ : Fin 5)) := by
  unfold wgt
  refine (broadcastInDim_scalar_apply _ _ j).trans ?_
  refine (shapeCast_apply _ _ ix0 (ix1 (0 : Fin 1)) rfl).trans ?_
  exact extractStridedSlice_apply _ _ _ (ix1 (0 : Fin 1)) (ix1 (⟨k, hk⟩ : Fin 5)) fun a =>
    match a with | ⟨0, _⟩ => by show k = k + 0; omega

/-- The table's five entries, as the extended reals their patterns denote. -/
theorem tbl_0 : tbl (ix1 (⟨0, by omega⟩ : Fin 5)) = we := rfl
theorem tbl_1 : tbl (ix1 (⟨1, by omega⟩ : Fin 5)) = wb := rfl
theorem tbl_2 : tbl (ix1 (⟨2, by omega⟩ : Fin 5)) = wa := rfl
theorem tbl_3 : tbl (ix1 (⟨3, by omega⟩ : Fin 5)) = wb := rfl
theorem tbl_4 : tbl (ix1 (⟨4, by omega⟩ : Fin 5)) = we := rfl

/-- The padded array at row `b`, column `u` is the padded row's entry `u`: inside, the difference at column `u − 2`;
    in the two columns before and the two after, the converted integer zero, which is zero. -/
theorem padded_apply (a0 a2 : FVec Ideal S2048x8192 .f32) (b : Fin 2048) (u : Fin 8196) :
    padded a0 a2 (ix2 b u) = ext (dRow a0 a2 b) u.val := by
  unfold padded ext
  by_cases h : 2 ≤ u.val ∧ u.val < 8194
  · rw [dif_pos h]
    exact pad_apply_of_inside _ _ _ _ _ _ _ (ix2 b u) (ix2 b (⟨u.val - 2, by omega⟩ : Fin 8192)) fun a =>
      match a with
      | ⟨0, _⟩ => by show b.val = 0 + b.val * (0 + 1); omega
      | ⟨1, _⟩ => by show u.val = 2 + (u.val - 2) * (0 + 1); omega
  · rw [dif_neg h]
    refine (pad_apply_of_not_inside _ _ _ _ _ _ _ (ix2 b u) (1 : Fin 2) ?_).trans sitofp_zero
    show ¬(2 ≤ u.val ∧ (u.val - 2) % (0 + 1) = 0 ∧ (u.val - 2) / (0 + 1) < 8192)
    omega

/-- Window `k` at row `b`, column `q` is the padded row's entry `q + k`. -/
theorem win_apply (a0 a2 : FVec Ideal S2048x8192 .f32) (k : ℕ) (hk : k < 5) (hs : S2048x8196.Slices ![0, k] S2048x8192)
    (b : Fin 2048) (q : Fin 8192) : win a0 a2 k hs (ix2 b q) = ext (dRow a0 a2 b) (q.val + k) := by
  unfold win
  refine (extractStridedSlice_apply _ _ _ (ix2 b q) (ix2 b (⟨q.val + k, by omega⟩ : Fin 8196)) fun a => ?_).trans
    (padded_apply a0 a2 b _)
  match a with
  | ⟨0, _⟩ => show b.val = 0 + b.val; omega
  | ⟨1, _⟩ => show q.val + k = k + q.val; omega

/-- The filtered array at row `b`, column `q` is the zero-padded filter of the row of differences at `q`, associated
    as the operations associate it. -/
theorem filt_apply (a0 a2 : FVec Ideal S2048x8192 .f32) (b : Fin 2048) (q : Fin 8192) :
    filt a0 a2 (ix2 b q) = truev wa wb we (dRow a0 a2 b) q := by
  show (((wgt 0 _ (ix2 b q) * win a0 a2 0 _ (ix2 b q) + wgt 1 _ (ix2 b q) * win a0 a2 1 _ (ix2 b q))
      + wgt 2 _ (ix2 b q) * win a0 a2 2 _ (ix2 b q)) + wgt 3 _ (ix2 b q) * win a0 a2 3 _ (ix2 b q))
      + wgt 4 _ (ix2 b q) * win a0 a2 4 _ (ix2 b q) = _
  rw [wgt_apply 0 (by omega), wgt_apply 1 (by omega), wgt_apply 2 (by omega), wgt_apply 3 (by omega), wgt_apply 4 (by omega),
    tbl_0, tbl_1, tbl_2, tbl_3, tbl_4,
    win_apply a0 a2 0 (by omega), win_apply a0 a2 1 (by omega), win_apply a0 a2 2 (by omega), win_apply a0 a2 3 (by omega),
    win_apply a0 a2 4 (by omega)]
  rfl

/-- THE READING: the reference's result at its one index is `refForm`. -/
theorem ref_read (a0 a2 : FVec Ideal S2048x8192 .f32) (a1 a3 : FVec Ideal S2048x3 .f32) :
    RefRun.refVal (F := Ideal) a0 a1 a2 a3 ValueIdx.ix0 = Cert.SpecE.refForm a0 a2 a1 a3 := by
  rw [refVal_eq]
  show Host.reduceAdd (mulf (filt a0 a2) (filt a0 a2)) (constant S_ .f32 0x00000000#32 : FVec Ideal S_ .f32) _ _ ix0 * w8
      + Host.reduceAdd (mulf (subf a1 a3) (subf a1 a3)) (constant S_ .f32 0x00000000#32 : FVec Ideal S_ .f32) _ _ ix0 * w2 = _
  rw [hostReduceAdd_apply, hostReduceAdd_apply, Ideal.hostReduceAdd_total _ (fun b => b.elim0),
    Ideal.hostReduceAdd_total _ (fun b => b.elim0), constant_apply, Ideal.ofBits_zero_f32, sum_idx2]
  unfold refForm classE trueSq
  simp only [mulf_apply, subf_apply, filt_apply]

end Cert.ReferenceIdeal.RefRead

end
-- ==== Proof.FrameI.Pieces.lean ====
/-
  What each case of the body leaves, as the body's own arithmetic: the pieces a run's stores wrote, read back, are
  the stored values — the accumulator after step 0 is the update of a zero row, after a later step the update of
  what it held; the output block's buffer after step 0 is zero, after step 7 the masked total of the updated
  accumulator. Generic in the float instance.
-/
import proofs.«412695_j67551245631962_3_alg».proof.Proof.FrameI.Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets of a whole-buffer access are all zero: of a rank-2 buffer, -/
private theorem hz2 : (![0, 0] : Fin 2 → Nat) = fun _ => 0 := funext fun a => by fin_cases a <;> rfl
/-- and of a rank-3 buffer. -/
private theorem hz3 : (![0, 0, 0] : Fin 3 → Nat) = fun _ => 0 := funext fun a => by fin_cases a <;> rfl

/-- Step 0 leaves the accumulator at the update of the zero row by this block. -/
theorem sout0_A_0_eq (c : Dev nD) (i : grid0.Coords) (arg2 : Memref sig .tc .vmem S128x8192 .f32) (harg2 : arg2.IsWhole) (arg3 : Memref sig .tc .vmem S128x8192 .f32) (harg3 : arg3.IsWhole) (arg4 : Memref sig .tc .vmem S1x8x128 .f32) (harg4 : arg4.IsWhole) (arg5 : Memref sig .tc .vmem S1x8192 .f32) (harg5 : arg5.IsWhole) (hc0 : cond0_0 i) (hc1 : ¬cond0_1 i) (x0 x1 : Vec F S128x8192 .f32) :
    sout0_A_0 c i arg2 harg2 arg3 harg3 arg4 harg4 arg5 harg5 hc0 hc1 x0 x1 = k0_pay3 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x8192) hz2, View.readCov_unit_zero (S := S1x8192) _ hz2]
  simp only [View.readAt_eq_ld, harg2.read_unread, harg3.read_unread, View.ld_unit_zero (S := S128x8192) hz2]

/-- Step 0 leaves the output block's buffer at zero. -/
theorem out0_A_2_eq (c : Dev nD) (i : grid0.Coords) (arg2 : Memref sig .tc .vmem S128x8192 .f32) (harg2 : arg2.IsWhole) (arg3 : Memref sig .tc .vmem S128x8192 .f32) (harg3 : arg3.IsWhole) (arg4 : Memref sig .tc .vmem S1x8x128 .f32) (harg4 : arg4.IsWhole) (arg5 : Memref sig .tc .vmem S1x8192 .f32) (harg5 : arg5.IsWhole) (hc0 : cond0_0 i) (hc1 : ¬cond0_1 i) (x0 x1 : Vec F S128x8192 .f32) :
    out0_A_2 c i arg2 harg2 arg3 harg3 arg4 harg4 arg5 harg5 hc0 hc1 x0 x1 = k0_pay2 (F := F) := by
  unfold out0_A_2
  rw [View.read_writes_eq_canon _ _ _ (cover0_A_2 c i arg2 harg2 arg3 harg3 arg4 harg4 arg5 harg5 hc0 hc1 x0 x1)]
  unfold kernelRun0_A
  dsimp only
  sl_unfold_words
  rw [View.canon_unit_zero (S := S1x8x128) hz3]

/-- Steps 1 … 6 leave the accumulator at the update of what it held. -/
theorem sout0_B_0_eq (c : Dev nD) (i : grid0.Coords) (arg2 : Memref sig .tc .vmem S128x8192 .f32) (harg2 : arg2.IsWhole) (arg3 : Memref sig .tc .vmem S128x8192 .f32) (harg3 : arg3.IsWhole) (arg4 : Memref sig .tc .vmem S1x8x128 .f32) (harg4 : arg4.IsWhole) (arg5 : Memref sig .tc .vmem S1x8192 .f32) (harg5 : arg5.IsWhole) (hc0 : ¬cond0_0 i) (hc1 : ¬cond0_1 i) (x0 x1 : Vec F S128x8192 .f32) (xs0 : Vec F S1x8192 .f32) :
    sout0_B_0 c i arg2 harg2 arg3 harg3 arg4 harg4 arg5 harg5 hc0 hc1 x0 x1 xs0 = k0_pay3 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S1x8192) hz2]
  simp only [View.readAt_eq_ld, harg2.read_unread, harg3.read_unread, harg5.read_unread,
    View.ld_unit_zero (S := S128x8192) hz2, View.ld_unit_zero (S := S1x8192) hz2]

/-- Step 7 leaves the accumulator at the update of what it held, -/
theorem sout0_C_0_eq (c : Dev nD) (i : grid0.Coords) (arg2 : Memref sig .tc .vmem S128x8192 .f32) (harg2 : arg2.IsWhole) (arg3 : Memref sig .tc .vmem S128x8192 .f32) (harg3 : arg3.IsWhole) (arg4 : Memref sig .tc .vmem S1x8x128 .f32) (harg4 : arg4.IsWhole) (arg5 : Memref sig .tc .vmem S1x8192 .f32) (harg5 : arg5.IsWhole) (hc0 : ¬cond0_0 i) (hc1 : cond0_1 i) (x0 x1 : Vec F S128x8192 .f32) (xs0 : Vec F S1x8192 .f32) :
    sout0_C_0 c i arg2 harg2 arg3 harg3 arg4 harg4 arg5 harg5 hc0 hc1 x0 x1 xs0 = k0_pay3 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S1x8192) hz2]
  simp only [View.readAt_eq_ld, harg2.read_unread, harg3.read_unread, harg5.read_unread,
    View.ld_unit_zero (S := S128x8192) hz2, View.ld_unit_zero (S := S1x8192) hz2]

/-- and the output block's buffer at the masked total of that updated accumulator. -/
theorem out0_C_2_eq (c : Dev nD) (i : grid0.Coords) (arg2 : Memref sig .tc .vmem S128x8192 .f32) (harg2 : arg2.IsWhole) (arg3 : Memref sig .tc .vmem S128x8192 .f32) (harg3 : arg3.IsWhole) (arg4 : Memref sig .tc .vmem S1x8x128 .f32) (harg4 : arg4.IsWhole) (arg5 : Memref sig .tc .vmem S1x8192 .f32) (harg5 : arg5.IsWhole) (hc0 : ¬cond0_0 i) (hc1 : cond0_1 i) (x0 x1 : Vec F S128x8192 .f32) (xs0 : Vec F S1x8192 .f32) :
    out0_C_2 c i arg2 harg2 arg3 harg3 arg4 harg4 arg5 harg5 hc0 hc1 x0 x1 xs0 = k0_pay4 (k0_pay3 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S1x8x128) hz3]
  simp only [View.readAt_eq_ld, harg2.read_unread, harg3.read_unread, harg5.read_unread,
    View.ld_unit_zero (S := S128x8192) hz2, View.ld_unit_zero (S := S1x8192) hz2,
    View.readCov_unit_zero (S := S1x8192) _ hz2]

end Cert.KernelIdeal.Fr

end
-- ==== Proof.PayIdx.lean ====
/-
  The kernel body's four stored values read at an index, at the ideal values (every float an extended real, every
  operation exact): the two initial stores are zero everywhere; the accumulator update at column t is the old
  accumulator there plus the sum, over the block's 128 rows, of the square of the wrap-around five-tap filter of the
  row of differences at t; the final store holds the accumulator's total at its first entry and zero elsewhere.
-/
import proofs.«412695_j67551245631962_3_alg».proof.Proof.Gen.KernelIdeal.Skeleton
import proofs.«412695_j67551245631962_3_alg».proof.Proof.Spec
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import Idealize.ShloMosaic.Lib.KernelVsHost

noncomputable section

namespace Cert.KernelIdeal.PayIdx

open Cert.KernelIdeal Cert.KernelIdeal.Gen Cert.Spec Idealize.ShloMosaic ValueIdx
open scoped BigOperators

/-- The centre weight, the extended real the word 0x3F333333 encodes. -/
abbrev wa : EReal := Ideal.ofBits .f32 0x3F333333#32
/-- The weight of the two nearest neighbours, the extended real the word 0x3DCCCCCD encodes. -/
abbrev wb : EReal := Ideal.ofBits .f32 0x3DCCCCCD#32
/-- The weight of the two outer neighbours, the extended real the word 0x3D4CCCCD encodes. -/
abbrev we : EReal := Ideal.ofBits .f32 0x3D4CCCCD#32

/-- The first initial store is the zero row. -/
theorem pay1_apply (y : S1x8192.Idx) : k0_pay1 (F := Ideal) y = 0 := by
  unfold k0_pay1
  rw [shapeCast_self]
  exact Ideal.ofBits_zero_f32

/-- The second initial store is the zero block. -/
theorem pay2_apply (y : S1x8x128.Idx) : k0_pay2 (F := Ideal) y = 0 := by
  unfold k0_pay2 shapeCast
  exact Ideal.ofBits_zero_f32

/-- A rotation of a 128 × 8192 block along its columns, read at (r, t), is row r rotated forward by the amount, at t. -/
theorem rot_apply (sb : BitVec 32) (x : FVec Ideal S128x8192 .f32) (r : Fin 128) (t : Fin 8192) :
    dynamicRotate 1 sb none x rotates_S128x8192_d1 (ix2 r t) = cyc (fun q => x (ix2 r q)) t sb.toNat := by
  rw [dynamicRotate_apply 1 sb x rotates_S128x8192_d1 (ix2 r t)
    (ix2 r ⟨(t.val + 8192 - sb.toNat % 8192) % 8192, Nat.mod_lt _ (by norm_num)⟩) (by
      intro b; fin_cases b <;> simp [ix2])]
  rfl

/-- The index a sum over the rows inserts row k at, above column t, is (k, t). -/
theorem lift_ix (h : Shape.Reduces S128x8192 [0] S8192) (t : Fin 8192) (k : Fin 128) : h.lift (ix1 t) k = ix2 k t := by
  funext a
  match a with
  | ⟨0, _⟩ => exact Fin.ext rfl
  | ⟨1, _⟩ => exact Fin.ext rfl

/-- The sum of a 128 × 8192 block over its rows, read at column t, is the sum over r of the block at (r, t). -/
theorem laneSum_apply (src : FVec Ideal S128x8192 .f32) (h : Shape.Reduces S128x8192 [0] S8192) (hφ : FKind.Formats .f32)
    (hacc : (0x00000000#32 : BitVec 32) = 0x00000000#32) (t : Fin 8192) :
    multiReduction .add [0] S8192 src 0x00000000#32 h hφ hacc (ix1 t) = ∑ r : Fin 128, src (ix2 r t) :=
  (Ideal.multiReduction_add_single src 0x00000000#32 h hφ hacc (ix1 t)).trans
    (Finset.sum_congr rfl fun r _ => congrArg src (lift_ix h t r))

/-- The accumulator update at column t: the old accumulator there plus the sum over the 128 rows of the square of the
    wrap-around five-tap filter of the row of differences, at t. -/
theorem pay3_apply (v3 v4 : Vec Ideal S128x8192 .f32) (v23 : Vec Ideal S1x8192 .f32) (t : Fin 8192) :
    k0_pay3 (F := Ideal) v3 v4 v23 (ix2 0 t) = v23 (ix2 0 t) + ∑ r : Fin 128,
      (wrapv wa wb we (fun q => v3 (ix2 r q) - v4 (ix2 r q)) t * wrapv wa wb we (fun q => v3 (ix2 r q) - v4 (ix2 r q)) t) := by
  unfold k0_pay3
  rw [shapeCast_self, addf_apply]
  rw [shapeCast_apply _ shapeCasts_S8192_S1x8192 (ix2 0 t) (ix1 t) (by rw [Shape.rowMajor_val_one, Shape.rowMajor_val_two]; simp)]
  rw [laneSum_apply]
  refine congrArg (v23 (ix2 0 t) + ·) (Finset.sum_congr rfl fun r _ => ?_)
  simp only [mulf_apply, addf_apply, broadcast_apply]
  rw [rot_apply (1#32) (subf v3 v4) r t, rot_apply (8191#32) (subf v3 v4) r t, rot_apply (2#32) (subf v3 v4) r t,
    rot_apply (8190#32) (subf v3 v4) r t]
  rfl

/-- A sum over the indices of a 1 × 1 × 8192 block is the sum over its 8192 columns. -/
theorem sum_S1x1x8192 (f : S1x1x8192.Idx → EReal) : ∑ i : S1x1x8192.Idx, f i = ∑ q : Fin 8192, f (ix3 0 0 q) := by
  let e : Fin 8192 ≃ S1x1x8192.Idx :=
    { toFun := fun q => ix3 0 0 q
      invFun := fun i => i 2
      left_inv := fun q => rfl
      right_inv := fun i => by
        funext a
        match a with
        | ⟨0, _⟩ => exact Fin.ext (by have h : (i 0).val < 1 := (i 0).isLt; show 0 = (i 0).val; omega)
        | ⟨1, _⟩ => exact Fin.ext (by have h : (i 1).val < 1 := (i 1).isLt; show 0 = (i 1).val; omega)
        | ⟨2, _⟩ => rfl }
  exact (Equiv.sum_comp e f).symm

/-- The word "n = 0", for a natural below 2 ^ 32: the bit 1 when n is 0 and the bit 0 otherwise. -/
theorem cmpi_eq_zero (n : ℕ) (hn : n < 2 ^ 32) :
    IntOp.cmpi .eq (BitVec.ofNat 32 n) 0#32 = if n = 0 then 1#1 else 0#1 := by
  by_cases h : n = 0
  · subst h; rfl
  · rw [if_neg h]
    have hne : (BitVec.ofNat 32 n == 0#32) = false := by
      rw [beq_eq_false_iff_ne]
      intro hc
      have h2 := congrArg BitVec.toNat hc
      rw [BitVec.toNat_ofNat, Nat.mod_eq_of_lt hn] at h2
      exact h h2
    show BitVec.ofBool (BitVec.ofNat 32 n == 0#32) = 0#1
    rw [hne]; rfl

/-- The mask "row 0 and lane 0" of an 8 × 128 tile, read at (r, l). -/
theorem mask_apply (r : Fin 8) (l : Fin 128) :
    andi (cmpi .eq (iota .tc S8x128 32 [0] iota_S8x128_d0_w32) (broadcast S8x128 0#32))
      (cmpi .eq (iota .tc S8x128 32 [1] iota_S8x128_d1_w32) (broadcast S8x128 0#32)) (ix2 r l)
      = if r.val = 0 ∧ l.val = 0 then 1#1 else 0#1 := by
  show IntOp.andi (IntOp.cmpi .eq (iota .tc S8x128 32 [0] iota_S8x128_d0_w32 (ix2 r l)) 0#32)
    (IntOp.cmpi .eq (iota .tc S8x128 32 [1] iota_S8x128_d1_w32 (ix2 r l)) 0#32) = _
  rw [iota_single_apply, iota_single_apply]
  show IntOp.andi (IntOp.cmpi .eq (BitVec.ofNat 32 r.val) 0#32) (IntOp.cmpi .eq (BitVec.ofNat 32 l.val) 0#32) = _
  rw [cmpi_eq_zero _ (by have := r.isLt; omega), cmpi_eq_zero _ (by have := l.isLt; omega)]
  by_cases hr : r.val = 0 <;> by_cases hl : l.val = 0 <;> simp [hr, hl, IntOp.andi]

/-- The total of a row of 8192, taken through the view as a 1 × 1 × 8192 block and the sum over its last two axes. -/
theorem total_apply (v31 : FVec Ideal S1x8192 .f32) (h : Shape.Reduces S1x1x8192 [1, 2] S1) (hφ : FKind.Formats .f32)
    (hacc : (0x00000000#32 : BitVec 32) = 0x00000000#32) (j : S1.Idx) :
    multiReduction .add [1, 2] S1 (shapeCast S1x1x8192 v31 shapeCasts_S1x8192_S1x1x8192) 0x00000000#32 h hφ hacc j
      = ∑ q : Fin 8192, v31 (ix2 0 q) := by
  refine (Ideal.multiReduction_add_total _ 0x00000000#32 h (fun b => ?_) hφ hacc j).trans ?_
  · match b with
    | ⟨0, _⟩ => rfl
  · rw [sum_S1x1x8192]
    refine Finset.sum_congr rfl fun q _ => ?_
    exact shapeCast_apply v31 shapeCasts_S1x8192_S1x1x8192 (ix3 0 0 q) (ix2 0 q) (by
      rw [Shape.rowMajor_val_two, Shape.rowMajor_val_three]; simp)

/-- The same total, read through the view of the one-entry result as a 1 × 1 × 1 block, at any index. -/
theorem total_cast_apply (v31 : FVec Ideal S1x8192 .f32) (h : Shape.Reduces S1x1x8192 [1, 2] S1) (hφ : FKind.Formats .f32)
    (hacc : (0x00000000#32 : BitVec 32) = 0x00000000#32) (j : S1x1x1.Idx) :
    shapeCast S1x1x1 (multiReduction .add [1, 2] S1 (shapeCast S1x1x8192 v31 shapeCasts_S1x8192_S1x1x8192) 0x00000000#32 h hφ hacc)
      shapeCasts_S1_S1x1x1 j = ∑ q : Fin 8192, v31 (ix2 0 q) :=
  total_apply v31 h hφ hacc (Shape.reshapeEquiv shapeCasts_S1_S1x1x1 j)

/-- A value spread over an 8 × 128 tile from the one entry of a 1 × 1 block, itself spread from entry (0, 0, 0) of a
    1 × 1 × 1 block, reads that entry everywhere. -/
theorem spread_apply (W : FVec Ideal S1x1x1 .f32) (p3 : ∀ a, (![0, 0, 0] : Fin S1x1x1.rank → ℕ) a < S1x1x1.size a)
    (p2 : ∀ a, (![0, 0] : Fin S1x1.rank → ℕ) a < S1x1.size a) (i : S8x128.Idx) :
    broadcast S8x128 (extractAt ![0, 0] (broadcast S1x1 (extractAt ![0, 0, 0] W p3)) p2) i
      = W (fun a => ⟨![0, 0, 0] a, p3 a⟩) := rfl

/-- The final store: the accumulator's total at entry (0, 0, 0) of the 1 × 8 × 128 block, zero elsewhere. -/
theorem pay4_apply (v31 : Vec Ideal S1x8192 .f32) (r : Fin 8) (l : Fin 128) :
    k0_pay4 (F := Ideal) v31 (ix3 0 r l) = if r.val = 0 ∧ l.val = 0 then ∑ q : Fin 8192, v31 (ix2 0 q) else 0 := by
  unfold k0_pay4
  rw [shapeCast_apply _ shapeCasts_S8x128_S1x8x128 (ix3 0 r l) (ix2 r l) (by
    rw [Shape.rowMajor_val_two, Shape.rowMajor_val_three]; simp)]
  rw [select_apply, mask_apply]
  rw [spread_apply, broadcast_apply, total_cast_apply]
  by_cases hc : r.val = 0 ∧ l.val = 0
  · rw [if_pos hc, if_pos hc, select_one]
  · rw [if_neg hc, if_neg hc, select_zero]
    exact Ideal.ofBits_zero_f32

end Cert.KernelIdeal.PayIdx

end
-- ==== Proof.AccRow.lean ====
/-
  The accumulation, at the extended reals. Point t of the grid is core t / 8 at step t % 8 and reads rows
  128·t … 128·t + 127 of target and prediction (all columns). After point t the accumulator row holds, at column q,
  the sum over the blocks 8·(t / 8) … t of this core so far, and over each block's 128 rows, of the squared
  wrap-around filter of the row's differences at q; at step 7 the body stores that row's total into entry (0, 0)
  of the output block and zero elsewhere.
-/
import proofs.«412695_j67551245631962_3_alg».proof.Proof.FrameI.Pieces
import proofs.«412695_j67551245631962_3_alg».proof.Proof.PayIdx
import proofs.«412695_j67551245631962_3_alg».proof.Proof.SpecE
import Idealize.ShloMosaic.Lib.ValueIdx
import Idealize.ShloMosaic.Lib.Pipeline.Value

set_option maxRecDepth 16384

noncomputable section

namespace Cert.KernelIdeal.Acc

open Cert.KernelIdeal Cert.KernelIdeal.Gen Cert.Spec Cert.SpecE
open Idealize.ShloMosaic Idealize.ShloMosaic.TcCoe Idealize.SL.Sem ValueIdx

variable (m : (ℓ : Loc nD τ sig) → Buf (Elt Ideal) ℓ)

/-- Target and prediction as the region finds them on core `c`. -/
abbrev A0 (c : Dev nD) : SA.Idx → EReal := Fr.V m c main_arg0
abbrev A2 (c : Dev nD) : SA.Idx → EReal := Fr.V m c main_arg2

/-- The squared wrap-around filter of row number `b` (zero past the last row). -/
def wrapSqN (a0 a2 : SA.Idx → EReal) (b : ℕ) (q : Fin 8192) : EReal :=
  if h : b < 2048 then wrapSq a0 a2 ⟨b, h⟩ q else 0

/-- The accumulator row after point `t`: this core's blocks up to the step of `t`, each block's 128 rows. -/
def accRow (a0 a2 : SA.Idx → EReal) (t : ℕ) (q : Fin 8192) : EReal :=
  ∑ j ∈ Finset.range (t % 8 + 1), ∑ r : Fin 128, wrapSqN a0 a2 (128 * (t - t % 8 + j) + r.val) q

/-- The block of the target that position `n` reads, and the block of the prediction. -/
abbrev blk0 (c : Dev nD) (n : ℕ) (hn : n < cfg0.N) : Vec Ideal S128x8192 .f32 := Fr.iblk m c 0 ⟨n, hn⟩
abbrev blk1 (c : Dev nD) (n : ℕ) (hn : n < cfg0.N) : Vec Ideal S128x8192 .f32 := Fr.iblk m c 1 ⟨n, hn⟩

/-- Position `t` reads block row `t` (and the one block column) of the target, -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- and of the prediction. -/
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Entry (r, q) of the target's block at position `n` is the target at row 128·n + r, column q. -/
theorem blk0_apply (c : Dev nD) (n : ℕ) (hn : n < cfg0.N) (r : Fin 128) (q : Fin 8192) (h : 128 * n + r.val < 2048) :
    blk0 m c n hn (ix2 r q) = A0 m c (ix2 ⟨128 * n + r.val, h⟩ q) := by
  have hi : win0_0.index ⟨n, hn⟩ (0 : Fin 2) = n ∧ win0_0.index ⟨n, hn⟩ (1 : Fin 2) = 0 := idx0 ⟨n, hn⟩
  unfold blk0 Fr.iblk
  rw [View.read_apply]
  show Fr.V m c main_arg0 _ = Fr.V m c main_arg0 _
  congr 1
  funext a
  apply Fin.ext
  match a with
  | ⟨0, _⟩ => show win0_0.index ⟨n, hn⟩ 0 * 128 + 1 * r.val = 128 * n + r.val; rw [hi.1]; omega
  | ⟨1, _⟩ => show win0_0.index ⟨n, hn⟩ 1 * 8192 + 1 * q.val = q.val; rw [hi.2]; omega

/-- The same for the prediction. -/
theorem blk1_apply (c : Dev nD) (n : ℕ) (hn : n < cfg0.N) (r : Fin 128) (q : Fin 8192) (h : 128 * n + r.val < 2048) :
    blk1 m c n hn (ix2 r q) = A2 m c (ix2 ⟨128 * n + r.val, h⟩ q) := by
  have hi : win0_1.index ⟨n, hn⟩ (0 : Fin 2) = n ∧ win0_1.index ⟨n, hn⟩ (1 : Fin 2) = 0 := idx1 ⟨n, hn⟩
  unfold blk1 Fr.iblk
  rw [View.read_apply]
  show Fr.V m c main_arg2 _ = Fr.V m c main_arg2 _
  congr 1
  funext a
  apply Fin.ext
  match a with
  | ⟨0, _⟩ => show win0_1.index ⟨n, hn⟩ 0 * 128 + 1 * r.val = 128 * n + r.val; rw [hi.1]; omega
  | ⟨1, _⟩ => show win0_1.index ⟨n, hn⟩ 1 * 8192 + 1 * q.val = q.val; rw [hi.2]; omega

/-- What position `n` adds at column q: over its block's 128 rows, the squared filter of rows 128·n … 128·n + 127. -/
theorem step_sum (c : Dev nD) (n : ℕ) (hn : n < cfg0.N) (q : Fin 8192) :
    (∑ r : Fin 128, (wrapv PayIdx.wa PayIdx.wb PayIdx.we (fun q' => blk0 m c n hn (ix2 r q') - blk1 m c n hn (ix2 r q')) q
        * wrapv PayIdx.wa PayIdx.wb PayIdx.we (fun q' => blk0 m c n hn (ix2 r q') - blk1 m c n hn (ix2 r q')) q))
      = ∑ r : Fin 128, wrapSqN (A0 m c) (A2 m c) (128 * n + r.val) q := by
  have hN : n < 16 := lt_of_lt_of_eq hn N_0
  refine Finset.sum_congr rfl fun r _ => ?_
  have h : 128 * n + r.val < 2048 := by have := r.isLt; omega
  have e : (fun q' => blk0 m c n hn (ix2 r q') - blk1 m c n hn (ix2 r q')) = dRow (A0 m c) (A2 m c) ⟨128 * n + r.val, h⟩ :=
    funext fun q' => by rw [blk0_apply m c n hn r q' h, blk1_apply m c n hn r q' h]; rfl
  rw [e]
  unfold wrapSqN
  rw [dif_pos h]
  rfl

/-- At a core's first step the accumulated row is the one block's. -/
theorem accRow_first (a0 a2 : SA.Idx → EReal) (n : ℕ) (h0 : n % 8 = 0) (q : Fin 8192) :
    accRow a0 a2 n q = ∑ r : Fin 128, wrapSqN a0 a2 (128 * n + r.val) q := by
  unfold accRow
  rw [h0, Finset.sum_range_one]
  rfl

/-- At a later step it is the row of the step before plus this block's. -/
theorem accRow_next (a0 a2 : SA.Idx → EReal) (n : ℕ) (h0 : ¬n % 8 = 0) (q : Fin 8192) :
    accRow a0 a2 n q = accRow a0 a2 (n - 1) q + ∑ r : Fin 128, wrapSqN a0 a2 (128 * n + r.val) q := by
  unfold accRow
  obtain ⟨k, hk⟩ : ∃ k, n % 8 = k + 1 := ⟨n % 8 - 1, by omega⟩
  have e1 : (n - 1) % 8 = k := by omega
  have e2 : n - 1 - k = n - (k + 1) := by omega
  have e3 : n - (k + 1) + (k + 1) = n := by omega
  rw [hk, e1, Finset.sum_range_succ, e2, e3]

/-- The accumulator after position `n`. -/
theorem acc_nat (c : Dev nD) (q : Fin 8192) (n : ℕ) : ∀ hn : n < cfg0.N,
    (Fr.outsAt0 (F := Ideal) m c n hn).2 (ix2 (0 : Fin 1) q) = accRow (A0 m c) (A2 m c) n q := by
  induction n using Nat.strong_induction_on with
  | _ n ih =>
    intro hn
    by_cases h0 : n % 8 = 0
    · have h1 : ¬n % 8 = 7 := by omega
      rw [Fr.outsAt0_A m c ⟨n, hn⟩ h0 h1]
      dsimp only
      refine (congrFun (Fr.sout0_A_0_eq (F := Ideal) c (grid0.coords ⟨n, hn⟩) (Fr.ms0_0 ⟨n, hn⟩) (Fr.hs0_0 ⟨n, hn⟩) (Fr.ms0_1 ⟨n, hn⟩) (Fr.hs0_1 ⟨n, hn⟩) (Fr.ms0_2 ⟨n, hn⟩) (Fr.hs0_2 ⟨n, hn⟩) Fr.scM0_0 (Memref.isWhole_whole _) ((Fr.hcond0_0 ⟨n, hn⟩).mpr h0) (fun h => h1 ((Fr.hcond0_1 ⟨n, hn⟩).mp h)) (blk0 m c n hn) (blk1 m c n hn)) (ix2 (0 : Fin 1) q)).trans ?_
      refine (PayIdx.pay3_apply (blk0 m c n hn) (blk1 m c n hn) (k0_pay1 (F := Ideal)) q).trans ?_
      rw [PayIdx.pay1_apply, zero_add, step_sum m c n hn q, accRow_first _ _ n h0 q]
    · by_cases h1 : n % 8 = 7
      · rw [Fr.outsAt0_C m c ⟨n, hn⟩ h0 h1]
        dsimp only
        refine (congrFun (Fr.sout0_C_0_eq (F := Ideal) c (grid0.coords ⟨n, hn⟩) (Fr.ms0_0 ⟨n, hn⟩) (Fr.hs0_0 ⟨n, hn⟩) (Fr.ms0_1 ⟨n, hn⟩) (Fr.hs0_1 ⟨n, hn⟩) (Fr.ms0_2 ⟨n, hn⟩) (Fr.hs0_2 ⟨n, hn⟩) Fr.scM0_0 (Memref.isWhole_whole _) (fun h => h0 ((Fr.hcond0_0 ⟨n, hn⟩).mp h)) ((Fr.hcond0_1 ⟨n, hn⟩).mpr h1) (blk0 m c n hn) (blk1 m c n hn) (Fr.outsAt0 (F := Ideal) m c (n - 1) (Nat.lt_of_le_of_lt (Nat.sub_le _ _) hn)).2) (ix2 (0 : Fin 1) q)).trans ?_
        refine (PayIdx.pay3_apply (blk0 m c n hn) (blk1 m c n hn) (Fr.outsAt0 (F := Ideal) m c (n - 1) (Nat.lt_of_le_of_lt (Nat.sub_le _ _) hn)).2 q).trans ?_
        rw [ih (n - 1) (by omega) (Nat.lt_of_le_of_lt (Nat.sub_le _ _) hn), step_sum m c n hn q, accRow_next _ _ n h0 q]
      · rw [Fr.outsAt0_B m c ⟨n, hn⟩ h0 h1]
        dsimp only
        refine (congrFun (Fr.sout0_B_0_eq (F := Ideal) c (grid0.coords ⟨n, hn⟩) (Fr.ms0_0 ⟨n, hn⟩) (Fr.hs0_0 ⟨n, hn⟩) (Fr.ms0_1 ⟨n, hn⟩) (Fr.hs0_1 ⟨n, hn⟩) (Fr.ms0_2 ⟨n, hn⟩) (Fr.hs0_2 ⟨n, hn⟩) Fr.scM0_0 (Memref.isWhole_whole _) (fun h => h0 ((Fr.hcond0_0 ⟨n, hn⟩).mp h)) (fun h => h1 ((Fr.hcond0_1 ⟨n, hn⟩).mp h)) (blk0 m c n hn) (blk1 m c n hn) (Fr.outsAt0 (F := Ideal) m c (n - 1) (Nat.lt_of_le_of_lt (Nat.sub_le _ _) hn)).2) (ix2 (0 : Fin 1) q)).trans ?_
        refine (PayIdx.pay3_apply (blk0 m c n hn) (blk1 m c n hn) (Fr.outsAt0 (F := Ideal) m c (n - 1) (Nat.lt_of_le_of_lt (Nat.sub_le _ _) hn)).2 q).trans ?_
        rw [ih (n - 1) (by omega) (Nat.lt_of_le_of_lt (Nat.sub_le _ _) hn), step_sum m c n hn q, accRow_next _ _ n h0 q]

/-- After point `t` the accumulator holds `accRow`. -/
theorem acc_at (c : Dev nD) (t : Fin cfg0.N) (q : Fin 8192) :
    (Fr.outsAt0 (F := Ideal) m c t.val t.isLt).2 (ix2 (0 : Fin 1) q) = accRow (A0 m c) (A2 m c) t.val q :=
  acc_nat m c q t.val t.isLt

/-- At step 7 the output block's buffer holds the accumulator's total at entry (0, 0) and zero elsewhere. -/
theorem out_at_last (c : Dev nD) (t : Fin cfg0.N) (h7 : t.val % 8 = 7) (r : Fin 8) (l : Fin 128) :
    (Fr.outsAt0 (F := Ideal) m c t.val t.isLt).1 (ix3 (0 : Fin 1) r l)
      = if r.val = 0 ∧ l.val = 0 then ∑ q : Fin 8192, accRow (A0 m c) (A2 m c) t.val q else 0 := by
  obtain ⟨n, hn⟩ := t
  have h7' : n % 8 = 7 := h7
  have h0 : ¬n % 8 = 0 := by omega
  have hrow : ∀ q : Fin 8192,
      k0_pay3 (F := Ideal) (blk0 m c n hn) (blk1 m c n hn) (Fr.outsAt0 (F := Ideal) m c (n - 1) (Nat.lt_of_le_of_lt (Nat.sub_le _ _) hn)).2 (ix2 (0 : Fin 1) q)
        = accRow (A0 m c) (A2 m c) n q := fun q => by
    rw [← acc_nat m c q n hn, Fr.outsAt0_C m c ⟨n, hn⟩ h0 h7']
    dsimp only
    exact (congrFun (Fr.sout0_C_0_eq (F := Ideal) c (grid0.coords ⟨n, hn⟩) (Fr.ms0_0 ⟨n, hn⟩) (Fr.hs0_0 ⟨n, hn⟩) (Fr.ms0_1 ⟨n, hn⟩) (Fr.hs0_1 ⟨n, hn⟩) (Fr.ms0_2 ⟨n, hn⟩) (Fr.hs0_2 ⟨n, hn⟩) Fr.scM0_0 (Memref.isWhole_whole _) (fun h => h0 ((Fr.hcond0_0 ⟨n, hn⟩).mp h)) ((Fr.hcond0_1 ⟨n, hn⟩).mpr h7') (blk0 m c n hn) (blk1 m c n hn) (Fr.outsAt0 (F := Ideal) m c (n - 1) (Nat.lt_of_le_of_lt (Nat.sub_le _ _) hn)).2) (ix2 (0 : Fin 1) q)).symm
  show (Fr.outsAt0 (F := Ideal) m c n hn).1 (ix3 (0 : Fin 1) r l) = if r.val = 0 ∧ l.val = 0 then ∑ q : Fin 8192, accRow (A0 m c) (A2 m c) n q else 0
  rw [Fr.outsAt0_C m c ⟨n, hn⟩ h0 h7']
  dsimp only
  refine (congrFun (Fr.out0_C_2_eq (F := Ideal) c (grid0.coords ⟨n, hn⟩) (Fr.ms0_0 ⟨n, hn⟩) (Fr.hs0_0 ⟨n, hn⟩) (Fr.ms0_1 ⟨n, hn⟩) (Fr.hs0_1 ⟨n, hn⟩) (Fr.ms0_2 ⟨n, hn⟩) (Fr.hs0_2 ⟨n, hn⟩) Fr.scM0_0 (Memref.isWhole_whole _) (fun h => h0 ((Fr.hcond0_0 ⟨n, hn⟩).mp h)) ((Fr.hcond0_1 ⟨n, hn⟩).mpr h7') (blk0 m c n hn) (blk1 m c n hn) (Fr.outsAt0 (F := Ideal) m c (n - 1) (Nat.lt_of_le_of_lt (Nat.sub_le _ _) hn)).2) (ix3 (0 : Fin 1) r l)).trans ?_
  refine (PayIdx.pay4_apply (k0_pay3 (F := Ideal) (blk0 m c n hn) (blk1 m c n hn) (Fr.outsAt0 (F := Ideal) m c (n - 1) (Nat.lt_of_le_of_lt (Nat.sub_le _ _) hn)).2) r l).trans ?_
  rw [Finset.sum_congr rfl fun q _ => hrow q]

end Cert.KernelIdeal.Acc

end
-- ==== Proof.OutFinal.lean ====
/-
  The pallas_call's result after the run. The output window's block k (of two) is written back once, after step 7 of
  core k, holding the accumulator's total at entry (0, 0); the two blocks tile the f32[2, 8, 128] array. So after the
  run the array holds at (k, 0, 0) the sum, over core k's 1024 rows and all 8192 columns, of the squared wrap-around
  filter of the row's differences.
-/
import proofs.«412695_j67551245631962_3_alg».proof.Proof.AccRow
import Mathlib.Algebra.BigOperators.Group.Finset.Defs
import Mathlib.Algebra.BigOperators.Group.Finset.Sigma
import Mathlib.Data.Fintype.BigOperators
import Mathlib.Logic.Equiv.Fin.Basic

set_option maxRecDepth 16384

noncomputable section

namespace Cert.KernelIdeal.Acc

open Cert.KernelIdeal Cert.KernelIdeal.Gen Cert.Spec Cert.SpecE
open Idealize.ShloMosaic Idealize.ShloMosaic.TcCoe Idealize.SL.Sem ValueIdx

variable (m : (ℓ : Loc nD τ sig) → Buf (Elt Ideal) ℓ)

/-! ## The sum over a core's eight blocks of 128 rows is the sum over its 1024 rows -/

/-- Eight consecutive runs of 128 terms are the first 1024 terms. -/
theorem sum_blocks {M : Type} [AddCommMonoid M] (g : ℕ → M) :
    ∑ j ∈ Finset.range 8, ∑ r : Fin 128, g (128 * j + r.val) = ∑ b : Fin 1024, g b.val := by
  rw [← Fin.sum_univ_eq_sum_range (fun j => ∑ r : Fin 128, g (128 * j + r.val)) 8]
  rw [← Fintype.sum_prod_type' (fun (j : Fin 8) (r : Fin 128) => g (128 * j.val + r.val))]
  exact Fintype.sum_equiv (finProdFinEquiv : Fin 8 × Fin 128 ≃ Fin 1024) _ _ fun p =>
    congrArg g (Nat.add_comm (128 * p.1.val) p.2.val)

/-- After a core's last step the accumulator's column q holds the sum over the core's 1024 rows of the squared
    wrap-around filter at q. -/
theorem accRow_last (a0 a2 : SA.Idx → EReal) (k : Fin 2) (q : Fin 8192) :
    accRow a0 a2 (8 * k.val + 7) q = ∑ b' : Fin 1024, wrapSq a0 a2 ⟨1024 * k.val + b'.val, by omega⟩ q := by
  have hk : k.val < 2 := k.isLt
  unfold accRow
  rw [show (8 * k.val + 7) % 8 = 7 from by omega]
  refine Eq.trans (Finset.sum_congr rfl fun j _ => Finset.sum_congr rfl fun r _ =>
    congrArg (fun n => wrapSqN a0 a2 n q)
      (show 128 * (8 * k.val + 7 - 7 + j) + r.val = 1024 * k.val + (128 * j + r.val) from by omega)) ?_
  rw [sum_blocks (fun n => wrapSqN a0 a2 (1024 * k.val + n) q)]
  refine Finset.sum_congr rfl fun b' _ => ?_
  have hb : b'.val < 1024 := b'.isLt
  exact dif_pos (show 1024 * k.val + b'.val < 2048 from by omega)

/-! ## The array after the run -/

/-- What the f32[2, 8, 128] array holds after the run: at (k, 0, 0) the accumulator's total after core k's last step,
    zero elsewhere. -/
def Gout (a0 a2 : SA.Idx → EReal) : S2x8x128.Idx → EReal := fun i =>
  if (i 1).val = 0 ∧ (i 2).val = 0 then ∑ q : Fin 8192, accRow a0 a2 (8 * (i 0).val + 7) q else 0

/-- The output window's index map, decided over the grid: point t writes block (t / 8, 0, 0). -/
theorem idx_facts : ∀ t : Fin cfg0.N, win0_2.index t (0 : Fin 3) = t.val / 8 ∧ win0_2.index t (1 : Fin 3) = 0
    ∧ win0_2.index t (2 : Fin 3) = 0 :=
  (by decide +kernel : ∀ t : Fin grid0.N, win0_2.index t (0 : Fin 3) = t.val / 8 ∧ win0_2.index t (1 : Fin 3) = 0
    ∧ win0_2.index t (2 : Fin 3) = 0)

/-- What a point of step 7 writes back is its block of `Gout`. -/
theorem flushed_eq (c : Dev nD) (t : Fin cfg0.N) (h7 : t.val % 8 = 7) :
    (Fr.dats (F := Ideal) m 0 c).flushed 2 t = ((cfg0.win 2).blk t).view.read (Elt Ideal) (Gout (A0 m c) (A2 m c)) := by
  show (cfg0.win 2).cut (grid0.coords t) ((Fr.dats (F := Ideal) m 0 c).after 2 t) = _
  rw [Fr.after0_2]
  funext y
  obtain ⟨e0, e1, e2⟩ := idx_facts t
  have hy0 : (y 0).val < 1 := (y 0).isLt
  have hy1 : (y 1).val < 8 := (y 1).isLt
  have hy2 : (y 2).val < 128 := (y 2).isLt
  have hx : (cfg0.win 2).xinj (grid0.coords t) y
      = ix3 (0 : Fin 1) (⟨(y 1).val, hy1⟩ : Fin 8) (⟨(y 2).val, hy2⟩ : Fin 128) := by
    funext a; apply Fin.ext
    match a with
    | ⟨0, _⟩ => show (y 0).val = 0; omega
    | ⟨1, _⟩ => rfl
    | ⟨2, _⟩ => rfl
  show (Fr.outsAt0 (F := Ideal) m c t.val t.isLt).1 ((cfg0.win 2).xinj (grid0.coords t) y) = _
  rw [hx, out_at_last m c t h7]
  show _ = Gout (A0 m c) (A2 m c) (((cfg0.win 2).blk t).view.emb y)
  unfold Gout
  have h0 : ((((cfg0.win 2).blk t).view.emb y) 0).val = t.val / 8 := by
    show win0_2.index t (0 : Fin 3) * 1 + 1 * (y 0).val = _; omega
  have h1 : ((((cfg0.win 2).blk t).view.emb y) 1).val = (y 1).val := by
    show win0_2.index t (1 : Fin 3) * 8 + 1 * (y 1).val = _; omega
  have h2 : ((((cfg0.win 2).blk t).view.emb y) 2).val = (y 2).val := by
    show win0_2.index t (2 : Fin 3) * 128 + 1 * (y 2).val = _; omega
  rw [h0, h1, h2, show 8 * (t.val / 8) + 7 = t.val from by omega]

/-- An index of the array is in point t's block iff each coordinate is in the block's range on its axis. -/
theorem mem_blk (t : Fin cfg0.N) (i : S2x8x128.Idx) :
    i ∈ ((cfg0.win 2).blk t).view.set ↔ ∀ a : Fin 3, win0_2.index t a * S1x8x128.size a ≤ (i a).val
      ∧ (i a).val < win0_2.index t a * S1x8x128.size a + S1x8x128.size a := by
  show i ∈ ((View.whole main_v0).slice (win0_2.rect t)).set ↔ _
  rw [View.set_slice_whole, Rect.mem_set_unit]
  exact Iff.rfl

/-- Every index (k, r, l) of the array is in the block written back after core k's last step. -/
theorem cover (i : S2x8x128.Idx) :
    ∃ t : Fin cfg0.N, (cfg0.win 2).flush t = true ∧ i ∈ ((cfg0.win 2).blk t).view.set := by
  have hi0 : (i 0).val < 2 := (i 0).isLt
  have hi1 : (i 1).val < 8 := (i 1).isLt
  have hi2 : (i 2).val < 128 := (i 2).isLt
  have hN : cfg0.N = 16 := N_0
  have ht : ∃ t : Fin cfg0.N, t.val = 8 * (i 0).val + 7 := ⟨⟨8 * (i 0).val + 7, by rw [hN]; omega⟩, rfl⟩
  obtain ⟨t, ht⟩ := ht
  obtain ⟨e0, e1, e2⟩ := idx_facts t
  refine ⟨t, (flush0_2 t).mpr (by omega), ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 8 ≤ (i 1).val ∧ (i 1).val < win0_2.index t (1 : Fin 3) * 8 + 8
    omega
  | ⟨2, _⟩ =>
    show win0_2.index t (2 : Fin 3) * 128 ≤ (i 2).val ∧ (i 2).val < win0_2.index t (2 : Fin 3) * 128 + 128
    omega

/-- The array after the run is `Gout`. -/
theorem final (c : Dev nD) : (Fr.dats (F := Ideal) m 0 c).arrAt 2 cfg0.N = Gout (A0 m c) (A2 m c) :=
  (Fr.dats (F := Ideal) m 0 c).arrAt_eq_of_cover 2 (Gout (A0 m c) (A2 m c))
    (fun t hf => flushed_eq m c t ((flush0_2 t).mp hf)) cover

theorem out_final (c : Dev nD) (k : Fin 2) :
    ((Fr.dats (F := Ideal) m 0 c).arrAt 2 cfg0.N : S2x8x128.Idx → EReal) (ix3 k (0 : Fin 8) (0 : Fin 128))
      = ∑ b' : Fin 1024, ∑ q : Fin 8192, wrapSq (A0 m c) (A2 m c) ⟨1024 * k.val + b'.val, by omega⟩ q := by
  refine (congrFun (final m c) (ix3 k (0 : Fin 8) (0 : Fin 128))).trans ?_
  unfold Gout
  rw [if_pos ⟨rfl, rfl⟩]
  show ∑ q : Fin 8192, accRow (A0 m c) (A2 m c) (8 * k.val + 7) q = _
  rw [Finset.sum_comm]
  exact Finset.sum_congr rfl fun q _ => accRow_last (A0 m c) (A2 m c) k q

end Cert.KernelIdeal.Acc

end
-- ==== Proof.RowAlgebra.lean ====
/-
  The row identity. On one row d of 8192 entries, the zero-padded five-tap filter and the wrap-around five-tap
  filter agree at every column t with 2 ≤ t ≤ 8189: there no tap leaves the row, so both are
  e·d(t−2) + b·d(t−1) + a·d(t) + b·d(t+1) + e·d(t+2) up to the order of the additions. They differ only at the
  columns 0, 1, 8190, 8191, and the edge correction is, column by column, the square of the zero-padded entry minus
  the square of the wrapped entry there. Hence
      Σ_t true(t)² = Σ_t wrap(t)² + corr
  over the reals. Real coercion into the extended reals commutes with +, ·, − and finite sums, so the same identity
  holds for a real row read in the extended reals.
-/
import proofs.«412695_j67551245631962_3_alg».proof.Proof.Spec
import Mathlib.Data.Real.Basic
import Mathlib.Data.EReal.Operations
import Mathlib.Data.Fintype.Basic
import Mathlib.Algebra.BigOperators.Group.Finset.Basic
import Mathlib.Tactic.Ring
import Mathlib.Tactic.Linarith

namespace Cert.RowAlgebra

open Cert.Spec

section Index

variable {R : Type} [Add R] [Mul R] [Sub R] [Zero R]

/-- The rotated row's entry, once the index arithmetic modulo 8192 has been carried out. -/
theorem cyc_at (d : Fin 8192 → R) (t : Fin 8192) (s k : ℕ) (hk : k < 8192)
    (h : (t.val + 8192 - s % 8192) % 8192 = k) : cyc d t s = d ⟨k, hk⟩ := by
  subst h; rfl

/-- Inside the row, the padded row's entry at position k + 2 is the row's entry k. -/
theorem ext_in (d : Fin 8192 → R) (u k : ℕ) (hk : k < 8192) (h : u = k + 2) :
    ext d u = d ⟨k, hk⟩ := by
  subst h
  unfold ext
  rw [dif_pos ⟨by omega, by omega⟩]
  congr 1

/-- In the padding, the padded row's entry is zero. -/
theorem ext_out (d : Fin 8192 → R) (u : ℕ) (h : u < 2 ∨ 8194 ≤ u) : ext d u = 0 := by
  unfold ext
  rw [dif_neg (by omega)]

end Index

section Real

variable (a b e : ℝ) (d : Fin 8192 → ℝ)

/-- Away from the four edge columns the two filters agree. -/
theorem truev_eq_wrapv_mid (t : Fin 8192) (h2 : 2 ≤ t.val) (h9 : t.val ≤ 8189) :
    truev a b e d t = wrapv a b e d t := by
  have hd : d t = d ⟨t.val, t.isLt⟩ := rfl
  unfold truev wrapv
  rw [ext_in d t.val (t.val - 2) (by omega) (by omega),
      ext_in d (t.val + 1) (t.val - 1) (by omega) (by omega),
      ext_in d (t.val + 2) t.val t.isLt rfl,
      ext_in d (t.val + 3) (t.val + 1) (by omega) (by omega),
      ext_in d (t.val + 4) (t.val + 2) (by omega) (by omega),
      cyc_at d t 1 (t.val - 1) (by omega) (by omega),
      cyc_at d t 8191 (t.val + 1) (by omega) (by omega),
      cyc_at d t 2 (t.val - 2) (by omega) (by omega),
      cyc_at d t 8190 (t.val + 2) (by omega) (by omega), hd]
  ring

/-- Column 0: the two taps to the left fall in the padding; wrapped, they are the row's last two entries. -/
theorem col0 (t : Fin 8192) (h : t.val = 0) :
    truev a b e d t = (a * d ⟨0, by norm_num⟩ + b * d ⟨1, by norm_num⟩) + e * d ⟨2, by norm_num⟩ ∧
    wrapv a b e d t = (((e * d ⟨8190, by norm_num⟩ + b * d ⟨8191, by norm_num⟩) + a * d ⟨0, by norm_num⟩)
      + b * d ⟨1, by norm_num⟩) + e * d ⟨2, by norm_num⟩ := by
  have hd : d t = d ⟨0, by norm_num⟩ := congrArg d (Fin.ext h)
  constructor
  · unfold truev
    rw [ext_out d t.val (by omega), ext_out d (t.val + 1) (by omega),
        ext_in d (t.val + 2) 0 (by norm_num) (by omega), ext_in d (t.val + 3) 1 (by norm_num) (by omega),
        ext_in d (t.val + 4) 2 (by norm_num) (by omega)]
    ring
  · unfold wrapv
    rw [cyc_at d t 1 8191 (by norm_num) (by omega), cyc_at d t 8191 1 (by norm_num) (by omega),
        cyc_at d t 2 8190 (by norm_num) (by omega), cyc_at d t 8190 2 (by norm_num) (by omega), hd]
    ring

/-- Column 1: one tap to the left falls in the padding; wrapped, it is the row's last entry. -/
theorem col1 (t : Fin 8192) (h : t.val = 1) :
    truev a b e d t = ((b * d ⟨0, by norm_num⟩ + a * d ⟨1, by norm_num⟩) + b * d ⟨2, by norm_num⟩)
      + e * d ⟨3, by norm_num⟩ ∧
    wrapv a b e d t = (((e * d ⟨8191, by norm_num⟩ + b * d ⟨0, by norm_num⟩) + a * d ⟨1, by norm_num⟩)
      + b * d ⟨2, by norm_num⟩) + e * d ⟨3, by norm_num⟩ := by
  have hd : d t = d ⟨1, by norm_num⟩ := congrArg d (Fin.ext h)
  constructor
  · unfold truev
    rw [ext_out d t.val (by omega), ext_in d (t.val + 1) 0 (by norm_num) (by omega),
        ext_in d (t.val + 2) 1 (by norm_num) (by omega), ext_in d (t.val + 3) 2 (by norm_num) (by omega),
        ext_in d (t.val + 4) 3 (by norm_num) (by omega)]
    ring
  · unfold wrapv
    rw [cyc_at d t 1 0 (by norm_num) (by omega), cyc_at d t 8191 2 (by norm_num) (by omega),
        cyc_at d t 2 8191 (by norm_num) (by omega), cyc_at d t 8190 3 (by norm_num) (by omega), hd]
    ring

/-- Column 8190: one tap to the right falls in the padding; wrapped, it is the row's first entry. -/
theorem colP (t : Fin 8192) (h : t.val = 8190) :
    truev a b e d t = ((e * d ⟨8188, by norm_num⟩ + b * d ⟨8189, by norm_num⟩) + a * d ⟨8190, by norm_num⟩)
      + b * d ⟨8191, by norm_num⟩ ∧
    wrapv a b e d t = (((e * d ⟨8188, by norm_num⟩ + b * d ⟨8189, by norm_num⟩) + a * d ⟨8190, by norm_num⟩)
      + b * d ⟨8191, by norm_num⟩) + e * d ⟨0, by norm_num⟩ := by
  have hd : d t = d ⟨8190, by norm_num⟩ := congrArg d (Fin.ext h)
  constructor
  · unfold truev
    rw [ext_in d t.val 8188 (by norm_num) (by omega), ext_in d (t.val + 1) 8189 (by norm_num) (by omega),
        ext_in d (t.val + 2) 8190 (by norm_num) (by omega), ext_in d (t.val + 3) 8191 (by norm_num) (by omega),
        ext_out d (t.val + 4) (by omega)]
    ring
  · unfold wrapv
    rw [cyc_at d t 1 8189 (by norm_num) (by omega), cyc_at d t 8191 8191 (by norm_num) (by omega),
        cyc_at d t 2 8188 (by norm_num) (by omega), cyc_at d t 8190 0 (by norm_num) (by omega), hd]
    ring

/-- Column 8191: two taps to the right fall in the padding; wrapped, they are the row's first two entries. -/
theorem colL (t : Fin 8192) (h : t.val = 8191) :
    truev a b e d t = (e * d ⟨8189, by norm_num⟩ + b * d ⟨8190, by norm_num⟩) + a * d ⟨8191, by norm_num⟩ ∧
    wrapv a b e d t = (((e * d ⟨8189, by norm_num⟩ + b * d ⟨8190, by norm_num⟩) + a * d ⟨8191, by norm_num⟩)
      + b * d ⟨0, by norm_num⟩) + e * d ⟨1, by norm_num⟩ := by
  have hd : d t = d ⟨8191, by norm_num⟩ := congrArg d (Fin.ext h)
  constructor
  · unfold truev
    rw [ext_in d t.val 8189 (by norm_num) (by omega), ext_in d (t.val + 1) 8190 (by norm_num) (by omega),
        ext_in d (t.val + 2) 8191 (by norm_num) (by omega), ext_out d (t.val + 3) (by omega),
        ext_out d (t.val + 4) (by omega)]
    ring
  · unfold wrapv
    rw [cyc_at d t 1 8190 (by norm_num) (by omega), cyc_at d t 8191 0 (by norm_num) (by omega),
        cyc_at d t 2 8189 (by norm_num) (by omega), cyc_at d t 8190 1 (by norm_num) (by omega), hd]
    ring

/-- The difference of the squares, summed over the row, is the edge correction: it vanishes off the four edge
    columns, and at each of them it is the correction's term. -/
theorem sum_sq_sub :
    ∑ t : Fin 8192, (truev a b e d t * truev a b e d t - wrapv a b e d t * wrapv a b e d t) = corrv a b e d := by
  have hS : ∑ t ∈ ({⟨0, by norm_num⟩, ⟨1, by norm_num⟩, ⟨8190, by norm_num⟩, ⟨8191, by norm_num⟩} :
        Finset (Fin 8192)), (truev a b e d t * truev a b e d t - wrapv a b e d t * wrapv a b e d t)
      = ∑ t : Fin 8192, (truev a b e d t * truev a b e d t - wrapv a b e d t * wrapv a b e d t) := by
    apply Finset.sum_subset (Finset.subset_univ _)
    intro t _ ht
    simp only [Finset.mem_insert, Finset.mem_singleton, Fin.ext_iff, not_or] at ht
    obtain ⟨h0, h1, hP, hL⟩ := ht
    rw [truev_eq_wrapv_mid a b e d t (by omega) (by omega)]
    exact sub_self _
  have h4 : ∑ t ∈ ({⟨0, by norm_num⟩, ⟨1, by norm_num⟩, ⟨8190, by norm_num⟩, ⟨8191, by norm_num⟩} :
        Finset (Fin 8192)), (truev a b e d t * truev a b e d t - wrapv a b e d t * wrapv a b e d t)
      = corrv a b e d := by
    rw [Finset.sum_insert (by simp), Finset.sum_insert (by simp), Finset.sum_insert (by simp),
        Finset.sum_singleton]
    rw [(col0 a b e d ⟨0, by norm_num⟩ rfl).1, (col0 a b e d ⟨0, by norm_num⟩ rfl).2,
        (col1 a b e d ⟨1, by norm_num⟩ rfl).1, (col1 a b e d ⟨1, by norm_num⟩ rfl).2,
        (colP a b e d ⟨8190, by norm_num⟩ rfl).1, (colP a b e d ⟨8190, by norm_num⟩ rfl).2,
        (colL a b e d ⟨8191, by norm_num⟩ rfl).1, (colL a b e d ⟨8191, by norm_num⟩ rfl).2]
    simp only [corrv]
    ring
  rw [← hS, h4]

/-- The row identity over the reals. -/
theorem row_identity :
    ∑ t : Fin 8192, truev a b e d t * truev a b e d t
      = ∑ t : Fin 8192, wrapv a b e d t * wrapv a b e d t + corrv a b e d := by
  have key := sum_sq_sub a b e d
  rw [Finset.sum_sub_distrib] at key
  linarith

end Real

section Extended

variable (a b e : ℝ) (d : Fin 8192 → ℝ)

/-- The rotated row's entry commutes with the coercion: it is one entry of the row. -/
theorem cyc_coe (t : Fin 8192) (s : ℕ) :
    ((cyc d t s : ℝ) : EReal) = cyc (fun q => ((d q : ℝ) : EReal)) t s := rfl

/-- The padded row's entry commutes with the coercion: an entry of the row, or zero. -/
theorem ext_coe (u : ℕ) :
    ((ext d u : ℝ) : EReal) = ext (fun q => ((d q : ℝ) : EReal)) u := by
  unfold ext
  split_ifs
  · rfl
  · exact EReal.coe_zero

/-- The wrapped filter's entry of a real row, read in the extended reals. -/
theorem wrapv_coe (t : Fin 8192) :
    ((wrapv a b e d t : ℝ) : EReal)
      = wrapv (a : EReal) (b : EReal) (e : EReal) (fun q => ((d q : ℝ) : EReal)) t := by
  unfold wrapv
  simp only [EReal.coe_add, EReal.coe_mul, cyc_coe]

/-- The zero-padded filter's entry of a real row, read in the extended reals. -/
theorem truev_coe (t : Fin 8192) :
    ((truev a b e d t : ℝ) : EReal)
      = truev (a : EReal) (b : EReal) (e : EReal) (fun q => ((d q : ℝ) : EReal)) t := by
  unfold truev
  simp only [EReal.coe_add, EReal.coe_mul, ext_coe]

/-- The edge correction of a real row, read in the extended reals. -/
theorem corrv_coe :
    ((corrv a b e d : ℝ) : EReal)
      = corrv (a : EReal) (b : EReal) (e : EReal) (fun q => ((d q : ℝ) : EReal)) := by
  simp only [corrv, EReal.coe_add, EReal.coe_mul, EReal.coe_sub]

/-- The coercion of the reals into the extended reals commutes with finite sums. -/
theorem coe_sum {ι : Type} (s : Finset ι) (f : ι → ℝ) :
    ((∑ i ∈ s, f i : ℝ) : EReal) = ∑ i ∈ s, ((f i : ℝ) : EReal) := by
  classical
  refine Finset.induction_on s (by simp) ?_
  intro i s hi ih
  rw [Finset.sum_insert hi, Finset.sum_insert hi, EReal.coe_add, ih]

/-- The row identity for a real row read in the extended reals. -/
theorem row_identity_E :
    ∑ t : Fin 8192, truev (a : EReal) (b : EReal) (e : EReal) (fun q => ((d q : ℝ) : EReal)) t
        * truev (a : EReal) (b : EReal) (e : EReal) (fun q => ((d q : ℝ) : EReal)) t
      = ∑ t : Fin 8192, wrapv (a : EReal) (b : EReal) (e : EReal) (fun q => ((d q : ℝ) : EReal)) t
          * wrapv (a : EReal) (b : EReal) (e : EReal) (fun q => ((d q : ℝ) : EReal)) t
        + corrv (a : EReal) (b : EReal) (e : EReal) (fun q => ((d q : ℝ) : EReal)) := by
  have h := congrArg (fun x : ℝ => (x : EReal)) (row_identity a b e d)
  simp only [EReal.coe_add, coe_sum, EReal.coe_mul, truev_coe, wrapv_coe, corrv_coe] at h
  exact h

end Extended

end Cert.RowAlgebra
-- ==== Proof.Bridge.lean ====
/-
  The bridge between the two programs' results at the extended reals. The kernel's form and the reference's form
  carry the same class term and the same two final weights, so they agree as soon as
      Σ_k out_k + Σ_b corr_b = Σ_b Σ_t true(b,t)².
  The pallas_call's result out_k is the sum, over the 1024 rows 1024·k + b' of core k and all columns, of the squared
  wrap-around filter; the two cores' rows together are the 2048 rows, so Σ_k out_k = Σ_b Σ_t wrap(b,t)². Row by row,
  Σ_t wrap(b,t)² + corr_b = Σ_t true(b,t)² is the row identity, which holds because the row of differences and the
  three filter weights are reals: the inputs are real by hypothesis, and a binary32 pattern whose exponent field is
  not all ones denotes a real.
-/
import proofs.«412695_j67551245631962_3_alg».proof.Proof.SpecE
import proofs.«412695_j67551245631962_3_alg».proof.Proof.RowAlgebra
import Idealize.ShloMosaic.PureOps.Ideal
import Idealize.ShloMosaic.Lib.ValueIdx
import Mathlib.Algebra.BigOperators.Fin
import Mathlib.Data.EReal.Operations

noncomputable section

namespace Cert.Bridge

open Cert.Spec Cert.SpecE Idealize.ShloMosaic ValueIdx

/-- A pattern whose exponent field is not all ones denotes a real: a zero, a subnormal or a normal number. -/
theorem ieee_real (e m : Nat) {w : Nat} (b : BitVec w) (h : (b.extractLsb' m e).toNat ≠ 2 ^ e - 1) :
    ∃ x : ℝ, Ideal.ieee e m b = (x : EReal) := by
  unfold Ideal.ieee
  simp only [if_neg h]
  split_ifs <;> exact ⟨_, rfl⟩

/-- The centre weight is a real. -/
theorem wa_real : ∃ x : ℝ, wa = (x : EReal) := ieee_real 8 23 (0x3F333333#32) (by decide)

/-- The weight of the two nearest neighbours is a real. -/
theorem wb_real : ∃ x : ℝ, wb = (x : EReal) := ieee_real 8 23 (0x3DCCCCCD#32) (by decide)

/-- The weight of the two outer neighbours is a real. -/
theorem we_real : ∃ x : ℝ, we = (x : EReal) := ieee_real 8 23 (0x3D4CCCCD#32) (by decide)

/-- The 2048 rows are the 1024 rows of the first core followed by the 1024 rows of the second. -/
theorem sum_split {M : Type} [AddCommMonoid M] (f : Fin 2048 → M) :
    ∑ k : Fin 2, ∑ b' : Fin 1024, f ⟨1024 * k.val + b'.val, by omega⟩ = ∑ b : Fin 2048, f b := by
  have h := Fin.sum_univ_add (a := 1024) (b := 1024) f
  rw [Fin.sum_univ_two]
  refine Eq.trans (congrArg₂ (· + ·) ?_ ?_) h.symm
  · refine Finset.sum_congr rfl (fun i _ => congrArg f (Fin.ext ?_))
    show 1024 * ((0 : Fin 2) : ℕ) + i.val = i.val
    simp
  · refine Finset.sum_congr rfl (fun i _ => congrArg f (Fin.ext ?_))
    show 1024 * ((1 : Fin 2) : ℕ) + i.val = 1024 + i.val
    simp

/-- One row: the squared wrap-around filter summed over the row, plus the edge correction, is the squared
    zero-padded filter summed over the row. -/
theorem row_eq (a0 a2 : SA.Idx → EReal)
    (h0 : ∀ i, ∃ r : ℝ, a0 i = (r : EReal)) (h2 : ∀ i, ∃ r : ℝ, a2 i = (r : EReal)) (b : Fin 2048) :
    ∑ q : Fin 8192, wrapSq a0 a2 b q + corrv wa wb we (dRow a0 a2 b) = ∑ q : Fin 8192, trueSq a0 a2 b q := by
  obtain ⟨xa, hxa⟩ := wa_real
  obtain ⟨xb, hxb⟩ := wb_real
  obtain ⟨xe, hxe⟩ := we_real
  choose r0 hr0 using h0
  choose r2 hr2 using h2
  have hd : dRow a0 a2 b = fun q => (((r0 (ix2 b q) - r2 (ix2 b q) : ℝ)) : EReal) := by
    funext q
    unfold dRow
    rw [hr0, hr2, EReal.coe_sub]
  unfold wrapSq trueSq
  rw [hxa, hxb, hxe, hd]
  exact (Cert.RowAlgebra.row_identity_E xa xb xe (fun q => r0 (ix2 b q) - r2 (ix2 b q))).symm

/-- The kernel's form equals the reference's form, for real inputs and a pallas_call result that is, per core, the
    sum of the squared wrap-around filter over the core's rows. -/
theorem forms_eq (a0 a2 : SA.Idx → EReal) (a1 a3 : SC.Idx → EReal) (out : (⟨3, ![2, 8, 128]⟩ : Shape).Idx → EReal)
    (h0 : ∀ i, ∃ r : ℝ, a0 i = (r : EReal)) (h2 : ∀ i, ∃ r : ℝ, a2 i = (r : EReal))
    (hout : ∀ k : Fin 2, out (ix3 k (0 : Fin 8) (0 : Fin 128)) = ∑ b' : Fin 1024, ∑ q : Fin 8192, wrapSq a0 a2 ⟨1024 * k.val + b'.val, by omega⟩ q) :
    kernelForm a0 a2 a1 a3 out = refForm a0 a2 a1 a3 := by
  have hk : ∑ k : Fin 2, out (ix3 k (0 : Fin 8) (0 : Fin 128))
      = ∑ b : Fin 2048, ∑ q : Fin 8192, wrapSq a0 a2 b q := by
    rw [← sum_split (fun b => ∑ q : Fin 8192, wrapSq a0 a2 b q)]
    exact Finset.sum_congr rfl (fun k _ => hout k)
  have key : (0 + ∑ k : Fin 2, out (ix3 k (0 : Fin 8) (0 : Fin 128)))
        + (0 + ∑ b : Fin 2048, corrv wa wb we (dRow a0 a2 b))
      = 0 + ∑ b : Fin 2048, ∑ q : Fin 8192, trueSq a0 a2 b q := by
    rw [zero_add, zero_add, zero_add, hk, ← Finset.sum_add_distrib]
    exact Finset.sum_congr rfl (fun b _ => row_eq a0 a2 h0 h2 b)
  unfold kernelForm refForm
  rw [key]

end Cert.Bridge

end
-- ==== Proof.Finite.lean ====
/-
  Finiteness of the inputs. The precondition states, for each of the four float inputs, that every
  entry has absolute value strictly below +∞, and takes the conjunction. Over the extended reals an
  entry x with max x (-x) < ⊤ is neither ⊤ nor ⊥, hence a real number.
-/
import proofs.«412695_j67551245631962_3_alg».proof.Proof.Gen.Pre_finite_inputs
import Idealize.ShloMosaic.PureOps.Ideal
import Idealize.ShloMosaic.Lib.ReduceAll
import Idealize.ShloMosaic.Lib.ValueIdx

noncomputable section

namespace Cert.Finite

open Idealize.ShloMosaic Cert.Pre_finite_inputs

/-- The rank-0 shape has a single index. -/
instance subsingleton_S_Idx : Subsingleton S_.Idx := ⟨fun a b => funext fun d => d.elim0⟩

/-- The pattern 0x7F800000 denotes +∞. -/
theorem ofBits_inf : Ideal.ofBits .f32 0x7F800000#32 = (⊤ : EReal) := by
  simp [Ideal.ofBits, Ideal.ieee]

/-- An extended real whose absolute value max x (-x) is strictly below +∞ is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The element fact: the comparison |x| < +∞ answering 1 makes x a real number. -/
theorem real_of_cmp (x : Ideal .f32)
    (h : FloatOps.cmpf (F := Ideal) (φ := .f32) .olt (FloatOps.hostAbsf x) (FloatOps.ofBits .f32 0x7F800000#32) = 1#1) :
    ∃ r : ℝ, x = (r : EReal) := by
  apply real_of_abs_lt_top
  have h' : Ideal.cmp .olt (max x (-x)) (Ideal.ofBits .f32 0x7F800000#32) = 1#1 := h
  rw [ofBits_inf] at h'
  by_contra hn
  have hd : decide (max x (-x) < (⊤ : EReal)) = false := decide_eq_false hn
  simp only [Ideal.cmp, hd] at h'
  exact absurd h' (by decide)

/-- One input: the reduction by and of the comparisons |a i| < +∞ answering 1 makes every entry real. -/
theorem real_of_all {s : Shape} {axes : List (Fin s.rank)} (dims : Fin S_.rank → Fin s.rank)
    (hb : S_.BroadcastsInDim s dims) (hr : s.ReducesTo axes S_) (hu : 0 < S_.numel)
    (a : FVec Ideal s .f32) (init : IVec S_ 1)
    (e : Host.reduce IntOp.andi
          (cmpf .olt (Host.absf a) (broadcastInDim s dims hb (constant (F := Ideal) S_ .f32 0x7F800000#32)))
          init hr hu ValueIdx.ix0 = 1#1) :
    ∀ i, ∃ r : ℝ, a i = (r : EReal) := by
  intro i
  have hi := Host.reduce_andi_all _ init hr hu ValueIdx.ix0 e i
  exact real_of_cmp (a i) hi

/-- Under the precondition every entry of every input is a real number. -/
theorem real_of_pre [Cert.Pre_finite_inputs.Facts]
    (a0 : FVec Ideal S2048x8192 .f32) (a1 : FVec Ideal S2048x3 .f32)
    (a2 : FVec Ideal S2048x8192 .f32) (a3 : FVec Ideal S2048x3 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧
      (∀ i, ∃ r : ℝ, a2 i = (r : EReal)) ∧ (∀ i, ∃ r : ℝ, a3 i = (r : EReal)) := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨real_of_all _ _ _ _ a0 _ h0', real_of_all _ _ _ _ a1 _ h1,
    real_of_all _ _ _ _ a2 _ h2, real_of_all _ _ _ _ a3 _ h3⟩

end Cert.Finite

end
-- ==== Proof.Value.lean ====
/-
  The two results are one number. Under the precondition every entry of the four inputs is real; the kernel's
  host lines read at the extended reals give ((0 + Σ_k out_k) + (0 + Σ_b corr_b))·w₈ + class·w₂, the pallas_call's
  result out_k being the sum over core k's rows and all columns of the squared wrap-around filter; the reference
  reads as (0 + Σ_{b,t} true(b,t)²)·w₈ + class·w₂; and row by row Σ_t wrap² + corr = Σ_t true².
-/
import proofs.«412695_j67551245631962_3_alg».proof.Proof.KernelRun
import proofs.«412695_j67551245631962_3_alg».proof.Proof.TailRead
import proofs.«412695_j67551245631962_3_alg».proof.Proof.RefRead
import proofs.«412695_j67551245631962_3_alg».proof.Proof.OutFinal
import proofs.«412695_j67551245631962_3_alg».proof.Proof.Bridge
import proofs.«412695_j67551245631962_3_alg».proof.Proof.Finite
import proofs.«412695_j67551245631962_3_alg».proof.Defs

set_option maxRecDepth 16384

noncomputable section

namespace Cert.Value

open Idealize.ShloMosaic Idealize.ShloMosaic.TcCoe Idealize.SL.Sem

instance : Subsingleton Cert.KernelIdeal.S_.Idx := ⟨fun a b => funext fun d => d.elim0⟩

/-- Under the precondition, the kernel program's result is the reference's term of the same arguments. -/
theorem value_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.Run.kVal (F := Ideal) m c
      = Cert.ReferenceIdeal.RefRun.refVal (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  obtain ⟨h0, h1, h2, h3⟩ := Cert.Finite.real_of_pre _ _ _ _ (hpre c)
  funext i
  obtain rfl : i = ValueIdx.ix0 := Subsingleton.elim _ _
  unfold Cert.KernelIdeal.Run.kVal
  rw [Cert.KernelIdeal.Tail.tail_read, Cert.ReferenceIdeal.RefRead.ref_read]
  exact Cert.Bridge.forms_eq _ _ _ _ _ h0 h2 (fun k => Cert.KernelIdeal.Acc.out_final m c k)

end Cert.Value

end
-- ==== Proof.lean ====
/-
  The certificate: the kernel (a pallas_call accumulating, per core, the sum over its rows and all columns of the
  squared WRAP-AROUND five-tap filter of target − prediction, followed by host lines that add the two cores' totals,
  an edge correction from the first and last four columns of every row, and a class term) against the reference (the
  squared ZERO-PADDED five-tap filter summed over everything, plus the same class term).
  The three frames: each program runs to the end without a fault and leaves its four arguments as they were. The
  idealization rewrote nothing, so its conjunct is trivial. At the extended reals, for finite inputs, the two results
  are one number: per row the two filters differ only at the columns 0, 1, 8190, 8191, and there the host's
  correction is exactly the difference of the squares; everything else is a reordering of finite sums.
-/
import proofs.«412695_j67551245631962_3_alg».proof.Defs
import proofs.«412695_j67551245631962_3_alg».proof.Proof.FrameB.Frame
import proofs.«412695_j67551245631962_3_alg».proof.Proof.FrameI.Frame
import proofs.«412695_j67551245631962_3_alg».proof.Proof.RefRun
import proofs.«412695_j67551245631962_3_alg».proof.Proof.KernelRun
import proofs.«412695_j67551245631962_3_alg».proof.Proof.Value
import proofs.«412695_j67551245631962_3_alg».proof.Proof.Gen.Pre_finite_inputs
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.RefRun.run (F := Ideal) m ρ)

/-- Both programs run; from memories agreeing on the arguments the reference's result is the kernel's. -/
theorem algebraic : Cert.algebraic_KernelIdeal_ReferenceIdeal := by
  intro m ρ m' ρ' hpre hagree
  refine ⟨fun c => Cert.KernelIdeal.Run.kVal (F := Ideal) m c, Cert.KernelIdeal.Run.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact (Cert.Value.value_eq m hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
